-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x64x64 : Shape := ⟨4, ![16, 128, 64, 64]⟩
abbrev S128x128x3x3 : Shape := ⟨4, ![128, 128, 3, 3]⟩
abbrev S128 : Shape := ⟨1, ![128]⟩
abbrev S_ : Shape := ⟨0, ![]⟩

class Facts : Prop where
  bcast_S_S16x128x64x64 : S_.BroadcastsInDim S16x128x64x64 (![] : Fin 0 → Fin S16x128x64x64.rank)
  reducesTo_S16x128x64x64_S_d0_1_2_3 : S16x128x64x64.ReducesTo [0, 1, 2, 3] S_
  h_S_ : 0 < S_.numel
  bcast_S_S128x128x3x3 : S_.BroadcastsInDim S128x128x3x3 (![] : Fin 0 → Fin S128x128x3x3.rank)
  reducesTo_S128x128x3x3_S_d0_1_2_3 : S128x128x3x3.ReducesTo [0, 1, 2, 3] S_
  bcast_S_S128 : S_.BroadcastsInDim S128 (![] : Fin 0 → Fin S128.rank)
  reducesTo_S128_S_d0 : S128.ReducesTo [0] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S16x128x64x64 .f32) (main_arg1 : FVec F S128x128x3x3 .f32) (main_arg2 : FVec F S128 .f32) (main_arg3 : FVec F S_ .f32) : IVec S_ 1 :=
  let main_v0 : FVec F S16x128x64x64 .f32 := Host.absf main_arg0
  let main_cst : FVec F S_ .f32 := constant S_ .f32 0x7F800000#32
  let main_v1 : FVec F S16x128x64x64 .f32 := broadcastInDim S16x128x64x64 ![] bcast_S_S16x128x64x64 main_cst
  let main_v2 : IVec S16x128x64x64 1 := cmpf .olt main_v0 main_v1
  let main_c : IVec S_ 1 := constantI S_ 1 1#1
  let main_v3 : IVec S_ 1 := (fun x v => Host.reduce IntOp.andi x v reducesTo_S16x128x64x64_S_d0_1_2_3 h_S_) main_v2 main_c
  let main_v4 : FVec F S128x128x3x3 .f32 := Host.absf main_arg1
  let main_cst_0 : FVec F S_ .f32 := constant S_ .f32 0x7F800000#32
  let main_v5 : FVec F S128x128x3x3 .f32 := broadcastInDim S128x128x3x3 ![] bcast_S_S128x128x3x3 main_cst_0
  let main_v6 : IVec S128x128x3x3 1 := cmpf .olt main_v4 main_v5
  let main_c_1 : IVec S_ 1 := constantI S_ 1 1#1
  let main_v7 : IVec S_ 1 := (fun x v => Host.reduce IntOp.andi x v reducesTo_S128x128x3x3_S_d0_1_2_3 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S16x128x64x64 : Shape := ⟨4, ![16, 128, 64, 64]⟩
abbrev S128x128x3x3 : Shape := ⟨4, ![128, 128, 3, 3]⟩
abbrev S128 : Shape := ⟨1, ![128]⟩
abbrev S_ : Shape := ⟨0, ![]⟩
abbrev S3x3x128x128 : Shape := ⟨4, ![3, 3, 128, 128]⟩
abbrev S1152x128 : Shape := ⟨2, ![1152, 128]⟩
abbrev S16x128x4096 : Shape := ⟨3, ![16, 128, 4096]⟩
abbrev S128x1 : Shape := ⟨2, ![128, 1]⟩
abbrev S1x128x4096 : Shape := ⟨3, ![1, 128, 4096]⟩
abbrev S66x66x128 : Shape := ⟨3, ![66, 66, 128]⟩
abbrev S4096x1152 : Shape := ⟨2, ![4096, 1152]⟩
abbrev S1x66x128 : Shape := ⟨3, ![1, 66, 128]⟩
abbrev S66x1x128 : Shape := ⟨3, ![66, 1, 128]⟩
abbrev S66x2x128 : Shape := ⟨3, ![66, 2, 128]⟩
abbrev S128x4096 : Shape := ⟨2, ![128, 4096]⟩
abbrev S4096x128 : Shape := ⟨2, ![4096, 128]⟩
abbrev S64x64x128 : Shape := ⟨3, ![64, 64, 128]⟩
abbrev S64x66x128 : Shape := ⟨3, ![64, 66, 128]⟩

abbrev nBuf : Space → Nat
  | .hbm => 13
  | .vmem => 8
  | .smem => 0
  | _ => 0

abbrev bufTy : (tb : Table) → Fin (tcTables nBuf tb) → BufTy
  | .hbm, ⟨0, _⟩ => ⟨S16x128x64x64, .f32⟩
  | .hbm, ⟨1, _⟩ => ⟨S128x128x3x3, .f32⟩
  | .hbm, ⟨2, _⟩ => ⟨S128, .f32⟩
  | .hbm, ⟨3, _⟩ => ⟨S_, .f32⟩
  | .hbm, ⟨4, _⟩ => ⟨S128x128x3x3, .f32⟩
  | .hbm, ⟨5, _⟩ => ⟨S128x128x3x3, .f32⟩
  | .hbm, ⟨6, _⟩ => ⟨S3x3x128x128, .f32⟩
  | .hbm, ⟨7, _⟩ => ⟨S1152x128, .f32⟩
  | .hbm, ⟨8, _⟩ => ⟨S1152x128, .bf16⟩
  | .hbm, ⟨9, _⟩ => ⟨S16x128x4096, .f32⟩
  | .hbm, ⟨10, _⟩ => ⟨S128x1, .f32⟩
  | .hbm, ⟨11, _⟩ => ⟨S16x128x4096, .f32⟩
  | .hbm, ⟨12, _⟩ => ⟨S16x128x64x64, .f32⟩
  | .local _ .vmem, ⟨0, _⟩ => ⟨S1x128x4096, .f32⟩
  | .local _ .vmem, ⟨1, _⟩ => ⟨S1x128x4096, .f32⟩
  | .local _ .vmem, ⟨2, _⟩ => ⟨S1152x128, .bf16⟩
  | .local _ .vmem, ⟨3, _⟩ => ⟨S128x1, .f32⟩
  | .local _ .vmem, ⟨4, _⟩ => ⟨S1x128x4096, .f32⟩
  | .local _ .vmem, ⟨5, _⟩ => ⟨S1x128x4096, .f32⟩
  | .local _ .vmem, ⟨6, _⟩ => ⟨S66x66x128, .bf16⟩
  | .local _ .vmem, ⟨7, _⟩ => ⟨S4096x1152, .bf16⟩
  | _, _ => ⟨S16x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S128x128x3x3 : S_.BroadcastsInDim S128x128x3x3 (![] : Fin 0 → Fin S128x128x3x3.rank)
  transposes_S128x128x3x3_S3x3x128x128_2_3_1_0 : S128x128x3x3.Transposes [2, 3, 1, 0] S3x3x128x128
  shapeCasts_S3x3x128x128_S1152x128 : S3x3x128x128.ShapeCasts S1152x128
  bitsLt_bf16_f32 : FTy.bits .bf16 < FTy.bits .f32
  shapeCasts_S16x128x64x64_S16x128x4096 : S16x128x64x64.ShapeCasts S16x128x4096
  shapeCasts_S128_S128x1 : S128.ShapeCasts S128x1
  inb_S66x66x128_S1x66x128_0_0_0 : ∀ a, (![0, 0, 0] : Fin 3 → Nat) a + S1x66x128.size a ≤ S66x66x128.size a
  h_S1x66x128 : 0 < S1x66x128.numel
  shapeCasts_S1x66x128_S1x66x128 : S1x66x128.ShapeCasts S1x66x128
  packedbf16_S66x66x128_S1x66x128_0_0_0 : (Rect.unit (s := S66x66x128) ![0, 0, 0] S1x66x128.size inb_S66x66x128_S1x66x128_0_0_0).PackedRows (EltTy.packing .bf16)
  inb_S66x66x128_S1x66x128_65_0_0 : ∀ a, (![65, 0, 0] : Fin 3 → Nat) a + S1x66x128.size a ≤ S66x66x128.size a
  packedbf16_S66x66x128_S1x66x128_65_0_0 : (Rect.unit (s := S66x66x128) ![65, 0, 0] S1x66x128.size inb_S66x66x128_S1x66x128_65_0_0).PackedRows (EltTy.packing .bf16)
  inb_S66x66x128_S66x1x128_0_0_0 : ∀ a, (![0, 0, 0] : Fin 3 → Nat) a + S66x1x128.size a ≤ S66x66x128.size a
  h_S66x1x128 : 0 < S66x1x128.numel
  shapeCasts_S66x1x128_S66x1x128 : S66x1x128.ShapeCasts S66x1x128
  inb_S66x66x128_S66x2x128_0_0_0 : ∀ a, (![0, 0, 0] : Fin 3 → Nat) a + S66x2x128.size a ≤ S66x66x128.size a
  h_S66x2x128 : 0 < S66x2x128.numel
  slices_S66x2x128_S66x1x128_0_0_0 : S66x2x128.Slices ![0, 0, 0] S66x1x128
  packedbf16_S66x66x128_S66x2x128_0_0_0 : (Rect.unit (s := S66x66x128) ![0, 0, 0] S66x2x128.size inb_S66x66x128_S66x2x128_0_0_0).PackedRows (EltTy.packing .bf16)
  inb_S66x66x128_S66x1x128_0_65_0 : ∀ a, (![0, 65, 0] : Fin 3 → Nat) a + S66x1x128.size a ≤ S66x66x128.size a
  inb_S66x66x128_S66x2x128_0_64_0 : ∀ a, (![0, 64, 0] : Fin 3 → Nat) a + S66x2x128.size a ≤ S66x66x128.size a
  slices_S66x2x128_S66x1x128_0_1_0 : S66x2x128.Slices ![0, 1, 0] S66x1x128
  packedbf16_S66x66x128_S66x2x128_0_64_0 : (Rect.unit (s := S66x66x128) ![0, 64, 0] S66x2x128.size inb_S66x66x128_S66x2x128_0_64_0).PackedRows (EltTy.packing .bf16)
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  transposes_S128x4096_p1_0_S4096x128 : S128x4096.Transposes [1, 0] S4096x128
  shapeCasts_S4096x128_S64x64x128 : S4096x128.ShapeCasts S64x64x128
  inb_S66x66x128_S64x64x128_1_1_0 : ∀ a, (![1, 1, 0] : Fin 3 → Nat) a + S64x64x128.size a ≤ S66x66x128.size a
  h_S64x64x128 : 0 < S64x64x128.numel
  shapeCasts_S64x64x128_S64x64x128 : S64x64x128.ShapeCasts S64x64x128
  inb_S66x66x128_S64x66x128_1_0_0 : ∀ a, (![1, 0, 0] : Fin 3 → Nat) a + S64x66x128.size a ≤ S66x66x128.size a
  h_S64x66x128 : 0 < S64x66x128.numel
  slices_S64x66x128_S64x64x128_0_1_0 : S64x66x128.Slices ![0, 1, 0] S64x64x128
  packedbf16_S66x66x128_S64x66x128_1_0_0 : (Rect.unit (s := S66x66x128) ![1, 0, 0] S64x66x128.size inb_S66x66x128_S64x66x128_1_0_0).PackedRows (EltTy.packing .bf16)
  inb_S66x66x128_S64x64x128_0_0_0 : ∀ a, (![0, 0, 0] : Fin 3 → Nat) a + S64x64x128.size a ≤ S66x66x128.size a
  shapeCasts_S64x64x128_S4096x128 : S64x64x128.ShapeCasts S4096x128
  inb_S4096x1152_S4096x128_0_0 : ∀ a, (![0, 0] : Fin 2 → Nat) a + S4096x128.size a ≤ S4096x1152.size a
  h_S4096x128 : 0 < S4096x128.numel
  shapeCasts_S4096x128_S4096x128 : S4096x128.ShapeCasts S4096x128
  packedbf16_S4096x1152_S4096x128_0_0 : (Rect.unit (s := S4096x1152) ![0, 0] S4096x128.size inb_S4096x1152_S4096x128_0_0).PackedRows (EltTy.packing .bf16)
  inb_S66x66x128_S64x64x128_0_1_0 : ∀ a, (![0, 1, 0] : Fin 3 → Nat) a + S64x64x128.size a ≤ S66x66x128.size a
  inb_S4096x1152_S4096x128_0_128 : ∀ a, (![0, 128] : Fin 2 → Nat) a + S4096x128.size a ≤ S4096x1152.size a
  packedbf16_S4096x1152_S4096x128_0_128 : (Rect.unit (s := S4096x1152) ![0, 128] S4096x128.size inb_S4096x1152_S4096x128_0_128).PackedRows (EltTy.packing .bf16)
  inb_S66x66x128_S64x64x128_0_2_0 : ∀ a, (![0, 2, 0] : Fin 3 → Nat) a + S64x64x128.size a ≤ S66x66x128.size a
  inb_S4096x1152_S4096x128_0_256 : ∀ a, (![0, 256] : Fin 2 → Nat) a + S4096x128.size a ≤ S4096x1152.size a
  packedbf16_S4096x1152_S4096x128_0_256 : (Rect.unit (s := S4096x1152) ![0, 256] S4096x128.size inb_S4096x1152_S4096x128_0_256).PackedRows (EltTy.packing .bf16)
  inb_S66x66x128_S64x64x128_1_0_0 : ∀ a, (![1, 0, 0] : Fin 3 → Nat) a + S64x64x128.size a ≤ S66x66x128.size a
  inb_S4096x1152_S4096x128_0_384 : ∀ a, (![0, 384] : Fin 2 → Nat) a + S4096x128.size a ≤ S4096x1152.size a
  packedbf16_S4096x1152_S4096x128_0_384 : (Rect.unit (s := S4096x1152) ![0, 384] S4096x128.size inb_S4096x1152_S4096x128_0_384).PackedRows (EltTy.packing .bf16)
  inb_S4096x1152_S4096x128_0_512 : ∀ a, (![0, 512] : Fin 2 → Nat) a + S4096x128.size a ≤ S4096x1152.size a
  packedbf16_S4096x1152_S4096x128_0_512 : (Rect.unit (s := S4096x1152) ![0, 512] S4096x128.size inb_S4096x1152_S4096x128_0_512).PackedRows (EltTy.packing .bf16)
  inb_S66x66x128_S64x64x128_1_2_0 : ∀ a, (![1, 2, 0] : Fin 3 → Nat) a + S64x64x128.size a ≤ S66x66x128.size a
  inb_S4096x1152_S4096x128_0_640 : ∀ a, (![0, 640] : Fin 2 → Nat) a + S4096x128.size a ≤ S4096x1152.size a
  packedbf16_S4096x1152_S4096x128_0_640 : (Rect.unit (s := S4096x1152) ![0, 640] S4096x128.size inb_S4096x1152_S4096x128_0_640).PackedRows (EltTy.packing .bf16)
  inb_S66x66x128_S64x64x128_2_0_0 : ∀ a, (![2, 0, 0] : Fin 3 → Nat) a + S64x64x128.size a ≤ S66x66x128.size a
  inb_S4096x1152_S4096x128_0_768 : ∀ a, (![0, 768] : Fin 2 → Nat) a + S4096x128.size a ≤ S4096x1152.size a
  packedbf16_S4096x1152_S4096x128_0_768 : (Rect.unit (s := S4096x1152) ![0, 768] S4096x128.size inb_S4096x1152_S4096x128_0_768).PackedRows (EltTy.packing .bf16)
  inb_S66x66x128_S64x64x128_2_1_0 : ∀ a, (![2, 1, 0] : Fin 3 → Nat) a + S64x64x128.size a ≤ S66x66x128.size a
  inb_S4096x1152_S4096x128_0_896 : ∀ a, (![0, 896] : Fin 2 → Nat) a + S4096x128.size a ≤ S4096x1152.size a
  packedbf16_S4096x1152_S4096x128_0_896 : (Rect.unit (s := S4096x1152) ![0, 896] S4096x128.size inb_S4096x1152_S4096x128_0_896).PackedRows (EltTy.packing .bf16)
  inb_S66x66x128_S64x64x128_2_2_0 : ∀ a, (![2, 2, 0] : Fin 3 → Nat) a + S64x64x128.size a ≤ S66x66x128.size a
  inb_S4096x1152_S4096x128_0_1024 : ∀ a, (![0, 1024] : Fin 2 → Nat) a + S4096x128.size a ≤ S4096x1152.size a
  packedbf16_S4096x1152_S4096x128_0_1024 : (Rect.unit (s := S4096x1152) ![0, 1024] S4096x128.size inb_S4096x1152_S4096x128_0_1024).PackedRows (EltTy.packing .bf16)
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  inb_S4096x1152_S4096x1152_0_0 : ∀ a, (![0, 0] : Fin 2 → Nat) a + S4096x1152.size a ≤ S4096x1152.size a
  h_S4096x1152 : 0 < S4096x1152.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x4096 : S128x1.Broadcasts S128x4096
  shapeCasts_S128x4096_S1x128x4096 : S128x4096.ShapeCasts S1x128x4096
  shapeCasts_S16x128x4096_S16x128x64x64 : S16x128x4096.ShapeCasts S16x128x64x64
  dot_S1152x128_S4096x1152_S128x4096_0_1_1_0_n_n_wf : DotDims.WF S1152x128 S4096x1152 S128x4096 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x4096.size a ≤ S16x128x4096.size a
  hwx0_0 : ∀ i : grid0.Coords, EltTy.bits .f32 = 32 ∨ (Rect.block (s := S16x128x4096) S1x128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x128.size a ≤ S1152x128.size a
  hwx0_1 : ∀ i : grid0.Coords, EltTy.bits .bf16 = 32 ∨ (Rect.block (s := S1152x128) S1152x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x4096.size a ≤ S16x128x4096.size a
  hwx0_3 : ∀ i : grid0.Coords, EltTy.bits .f32 = 32 ∨ (Rect.block (s := S16x128x4096) S1x128x4096.size (cc0_transform_3 i) (hinb0_3 i)).WholeWords (EltTy.packing .f32)

variable [Facts₀]

def dot_S1152x128_S4096x1152_S128x4096_0_1_1_0_n_n : DotDims S1152x128 S4096x1152 S128x4096 where
  lhsContracting := [0]
  rhsContracting := [1]
  lhsNonContracting := [1]
  rhsNonContracting := [0]
  lhsBatch := []
  rhsBatch := []
  wf := dot_S1152x128_S4096x1152_S128x4096_0_1_1_0_n_n_wf

abbrev win0_0 : Pipeline.Window sig grid0 :=
  Pipeline.Window.ofSpec (Memref.whole main_v5) S1x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1152x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x128x64x64 : Shape := ⟨4, ![16, 128, 64, 64]⟩
abbrev S128x128x3x3 : Shape := ⟨4, ![128, 128, 3, 3]⟩
abbrev S128 : Shape := ⟨1, ![128]⟩
abbrev S_ : Shape := ⟨0, ![]⟩
abbrev S3x3x128x128 : Shape := ⟨4, ![3, 3, 128, 128]⟩
abbrev S1152x128 : Shape := ⟨2, ![1152, 128]⟩
abbrev S16x64x64x128 : Shape := ⟨4, ![16, 64, 64, 128]⟩
abbrev S16x66x66x128 : Shape := ⟨4, ![16, 66, 66, 128]⟩
abbrev S16x64x64x1152 : Shape := ⟨4, ![16, 64, 64, 1152]⟩
abbrev S16x4096x1152 : Shape := ⟨3, ![16, 4096, 1152]⟩
abbrev S1x128 : Shape := ⟨2, ![1, 128]⟩
abbrev S16x4096x128 : Shape := ⟨3, ![16, 4096, 128]⟩
abbrev S1x512x1152 : Shape := ⟨3, ![1, 512, 1152]⟩
abbrev S1x512x128 : Shape := ⟨3, ![1, 512, 128]⟩
abbrev S512x1152 : Shape := ⟨2, ![512, 1152]⟩
abbrev S512x128 : Shape := ⟨2, ![512, 128]⟩

abbrev nBuf : Space → Nat
  | .hbm => 38
  | .vmem => 6
  | .smem => 0
  | _ => 0

abbrev bufTy : (tb : Table) → Fin (tcTables nBuf tb) → BufTy
  | .hbm, ⟨0, _⟩ => ⟨S16x128x64x64, .f32⟩
  | .hbm, ⟨1, _⟩ => ⟨S128x128x3x3, .f32⟩
  | .hbm, ⟨2, _⟩ => ⟨S128, .f32⟩
  | .hbm, ⟨3, _⟩ => ⟨S_, .f32⟩
  | .hbm, ⟨4, _⟩ => ⟨S128x128x3x3, .f32⟩
  | .hbm, ⟨5, _⟩ => ⟨S128x128x3x3, .f32⟩
  | .hbm, ⟨6, _⟩ => ⟨S3x3x128x128, .f32⟩
  | .hbm, ⟨7, _⟩ => ⟨S1152x128, .f32⟩
  | .hbm, ⟨8, _⟩ => ⟨S1152x128, .bf16⟩
  | .hbm, ⟨9, _⟩ => ⟨S16x64x64x128, .f32⟩
  | .hbm, ⟨10, _⟩ => ⟨S_, .i32⟩
  | .hbm, ⟨11, _⟩ => ⟨S_, .f32⟩
  | .hbm, ⟨12, _⟩ => ⟨S16x66x66x128, .f32⟩
  | .hbm, ⟨13, _⟩ => ⟨S16x64x64x128, .f32⟩
  | .hbm, ⟨14, _⟩ => ⟨S16x64x64x128, .f32⟩
  | .hbm, ⟨15, _⟩ => ⟨S16x64x64x128, .f32⟩
  | .hbm, ⟨16, _⟩ => ⟨S16x64x64x128, .f32⟩
  | .hbm, ⟨17, _⟩ => ⟨S16x64x64x128, .f32⟩
  | .hbm, ⟨18, _⟩ => ⟨S16x64x64x128, .f32⟩
  | .hbm, ⟨19, _⟩ => ⟨S16x64x64x128, .f32⟩
  | .hbm, ⟨20, _⟩ => ⟨S16x64x64x128, .f32⟩
  | .hbm, ⟨21, _⟩ => ⟨S16x64x64x128, .f32⟩
  | .hbm, ⟨22, _⟩ => ⟨S16x64x64x1152, .f32⟩
  | .hbm, ⟨23, _⟩ => ⟨S16x4096x1152, .f32⟩
  | .hbm, ⟨24, _⟩ => ⟨S16x4096x1152, .bf16⟩
  | .hbm, ⟨25, _⟩ => ⟨S_, .i32⟩
  | .hbm, ⟨26, _⟩ => ⟨S_, .bf16⟩
  | .hbm, ⟨27, _⟩ => ⟨S16x4096x1152, .bf16⟩
  | .hbm, ⟨28, _⟩ => ⟨S_, .i32⟩
  | .hbm, ⟨29, _⟩ => ⟨S_, .bf16⟩
  | .hbm, ⟨30, _⟩ => ⟨S1152x128, .bf16⟩
  | .hbm, ⟨31, _⟩ => ⟨S1x128, .f32⟩
  | .hbm, ⟨32, _⟩ => ⟨S_, .i32⟩
  | .hbm, ⟨33, _⟩ => ⟨S_, .f32⟩
  | .hbm, ⟨34, _⟩ => ⟨S1x128, .f32⟩
  | .hbm, ⟨35, _⟩ => ⟨S16x4096x128, .f32⟩
  | .hbm, ⟨36, _⟩ => ⟨S16x64x64x128, .f32⟩
  | .hbm, ⟨37, _⟩ => ⟨S16x128x64x64, .f32⟩
  | .local _ .vmem, ⟨0, _⟩ => ⟨S1x512x1152, .bf16⟩
  | .local _ .vmem, ⟨1, _⟩ => ⟨S1x512x1152, .bf16⟩
  | .local _ .vmem, ⟨2, _⟩ => ⟨S1152x128, .bf16⟩
  | .local _ .vmem, ⟨3, _⟩ => ⟨S1x128, .f32⟩
  | .local _ .vmem, ⟨4, _⟩ => ⟨S1x512x128, .f32⟩
  | .local _ .vmem, ⟨5, _⟩ => ⟨S1x512x128, .f32⟩
  | _, _ => ⟨S16x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_call1_v0 : Ref sig .tc := ⟨.hbm, 26, rfl⟩
abbrev main_v19 : Ref sig .tc := ⟨.hbm, 27, rfl⟩
abbrev main_c_1 : Ref sig .tc := ⟨.hbm, 28, rfl⟩
abbrev main_call2_v0 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_call3_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![1, 16, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1152x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  bcast_S_S128x128x3x3 : S_.BroadcastsInDim S128x128x3x3 (![] : Fin 0 → Fin S128x128x3x3.rank)
  transposes_S128x128x3x3_S3x3x128x128_2_3_1_0 : S128x128x3x3.Transposes [2, 3, 1, 0] S3x3x128x128
  shapeCasts_S3x3x128x128_S1152x128 : S3x3x128x128.ShapeCasts S1152x128
  bitsLt_bf16_f32 : FTy.bits .bf16 < FTy.bits .f32
  transposes_S16x128x64x64_S16x64x64x128_0_2_3_1 : S16x128x64x64.Transposes [0, 2, 3, 1] S16x64x64x128
  pads_S16x64x64x128_S16x66x66x128_000_110_110_000 : S16x64x64x128.Pads (![0, 1, 1, 0] : Fin 4 → Nat) ![0, 1, 1, 0] ![0, 0, 0, 0] S16x66x66x128
  h_S_ : 0 < S_.numel
  slices_S16x66x66x128_S16x64x64x128_0_0_0_0 : S16x66x66x128.Slices ![0, 0, 0, 0] S16x64x64x128
  slices_S16x66x66x128_S16x64x64x128_0_0_1_0 : S16x66x66x128.Slices ![0, 0, 1, 0] S16x64x64x128
  slices_S16x66x66x128_S16x64x64x128_0_0_2_0 : S16x66x66x128.Slices ![0, 0, 2, 0] S16x64x64x128
  slices_S16x66x66x128_S16x64x64x128_0_1_0_0 : S16x66x66x128.Slices ![0, 1, 0, 0] S16x64x64x128
  slices_S16x66x66x128_S16x64x64x128_0_1_1_0 : S16x66x66x128.Slices ![0, 1, 1, 0] S16x64x64x128
  slices_S16x66x66x128_S16x64x64x128_0_1_2_0 : S16x66x66x128.Slices ![0, 1, 2, 0] S16x64x64x128
  slices_S16x66x66x128_S16x64x64x128_0_2_0_0 : S16x66x66x128.Slices ![0, 2, 0, 0] S16x64x64x128
  slices_S16x66x66x128_S16x64x64x128_0_2_1_0 : S16x66x66x128.Slices ![0, 2, 1, 0] S16x64x64x128
  slices_S16x66x66x128_S16x64x64x128_0_2_2_0 : S16x66x66x128.Slices ![0, 2, 2, 0] S16x64x64x128
  concatenates_S16x64x64x128_S16x64x64x128_S16x64x64x128_S16x64x64x128_S16x64x64x128_S16x64x64x128_S16x64x64x128_S16x64x64x128_S16x64x64x128_S16x64x64x1152_d3 : Shape.Concatenates [S16x64x64x128, S16x64x64x128, S16x64x64x128, S16x64x64x128, S16x64x64x128, S16x64x64x128, S16x64x64x128, S16x64x64x128, S16x64x64x128] S16x64x64x1152 3
  shapeCasts_S16x64x64x1152_S16x4096x1152 : S16x64x64x1152.ShapeCasts S16x4096x1152
  pads_S16x4096x1152_S16x4096x1152_000_000_000 : S16x4096x1152.Pads (![0, 0, 0] : Fin 3 → Nat) ![0, 0, 0] ![0, 0, 0] S16x4096x1152
  pads_S1152x128_S1152x128_000_000 : S1152x128.Pads (![0, 0] : Fin 2 → Nat) ![0, 0] ![0, 0] S1152x128
  shapeCasts_S128_S1x128 : S128.ShapeCasts S1x128
  pads_S1x128_S1x128_000_000 : S1x128.Pads (![0, 0] : Fin 2 → Nat) ![0, 0] ![0, 0] S1x128
  inb_S1x512x1152_S1x512x1152_0_0_0 : ∀ a, (![0, 0, 0] : Fin 3 → Nat) a + S1x512x1152.size a ≤ S1x512x1152.size a
  h_S1x512x1152 : 0 < S1x512x1152.numel
  shapeCasts_S1x512x1152_S512x1152 : S1x512x1152.ShapeCasts S512x1152
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  shapeCasts_S16x4096x128_S16x64x64x128 : S16x4096x128.ShapeCasts S16x64x64x128
  transposes_S16x64x64x128_S16x128x64x64_0_3_1_2 : S16x64x64x128.Transposes [0, 3, 1, 2] S16x128x64x64
  dot_S512x1152_S1152x128_S512x128_1_0_0_1_n_n_wf : DotDims.WF S512x1152 S1152x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1152.size a ≤ S16x4096x1152.size a
  hwx0_0 : ∀ i : grid0.Coords, EltTy.bits .bf16 = 32 ∨ (Rect.block (s := S16x4096x1152) S1x512x1152.size (cc0_transform_0 i) (hinb0_0 i)).WholeWords (EltTy.packing .bf16)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S1152x128.size a ≤ S1152x128.size a
  hwx0_1 : ∀ i : grid0.Coords, EltTy.bits .bf16 = 32 ∨ (Rect.block (s := S1152x128) S1152x128.size (cc0_transform_1 i) (hinb0_1 i)).WholeWords (EltTy.packing .bf16)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x128.size a ≤ S16x4096x128.size a
  hwx0_3 : ∀ i : grid0.Coords, EltTy.bits .f32 = 32 ∨ (Rect.block (s := S16x4096x128) S1x512x128.size (cc0_transform_3 i) (hinb0_3 i)).WholeWords (EltTy.packing .f32)

variable [Facts₀]

def dot_S512x1152_S1152x128_S512x128_1_0_0_1_n_n : DotDims S512x1152 S1152x128 S512x128 where
  lhsContracting := [1]
  rhsContracting := [0]
  lhsNonContracting := [0]
  rhsNonContracting := [1]
  lhsBatch := []
  rhsBatch := []
  wf := dot_S512x1152_S1152x128_S512x128_1_0_0_1_n_n_wf

abbrev win0_0 : Pipeline.Window sig grid0 :=
  Pipeline.Window.ofSpec (Memref.whole main_v19) S1x512x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1152x128.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x128.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.K.Out.lean ====
/-
  What one grid point of the convolution kernel leaves in its result block, as a closed function of the three input
  blocks, for every float instance: the image block, cast and moved to channel-last layout, is surrounded by a border of
  one zero (`halo`); the nine shifted 64×64 windows of the bordered image, each flattened to 4096 rows, are laid side
  by side as the columns of the patch matrix (`patches`); the result block is the generated payload of the final store —
  the weight block contracted with the patch matrix, plus the bias column — at those operands (`OUT`).
-/
import proofs.«171157_g2000105039750728_pallasbulk_413_14_alg».proof.Proof.Gen.Kernel.Skeleton
import Idealize.ShloMosaic.Lib.ValueIdx

set_option maxRecDepth 16384

noncomputable section

namespace Cert.Proof.K

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The bordered image: entry `(r, s, ci)` is the image's entry `(r - 1, s - 1, ci)` when both `r` and `s` lie in
    `1 … 64`, and zero on the border (rows and columns 0 and 65). -/
def halo (p : FVec F S64x64x128 .bf16) : FVec F S66x66x128 .bf16 := fun y =>
  if h : 1 ≤ (y 0).val ∧ (y 0).val ≤ 64 ∧ 1 ≤ (y 1).val ∧ (y 1).val ≤ 64 then
    p (ix3 ⟨(y 0).val - 1, by omega⟩ ⟨(y 1).val - 1, by omega⟩ ⟨(y 2).val, (y 2).isLt⟩)
  else Scalar.ofBits .bf16 0x0000#16

/-- The patch matrix of a bordered image: row `m = 64 h + w`, column `k = 128 (3 ky + kx) + ci` holds the bordered image's
    entry `(ky + h, kx + w, ci)`. -/
def patches (xs : FVec F S66x66x128 .bf16) : FVec F S4096x1152 .bf16 := fun y =>
  have h0 : (y 0).val < 4096 := (y 0).isLt
  have h1 : (y 1).val < 1152 := (y 1).isLt
  xs (ix3 ⟨(y 1).val / 128 / 3 + (y 0).val / 64, by omega⟩ ⟨(y 1).val / 128 % 3 + (y 0).val % 64, by omega⟩
    ⟨(y 1).val % 128, Nat.mod_lt _ (by norm_num)⟩)

/-- The result block of one grid point from its image block `X0`, weight block `X1` and bias block `X2`. -/
def OUT (X0 : Vec F S1x128x4096 .f32) (X1 : Vec F S1152x128 .bf16) (X2 : Vec F S128x1 .f32) : FVec F S1x128x4096 .f32 :=
  k0_pay4 X1 (patches (halo (k0_pay9 X0))) X2

end Cert.Proof.K

end
-- ==== Proof.K.Run.lean ====
/-
  One grid point of the 3×3 convolution kernel, for every float instance, as pure data movement.

  The body first zeroes the border of a 66×66×128 scratch image: rows 0 and 65 by two whole-row stores, columns 0 and
  65 by two read-modify-write stores of a 66×2×128 rectangle.  It then writes the image block — cast and transposed to
  channel-last layout — into rows 1…64, by a read-modify-write of the rectangle of rows 1…64 and all 66 columns in
  which only columns 1…64 are replaced, so that columns 0 and 65 keep the zeros stored before.  Every entry of the
  scratch image is thus written before it is read, and afterwards it holds the bordered image whatever it held at entry.

  Nine times the body then loads the 64×64×128 window of the scratch image at offset (ky, kx, 0), flattens it to
  4096×128, and stores it into columns [128 t, 128 t + 128), t = 3 ky + kx, of a 4096×1152 scratch matrix.  The nine
  column blocks tile that matrix, which therefore holds the patch matrix of the bordered image whatever it held at entry.

  Finally the body loads the patch matrix, the weight block and the bias block, and stores the contraction plus bias
  into the result block.  The result block is the closed function `OUT` of the three input blocks.
-/
import proofs.«171157_g2000105039750728_pallasbulk_413_14_alg».proof.Proof.K.Out
import proofs.«171157_g2000105039750728_pallasbulk_413_14_alg».proof.Proof.Gen.Kernel.Frame
import proofs.«171157_g2000105039750728_pallasbulk_413_14_alg».proof.Proof.Gen.Kernel.Skeleton
import Idealize.ShloMosaic.Lib.Pipeline.Value
import Idealize.ShloMosaic.Lib.WritesUnit

set_option maxRecDepth 16384

noncomputable section

namespace Cert.Proof.K

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-! ## An update of a slice, read at an index -/

section UpdateSlice
variable {α : Type} {s u : Shape}

/-- Off the updated rectangle on one axis, the old value. -/
theorem updateSlice_of_not_mem (x : s.Idx → α) (upd : u.Idx → α) (start : Fin s.rank → ℕ) (h : s.Slices start u) (i : s.Idx)
    (a : Fin s.rank) (ha : (i a).val < start a ∨ start a + u.size (a.cast h.1.symm) ≤ (i a).val) :
    updateSlice x upd start h i = x i := by
  unfold updateSlice
  rw [dif_neg]
  intro hin
  have := hin a
  omega

/-- Inside the updated rectangle, the update at the index minus the start (the caller names that index). -/
theorem updateSlice_of_mem (x : s.Idx → α) (upd : u.Idx → α) (start : Fin s.rank → ℕ) (h : s.Slices start u) (i : s.Idx)
    (k : u.Idx) (hk : ∀ a : Fin s.rank, (i a).val = start a + (k (a.cast h.1.symm)).val) :
    updateSlice x upd start h i = upd k := by
  unfold updateSlice
  have hin : ∀ a : Fin s.rank, start a ≤ (i a).val ∧ (i a).val < start a + u.size (a.cast h.1.symm) := fun a => by
    have := hk a
    have := (k (a.cast h.1.symm)).isLt
    omega
  rw [dif_pos hin]
  refine congrArg upd (funext fun b => Fin.ext ?_)
  have := hk (b.cast h.1)
  have e : (b.cast h.1).cast h.1.symm = b := rfl
  rw [e] at this
  show (i (b.cast h.1)).val - start (b.cast h.1) = (k b).val
  omega

end UpdateSlice

/-- A statement about every axis of a rank-three shape is the three statements. -/
theorem forall_fin3 {P : Fin 3 → Prop} : (∀ a, P a) ↔ P 0 ∧ P 1 ∧ P 2 :=
  ⟨fun h => ⟨h 0, h 1, h 2⟩, fun h a => match a with | ⟨0, _⟩ => h.1 | ⟨1, _⟩ => h.2.1 | ⟨2, _⟩ => h.2.2⟩

/-! ## The four zero payloads -/

/-- The bf16 zero the border is filled with. -/
abbrev zero16 : F .bf16 := Scalar.ofBits .bf16 0x0000#16

theorem pay5_apply (x : S1x66x128.Idx) : k0_pay5 (F := F) x = zero16 := by
  unfold k0_pay5; rw [shapeCast_self]; rfl
theorem pay6_apply (x : S1x66x128.Idx) : k0_pay6 (F := F) x = zero16 := by
  unfold k0_pay6; rw [shapeCast_self]; rfl
theorem pay7_apply (x : S66x1x128.Idx) : k0_pay7 (F := F) x = zero16 := by
  unfold k0_pay7; rw [shapeCast_self]; rfl
theorem pay8_apply (x : S66x1x128.Idx) : k0_pay8 (F := F) x = zero16 := by
  unfold k0_pay8; rw [shapeCast_self]; rfl

/-! ## The scratch image after the five border and interior stores -/

section Halo
variable {sig : RefSig} {κ : Kind} {sp : Space} (v : View sig κ sp S66x66x128 .bf16)

/-- Rows 0 and 65 zeroed (newest first). -/
def rowsL : List (View.Piece (Elt F) S66x66x128 .bf16) :=
  [⟨Rect.unit (s := S66x66x128) ![65, 0, 0] S1x66x128.size inb_S66x66x128_S1x66x128_65_0_0, k0_pay6⟩,
    ⟨Rect.unit (s := S66x66x128) ![0, 0, 0] S1x66x128.size inb_S66x66x128_S1x66x128_0_0_0, k0_pay5⟩]

/-- Then column 0 zeroed, by a read-modify-write of columns 0 and 1. -/
def col0L (g : v.ty.Contents (Elt F)) : List (View.Piece (Elt F) S66x66x128 .bf16) :=
  ⟨Rect.unit (s := S66x66x128) ![0, 0, 0] S66x2x128.size inb_S66x66x128_S66x2x128_0_0_0,
      updateSlice (View.readAt (Elt F) v (Rect.unit (s := S66x66x128) ![0, 0, 0] S66x2x128.size inb_S66x66x128_S66x2x128_0_0_0).toLoadRect
          (v.writes (Elt F) g rowsL)) k0_pay7 ![0, 0, 0] slices_S66x2x128_S66x1x128_0_0_0⟩ :: rowsL

/-- Then column 65 zeroed, by a read-modify-write of columns 64 and 65. -/
def col65L (g : v.ty.Contents (Elt F)) : List (View.Piece (Elt F) S66x66x128 .bf16) :=
  ⟨Rect.unit (s := S66x66x128) ![0, 64, 0] S66x2x128.size inb_S66x66x128_S66x2x128_0_64_0,
      updateSlice (View.readAt (Elt F) v (Rect.unit (s := S66x66x128) ![0, 64, 0] S66x2x128.size inb_S66x66x128_S66x2x128_0_64_0).toLoadRect
          (v.writes (Elt F) g (col0L v g))) k0_pay8 ![0, 1, 0] slices_S66x2x128_S66x1x128_0_1_0⟩ :: col0L v g

/-- Then the image `p` put at rows 1…64, columns 1…64, by a read-modify-write of rows 1…64 and all 66 columns. -/
def haloL (g : v.ty.Contents (Elt F)) (p : FVec F S64x64x128 .bf16) : List (View.Piece (Elt F) S66x66x128 .bf16) :=
  ⟨Rect.unit (s := S66x66x128) ![1, 0, 0] S64x66x128.size inb_S66x66x128_S64x66x128_1_0_0,
      updateSlice (View.readAt (Elt F) v (Rect.unit (s := S66x66x128) ![1, 0, 0] S64x66x128.size inb_S66x66x128_S64x66x128_1_0_0).toLoadRect
          (v.writes (Elt F) g (col65L v g))) p ![0, 1, 0] slices_S64x66x128_S64x64x128_0_1_0⟩ :: col65L v g

/-- After the two row stores, rows 0 and 65 are zero, whatever the buffer held. -/
theorem read_rowsL (g : v.ty.Contents (Elt F)) (y : S66x66x128.Idx) (hy : (y 0).val = 0 ∨ (y 0).val = 65) :
    v.read (Elt F) (v.writes (Elt F) g rowsL) y = zero16 := by
  have h1 : (y 1).val < 66 := (y 1).isLt
  have h2 : (y 2).val < 128 := (y 2).isLt
  unfold rowsL
  rcases hy with h | h
  · rw [View.read_writes_cons_unit_of_not_mem v g _ _ _ y rfl (0 : Fin 3) (Or.inl (by show (y 0).val < 65; omega))]
    rw [View.read_writes_cons_unit v g _ _ _ y rfl, dif_pos (forall_fin3.mpr ⟨by show 0 ≤ (y 0).val ∧ (y 0).val < 0 + 1; omega,
      by show 0 ≤ (y 1).val ∧ (y 1).val < 0 + 66; omega, by show 0 ≤ (y 2).val ∧ (y 2).val < 0 + 128; omega⟩)]
    exact pay5_apply _
  · rw [View.read_writes_cons_unit v g _ _ _ y rfl, dif_pos (forall_fin3.mpr ⟨by show 65 ≤ (y 0).val ∧ (y 0).val < 65 + 1; omega,
      by show 0 ≤ (y 1).val ∧ (y 1).val < 0 + 66; omega, by show 0 ≤ (y 2).val ∧ (y 2).val < 0 + 128; omega⟩)]
    exact pay6_apply _

/-- After column 0's store, rows 0 and 65 and column 0 are zero, whatever the buffer held. -/
theorem read_col0L (g g' : v.ty.Contents (Elt F)) (y : S66x66x128.Idx)
    (hy : (y 0).val = 0 ∨ (y 0).val = 65 ∨ (y 1).val = 0) :
    v.read (Elt F) (v.writes (Elt F) g' (col0L v g)) y = zero16 := by
  have h0 : (y 0).val < 66 := (y 0).isLt
  have h1 : (y 1).val < 66 := (y 1).isLt
  have h2 : (y 2).val < 128 := (y 2).isLt
  unfold col0L
  by_cases hc : (y 1).val < 2
  · rw [View.read_writes_cons_unit v g' _ _ _ y rfl, dif_pos (forall_fin3.mpr ⟨by show 0 ≤ (y 0).val ∧ (y 0).val < 0 + 66; omega,
      by show 0 ≤ (y 1).val ∧ (y 1).val < 0 + 2; omega, by show 0 ≤ (y 2).val ∧ (y 2).val < 0 + 128; omega⟩)]
    by_cases hc0 : (y 1).val = 0
    · rw [updateSlice_of_mem _ _ _ _ _ (ix3 ⟨(y 0).val, h0⟩ ⟨0, by omega⟩ ⟨(y 2).val, h2⟩) (forall_fin3.mpr ⟨by
        show (y 0).val - 0 = 0 + (y 0).val; omega, by show (y 1).val - 0 = 0 + 0; omega, by show (y 2).val - 0 = 0 + (y 2).val; omega⟩)]
      exact pay7_apply _
    · rw [updateSlice_of_not_mem _ _ _ _ _ (1 : Fin 3) (Or.inr (by show 0 + 1 ≤ (y 1).val - 0; omega)), View.readAt_apply]
      exact read_rowsL v g _ (by show 0 + 1 * ((y 0).val - 0) = 0 ∨ 0 + 1 * ((y 0).val - 0) = 65; omega)
  · rw [View.read_writes_cons_unit_of_not_mem v g' _ _ _ y rfl (1 : Fin 3) (Or.inr (by show 0 + 2 ≤ (y 1).val; omega))]
    exact read_rowsL v g' y (by omega)

/-- After column 65's store, the whole border — rows 0 and 65, columns 0 and 65 — is zero, whatever the buffer held. -/
theorem read_col65L (g g' : v.ty.Contents (Elt F)) (y : S66x66x128.Idx)
    (hy : (y 0).val = 0 ∨ (y 0).val = 65 ∨ (y 1).val = 0 ∨ (y 1).val = 65) :
    v.read (Elt F) (v.writes (Elt F) g' (col65L v g)) y = zero16 := by
  have h0 : (y 0).val < 66 := (y 0).isLt
  have h1 : (y 1).val < 66 := (y 1).isLt
  have h2 : (y 2).val < 128 := (y 2).isLt
  unfold col65L
  by_cases hc : 64 ≤ (y 1).val
  · rw [View.read_writes_cons_unit v g' _ _ _ y rfl, dif_pos (forall_fin3.mpr ⟨by show 0 ≤ (y 0).val ∧ (y 0).val < 0 + 66; omega,
      by show 64 ≤ (y 1).val ∧ (y 1).val < 64 + 2; omega, by show 0 ≤ (y 2).val ∧ (y 2).val < 0 + 128; omega⟩)]
    by_cases hc0 : (y 1).val = 65
    · rw [updateSlice_of_mem _ _ _ _ _ (ix3 ⟨(y 0).val, h0⟩ ⟨0, by omega⟩ ⟨(y 2).val, h2⟩) (forall_fin3.mpr ⟨by
        show (y 0).val - 0 = 0 + (y 0).val; omega, by show (y 1).val - 64 = 1 + 0; omega, by show (y 2).val - 0 = 0 + (y 2).val; omega⟩)]
      exact pay8_apply _
    · rw [updateSlice_of_not_mem _ _ _ _ _ (1 : Fin 3) (Or.inl (by show (y 1).val - 64 < 1; omega)), View.readAt_apply]
      exact read_col0L v g g _ (by
        show 0 + 1 * ((y 0).val - 0) = 0 ∨ 0 + 1 * ((y 0).val - 0) = 65 ∨ 64 + 1 * ((y 1).val - 64) = 0; omega)
  · rw [View.read_writes_cons_unit_of_not_mem v g' _ _ _ y rfl (1 : Fin 3) (Or.inl (by show (y 1).val < 64; omega))]
    exact read_col0L v g g' y (by omega)

/-- After the interior store the buffer holds the bordered image, whatever it held: every entry has been written. -/
theorem read_haloL (g g' : v.ty.Contents (Elt F)) (p : FVec F S64x64x128 .bf16) (y : S66x66x128.Idx) :
    v.read (Elt F) (v.writes (Elt F) g' (haloL v g p)) y = halo p y := by
  have h0 : (y 0).val < 66 := (y 0).isLt
  have h1 : (y 1).val < 66 := (y 1).isLt
  have h2 : (y 2).val < 128 := (y 2).isLt
  unfold haloL halo
  by_cases hr : 1 ≤ (y 0).val ∧ (y 0).val ≤ 64
  · rw [View.read_writes_cons_unit v g' _ _ _ y rfl, dif_pos (forall_fin3.mpr ⟨by show 1 ≤ (y 0).val ∧ (y 0).val < 1 + 64; omega,
      by show 0 ≤ (y 1).val ∧ (y 1).val < 0 + 66; omega, by show 0 ≤ (y 2).val ∧ (y 2).val < 0 + 128; omega⟩)]
    by_cases hs : 1 ≤ (y 1).val ∧ (y 1).val ≤ 64
    · rw [dif_pos ⟨hr.1, hr.2, hs.1, hs.2⟩]
      exact updateSlice_of_mem _ _ _ _ _ _ (forall_fin3.mpr ⟨by
        show (y 0).val - 1 = 0 + ((y 0).val - 1); omega, by show (y 1).val - 0 = 1 + ((y 1).val - 1); omega,
        by show (y 2).val - 0 = 0 + (y 2).val; omega⟩)
    · rw [dif_neg (by omega)]
      rw [updateSlice_of_not_mem _ _ _ _ _ (1 : Fin 3) (by
        show (y 1).val - 0 < 1 ∨ 1 + 64 ≤ (y 1).val - 0; omega), View.readAt_apply]
      exact read_col65L v g g _ (by
        show 1 + 1 * ((y 0).val - 1) = 0 ∨ 1 + 1 * ((y 0).val - 1) = 65 ∨ 0 + 1 * ((y 1).val - 0) = 0 ∨ 0 + 1 * ((y 1).val - 0) = 65
        omega)
  · rw [dif_neg (by omega)]
    rw [View.read_writes_cons_unit_of_not_mem v g' _ _ _ y rfl (0 : Fin 3) (by show (y 0).val < 1 ∨ 1 + 64 ≤ (y 0).val; omega)]
    exact read_col65L v g g' y (by omega)

/-- A load of window `(ky, kx)` after the five stores reads that window of the bordered image. -/
theorem readCov_haloL_window (g : v.ty.Contents (Elt F)) (p : FVec F S64x64x128 .bf16) (ky kx : ℕ) (hky : ky < 3) (hkx : kx < 3)
    (inb : ∀ a, (![ky, kx, 0] : Fin S66x66x128.rank → ℕ) a + S64x64x128.size a ≤ S66x66x128.size a) (j : S64x64x128.Idx) :
    v.readCov (haloL v g p) (Rect.unit (s := S66x66x128) ![ky, kx, 0] S64x64x128.size inb).toLoadRect j
      = halo p (ix3 ⟨ky + (j 0).val, by have : (j 0).val < 64 := (j 0).isLt; omega⟩
          ⟨kx + (j 1).val, by have : (j 1).val < 64 := (j 1).isLt; omega⟩ ⟨(j 2).val, (j 2).isLt⟩) := by
  show v.read (Elt F) (v.writes (Elt F) v.junk (haloL v g p)) _ = _
  rw [read_haloL]
  refine congrArg (halo p) (funext fun a => Fin.ext ?_)
  match a with
  | ⟨0, _⟩ => show ky + 1 * (j 0).val = ky + (j 0).val; omega
  | ⟨1, _⟩ => show kx + 1 * (j 1).val = kx + (j 1).val; omega
  | ⟨2, _⟩ => show 0 + 1 * (j 2).val = (j 2).val; omega

end Halo

/-! ## The patch matrix after the nine column stores -/

/-- Window `(ky, kx)` of a bordered image, flattened to 4096 rows: row `64 h + w`, channel `c` is entry
    `(ky + h, kx + w, c)`. -/
def winFlat (xs : FVec F S66x66x128 .bf16) (ky kx : ℕ) (hky : ky < 3) (hkx : kx < 3) : FVec F S4096x128 .bf16 := fun x =>
  have h0 : (x 0).val < 4096 := (x 0).isLt
  xs (ix3 ⟨ky + (x 0).val / 64, by omega⟩ ⟨kx + (x 0).val % 64, by omega⟩ ⟨(x 1).val, (x 1).isLt⟩)

/-- A loaded window, flattened by the two shape casts of the body, is `winFlat` of the image it was loaded from. -/
theorem flat_eq_winFlat (xs : FVec F S66x66x128 .bf16) (ky kx : ℕ) (hky : ky < 3) (hkx : kx < 3) (W : Vec F S64x64x128 .bf16)
    (hW : ∀ j : S64x64x128.Idx, W j = xs (ix3 ⟨ky + (j 0).val, by have : (j 0).val < 64 := (j 0).isLt; omega⟩
      ⟨kx + (j 1).val, by have : (j 1).val < 64 := (j 1).isLt; omega⟩ ⟨(j 2).val, (j 2).isLt⟩))
    (h1 : S64x64x128.ShapeCasts S4096x128) (h2 : S4096x128.ShapeCasts S4096x128) :
    shapeCast S4096x128 (shapeCast S4096x128 W h1) h2 = winFlat xs ky kx hky hkx := by
  rw [shapeCast_self]
  funext x
  have h0 : (x 0).val < 4096 := (x 0).isLt
  have hx1 : (x 1).val < 128 := (x 1).isLt
  rw [shapeCast_apply W h1 x (ix3 ⟨(x 0).val / 64, by omega⟩ ⟨(x 0).val % 64, by omega⟩ ⟨(x 1).val, hx1⟩) (by
    rw [Shape.rowMajor_val_three, Shape.rowMajor_val_two]
    show ((x 0).val / 64 * 64 + (x 0).val % 64) * 128 + (x 1).val = (x 0).val * 128 + (x 1).val
    omega)]
  exact hW _

/-- `winFlat` of window `(ky, kx)` is the block of columns `[128 t, 128 t + 128)`, `t = 3 ky + kx`, of the patch matrix. -/
theorem winFlat_eq_patches (xs : FVec F S66x66x128 .bf16) (ky kx : ℕ) (hky : ky < 3) (hkx : kx < 3) (x : S4096x128.Idx)
    (y : S4096x1152.Idx) (hy0 : (y 0).val = (x 0).val) (hy1 : (y 1).val = 128 * (3 * ky + kx) + (x 1).val) :
    winFlat xs ky kx hky hkx x = patches xs y := by
  have h0 : (x 0).val < 4096 := (x 0).isLt
  have hx1 : (x 1).val < 128 := (x 1).isLt
  unfold winFlat patches
  refine congrArg xs (funext fun a => Fin.ext ?_)
  match a with
  | ⟨0, _⟩ => show ky + (x 0).val / 64 = (y 1).val / 128 / 3 + (y 0).val / 64; omega
  | ⟨1, _⟩ => show kx + (x 0).val % 64 = (y 1).val / 128 % 3 + (y 0).val % 64; omega
  | ⟨2, _⟩ => show (x 1).val = (y 1).val % 128; omega

section Patches
variable {sig : RefSig} {κ : Kind} {sp : Space} (v : View sig κ sp S4096x1152 .bf16)

/-- The nine column stores (newest first), over arbitrary payloads. -/
def patchL (P0 P1 P2 P3 P4 P5 P6 P7 P8 : FVec F S4096x128 .bf16) : List (View.Piece (Elt F) S4096x1152 .bf16) :=
  [⟨Rect.unit (s := S4096x1152) ![0, 1024] S4096x128.size inb_S4096x1152_S4096x128_0_1024, P8⟩,
    ⟨Rect.unit (s := S4096x1152) ![0, 896] S4096x128.size inb_S4096x1152_S4096x128_0_896, P7⟩,
    ⟨Rect.unit (s := S4096x1152) ![0, 768] S4096x128.size inb_S4096x1152_S4096x128_0_768, P6⟩,
    ⟨Rect.unit (s := S4096x1152) ![0, 640] S4096x128.size inb_S4096x1152_S4096x128_0_640, P5⟩,
    ⟨Rect.unit (s := S4096x1152) ![0, 512] S4096x128.size inb_S4096x1152_S4096x128_0_512, P4⟩,
    ⟨Rect.unit (s := S4096x1152) ![0, 384] S4096x128.size inb_S4096x1152_S4096x128_0_384, P3⟩,
    ⟨Rect.unit (s := S4096x1152) ![0, 256] S4096x128.size inb_S4096x1152_S4096x128_0_256, P2⟩,
    ⟨Rect.unit (s := S4096x1152) ![0, 128] S4096x128.size inb_S4096x1152_S4096x128_0_128, P1⟩,
    ⟨Rect.unit (s := S4096x1152) ![0, 0] S4096x128.size inb_S4096x1152_S4096x128_0_0, P0⟩]

/-- The nine column blocks tile the matrix. -/
theorem cover_patchL (P0 P1 P2 P3 P4 P5 P6 P7 P8 : FVec F S4096x128 .bf16) :
    ∀ y : S4096x1152.Idx, ∃ p ∈ patchL P0 P1 P2 P3 P4 P5 P6 P7 P8, y ∈ p.1.set :=
  View.cover_of_tiled (s := S4096x1152) (patchL P0 P1 P2 P3 P4 P5 P6 P7 P8) S4096x128.size (by rfl)

/-- So a whole load after them reads the patch matrix, whatever the buffer held. -/
theorem readCov_patchL (xs : FVec F S66x66x128 .bf16) (P0 P1 P2 P3 P4 P5 P6 P7 P8 : FVec F S4096x128 .bf16)
    (e0 : P0 = winFlat xs 0 0 (by omega) (by omega)) (e1 : P1 = winFlat xs 0 1 (by omega) (by omega))
    (e2 : P2 = winFlat xs 0 2 (by omega) (by omega)) (e3 : P3 = winFlat xs 1 0 (by omega) (by omega))
    (e4 : P4 = winFlat xs 1 1 (by omega) (by omega)) (e5 : P5 = winFlat xs 1 2 (by omega) (by omega))
    (e6 : P6 = winFlat xs 2 0 (by omega) (by omega)) (e7 : P7 = winFlat xs 2 1 (by omega) (by omega))
    (e8 : P8 = winFlat xs 2 2 (by omega) (by omega)) :
    v.readCov (patchL P0 P1 P2 P3 P4 P5 P6 P7 P8)
        (Rect.unit (s := S4096x1152) ![0, 0] S4096x1152.size inb_S4096x1152_S4096x1152_0_0).toLoadRect = patches xs := by
  subst e0 e1 e2 e3 e4 e5 e6 e7 e8
  have hz : (![0, 0] : Fin S4096x1152.rank → ℕ) = fun _ => 0 := by
    funext a; match a with | ⟨0, _⟩ => rfl | ⟨1, _⟩ => rfl
  refine (View.readCov_eq_canon' v _ _).trans ((View.ld_unit_zero (S := S4096x1152) hz _ _).trans (funext fun y => ?_))
  refine View.canon_apply_of_pieces (patches xs) _ ?_ y (cover_patchL _ _ _ _ _ _ _ _ _ y)
  intro p hp
  unfold patchL at hp
  simp only [List.mem_cons, List.not_mem_nil, or_false] at hp
  rcases hp with rfl | rfl | rfl | rfl | rfl | rfl | rfl | rfl | rfl <;> intro x
  · exact winFlat_eq_patches xs 2 2 (by omega) (by omega) x _ (by show 0 + 1 * (x 0).val = (x 0).val; omega) (by show 1024 + 1 * (x 1).val = 128 * (3 * 2 + 2) + (x 1).val; omega)
  · exact winFlat_eq_patches xs 2 1 (by omega) (by omega) x _ (by show 0 + 1 * (x 0).val = (x 0).val; omega) (by show 896 + 1 * (x 1).val = 128 * (3 * 2 + 1) + (x 1).val; omega)
  · exact winFlat_eq_patches xs 2 0 (by omega) (by omega) x _ (by show 0 + 1 * (x 0).val = (x 0).val; omega) (by show 768 + 1 * (x 1).val = 128 * (3 * 2 + 0) + (x 1).val; omega)
  · exact winFlat_eq_patches xs 1 2 (by omega) (by omega) x _ (by show 0 + 1 * (x 0).val = (x 0).val; omega) (by show 640 + 1 * (x 1).val = 128 * (3 * 1 + 2) + (x 1).val; omega)
  · exact winFlat_eq_patches xs 1 1 (by omega) (by omega) x _ (by show 0 + 1 * (x 0).val = (x 0).val; omega) (by show 512 + 1 * (x 1).val = 128 * (3 * 1 + 1) + (x 1).val; omega)
  · exact winFlat_eq_patches xs 1 0 (by omega) (by omega) x _ (by show 0 + 1 * (x 0).val = (x 0).val; omega) (by show 384 + 1 * (x 1).val = 128 * (3 * 1 + 0) + (x 1).val; omega)
  · exact winFlat_eq_patches xs 0 2 (by omega) (by omega) x _ (by show 0 + 1 * (x 0).val = (x 0).val; omega) (by show 256 + 1 * (x 1).val = 128 * (3 * 0 + 2) + (x 1).val; omega)
  · exact winFlat_eq_patches xs 0 1 (by omega) (by omega) x _ (by show 0 + 1 * (x 0).val = (x 0).val; omega) (by show 128 + 1 * (x 1).val = 128 * (3 * 0 + 1) + (x 1).val; omega)
  · exact winFlat_eq_patches xs 0 0 (by omega) (by omega) x _ (by show 0 + 1 * (x 0).val = (x 0).val; omega) (by show 0 + 1 * (x 1).val = 128 * (3 * 0 + 0) + (x 1).val; omega)

end Patches

/-! ## The body's triple -/

local notation "𝕄" => MT nD τ sig Unit (Elt F) ℕ (UR sig nD τ) ℕ

abbrev 𝒱₀ : Variants := Variants.none

/-- One grid point of the kernel body: from the three input blocks, any result block and any contents of the two
    scratch buffers, it leaves the inputs unchanged, the result block at `OUT` of the inputs, and the scratch buffers
    at some contents. -/
theorem sound_kernel (c : Dev nD) (i : grid0.Coords)
    (arg1 : Memref sig .tc .vmem S1x128x4096 .f32) (harg1 : arg1.IsWhole) (arg2 : Memref sig .tc .vmem S1152x128 .bf16) (harg2 : arg2.IsWhole)
    (arg3 : Memref sig .tc .vmem S128x1 .f32) (harg3 : arg3.IsWhole) (arg4 : Memref sig .tc .vmem S1x128x4096 .f32) (harg4 : arg4.IsWhole)
    (arg5 : Memref sig .tc .vmem S66x66x128 .bf16) (harg5 : arg5.IsWhole) (arg6 : Memref sig .tc .vmem S4096x1152 .bf16) (harg6 : arg6.IsWhole)
    (x0 : Vec F S1x128x4096 .f32) (x1 : Vec F S1152x128 .bf16) (x2 : Vec F S128x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (∃ g, arg5.view.loc (c : Thread nD τ) ↦[arg5.view.set]{fullShare} g)
        ∗ (∃ g, arg6.view.loc (c : Thread nD τ) ↦[arg6.view.set]{fullShare} g)
        ∗ (iprop(owns (c : Thread nD τ) arg1 fullShare x0 ∗ owns (c : Thread nD τ) arg2 fullShare x1 ∗ owns (c : Thread nD τ) arg3 fullShare x2
            ∗ owns (c : Thread nD τ) arg4 fullShare (OUT x0 x1 x2)
            ∗ (∃ g, arg5.view.loc (c : Thread nD τ) ↦[arg5.view.set]{fullShare} g)
            ∗ (∃ g, arg6.view.loc (c : Thread nD τ) ↦[arg6.view.set]{fullShare} g)) -∗ K ⟨⟩))
      ⊢ wp frame (wpE (defs₀ (F := F)) 𝒱₀ c none) Set.univ (cc0__conv3x3_kernel i arg1 harg1 arg2 harg2 arg3 harg3 arg4 harg4 arg5 harg5 arg6 harg6) K := by
  simp only [cc0__conv3x3_kernel_eq_skeleton]; unfold cc0__conv3x3_kernel_skel
  unfold owns
  iintro ⟨⟨%f1, %hf1, H1⟩, ⟨%f2, %hf2, H2⟩, ⟨%f3, %hf3, H3⟩, ⟨%d4, %f4, -, H4⟩, ⟨%g5, H5⟩, ⟨%g6, H6⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    have hz3 : (![0, 0, 0] : Fin S1x128x4096.rank → ℕ) = fun _ => 0 := by
      funext a; match a with | ⟨0, _⟩ => rfl | ⟨1, _⟩ => rfl | ⟨2, _⟩ => rfl
    have hz2 : (![0, 0] : Fin S1152x128.rank → ℕ) = fun _ => 0 := by
      funext a; match a with | ⟨0, _⟩ => rfl | ⟨1, _⟩ => rfl
    have hz2' : (![0, 0] : Fin S128x1.rank → ℕ) = fun _ => 0 := by
      funext a; match a with | ⟨0, _⟩ => rfl | ⟨1, _⟩ => rfl
    refine (View.read_writes_eq_canon _ _ _ (fun y => ?_)).trans ((View.canon_unit_zero hz3 _ _).trans ?_)
    · refine ⟨_, List.mem_singleton_self _, ?_⟩
      exact View.mem_set_unit_zero hz3 inb_S1x128x4096_S1x128x4096_0_0_0 y
    unfold OUT
    sl_unfold_run_names
    refine congr (congr (congrArg k0_pay4 ?_) ?_) ?_
    · exact View.ld_unit_zero hz2 _ _
    · refine (readCov_patchL arg6.view (halo (k0_pay9 (View.readAt (Elt F) arg1.view
          (Rect.unit (s := S1x128x4096) ![0, 0, 0] S1x128x4096.size inb_S1x128x4096_S1x128x4096_0_0_0).toLoadRect f1)))
          _ _ _ _ _ _ _ _ _ ?_ ?_ ?_ ?_ ?_ ?_ ?_ ?_ ?_).trans
        (congrArg (fun X => patches (halo (k0_pay9 X))) (View.ld_unit_zero hz3 _ _))
      · exact flat_eq_winFlat _ 0 0 (by omega) (by omega) _ (fun j => readCov_haloL_window arg5.view g5 _ 0 0 (by omega) (by omega) _ j) _ _
      · exact flat_eq_winFlat _ 0 1 (by omega) (by omega) _ (fun j => readCov_haloL_window arg5.view g5 _ 0 1 (by omega) (by omega) _ j) _ _
      · exact flat_eq_winFlat _ 0 2 (by omega) (by omega) _ (fun j => readCov_haloL_window arg5.view g5 _ 0 2 (by omega) (by omega) _ j) _ _
      · exact flat_eq_winFlat _ 1 0 (by omega) (by omega) _ (fun j => readCov_haloL_window arg5.view g5 _ 1 0 (by omega) (by omega) _ j) _ _
      · exact flat_eq_winFlat _ 1 1 (by omega) (by omega) _ (fun j => readCov_haloL_window arg5.view g5 _ 1 1 (by omega) (by omega) _ j) _ _
      · exact flat_eq_winFlat _ 1 2 (by omega) (by omega) _ (fun j => readCov_haloL_window arg5.view g5 _ 1 2 (by omega) (by omega) _ j) _ _
      · exact flat_eq_winFlat _ 2 0 (by omega) (by omega) _ (fun j => readCov_haloL_window arg5.view g5 _ 2 0 (by omega) (by omega) _ j) _ _
      · exact flat_eq_winFlat _ 2 1 (by omega) (by omega) _ (fun j => readCov_haloL_window arg5.view g5 _ 2 1 (by omega) (by omega) _ j) _ _
      · exact flat_eq_winFlat _ 2 2 (by omega) (by omega) _ (fun j => readCov_haloL_window arg5.view g5 _ 2 2 (by omega) (by omega) _ j) _ _
    · exact View.ld_unit_zero hz2' _ _
  isplitl [H5]
  · iexists _; iexact H5
  iexists _; iexact H6

end Cert.Proof.K

end
-- ==== Proof.K.Data.lean ====
/-
  The pipeline's proof data for the convolution kernel, for every float instance: the arrays as the region finds them,
  each input window's staging buffer at its block at every point, the result window's at `OUT` of the point's three input
  blocks, the two scratch buffers at anything between points (each point rewrites them whole before it reads them).
-/
import proofs.«171157_g2000105039750728_pallasbulk_413_14_alg».proof.Proof.K.Out
import proofs.«171157_g2000105039750728_pallasbulk_413_14_alg».proof.Proof.Gen.Kernel.Frame
import Idealize.ShloMosaic.Lib.Pipeline.Value

set_option maxRecDepth 16384

noncomputable section

namespace Cert.Proof.K

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

variable (m : (ℓ : Loc nD τ sig) → Buf (Elt F) ℓ) (ρ : Dev nD → PrngReg)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => OUT (iblk m c 0 t) (iblk m c 1 t) (iblk m c 2 t)
  Φ _ := ΦA spec0 c
  q _ := fullShare
  owed _ := 0

theorem A_eq (c : Dev nD) (w : Fin cfg0.W) : (dats m 0 c).A w = V m c (Pipeline.arrRef spec0 w) := rfl

/-- What a point leaves in each window's staging buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = OUT (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.Proof.K

end
-- ==== Proof.K.Body.lean ====
/-
  The body obligation of the convolution kernel at every grid point, the frame run and the frame, for every float
  instance. The two scratch buffers are the region's scoped rest: the invariant holds them at some contents, the body's
  triple takes them so and gives them back so; the inputs' staging buffers hold their blocks and are given back
  unchanged; the result's staging buffer ends at `OUT` of the three input blocks.
-/
import proofs.«171157_g2000105039750728_pallasbulk_413_14_alg».proof.Proof.K.Run
import proofs.«171157_g2000105039750728_pallasbulk_413_14_alg».proof.Proof.K.Data

set_option maxRecDepth 16384

noncomputable section

namespace Cert.Proof.K

open Cert.Kernel Cert.Kernel.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A scratch buffer as the region's invariant holds it and as the body's triple names it: one points-to. -/
theorem scr0_eq (c : Dev nD) (f : Buf (Elt F) ((c : Thread nD τ).loc cc0_scratch0)) :
    ((Memref.whole cc0_scratch0 : Memref sig .tc .vmem S66x66x128 .bf16).view.loc (c : Thread nD τ)
        ↦[(Memref.whole cc0_scratch0 : Memref sig .tc .vmem S66x66x128 .bf16).view.set]{fullShare} f : sProp 𝕄)
      = ((c : Thread nD τ).loc cc0_scratch0) ↦{fullShare} f := by
  simp only [Memref.view_whole, View.set_whole]
theorem scr1_eq (c : Dev nD) (f : Buf (Elt F) ((c : Thread nD τ).loc cc0_scratch1)) :
    ((Memref.whole cc0_scratch1 : Memref sig .tc .vmem S4096x1152 .bf16).view.loc (c : Thread nD τ)
        ↦[(Memref.whole cc0_scratch1 : Memref sig .tc .vmem S4096x1152 .bf16).view.set]{fullShare} f : sProp 𝕄)
      = ((c : Thread nD τ).loc cc0_scratch1) ↦{fullShare} f := by
  simp only [Memref.view_whole, View.set_whole]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' staging buffers hold their blocks, the invariant yields the two scratch buffers and
    takes them back, the generator register and what the core owes pass through unread. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, show (dats m 0 c).Φ t.castSucc = ΦA spec0 c from rfl]
  unfold ΦA
  rw [scopedRest0_eq]
  iintro ⟨⟨⟨⟨%g5, HS5⟩, ⟨%g6, HS6⟩⟩, HR⟩, Ho, ⟨%d0, H0⟩, ⟨%d1, H1⟩, ⟨%d2, H2⟩, ⟨%d3, H3⟩⟩
  iapply (sound_kernel c (grid0.coords t) _ _ _ _ _ _ _ _ (Memref.whole cc0_scratch0) (Memref.isWhole_whole _)
    (Memref.whole cc0_scratch1) (Memref.isWhole_whole _) (iblk m c 0 t) (iblk m c 1 t) (iblk m c 2 t) _)
  isplitl [H0]; · iexact H0
  isplitl [H1]; · iexact H1
  isplitl [H2]; · iexact H2
  isplitl [H3]; · iexists _; iexact H3
  isplitl [HS5]; · iexists g5; rw [scr0_eq]; iexact HS5
  isplitl [HS6]; · iexists g6; rw [scr1_eq]; iexact HS6
  iintro ⟨H0, H1, H2, H3, ⟨%g5', HS5⟩, ⟨%g6', HS6⟩⟩
  isplitl [HS5 HS6 HR]
  · isplitl [HS5 HS6]
    · isplitl [HS5]
      · iexists g5'; rw [← scr0_eq]; iexact HS5
      · iexists g6'; rw [← scr1_eq]; iexact HS6
    iexact HR
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) 𝒱₀ () Set.univ := fun t => by
  rw [bigSep_W0, bigSep_W0]
  exact sound_body m c t

set_option backward.isDefEq.respectTransparency.types false in
/-- From any memory with zero counters every weakly fair execution of @main terminates, and every final state has every
    array of the pipeline at what the proof data give and every other unscoped buffer as the lines after the region leave
    it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

/-- The frame: the program runs to the end, faults nowhere and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Proof.K

end
-- ==== Proof.KI.Out.lean ====
/-
  What one grid point of the convolution kernel leaves in its result block, as a closed function of the three input
  blocks, for every float instance: the image block, cast and moved to channel-last layout, is surrounded by a border of
  one zero (`halo`); the nine shifted 64×64 windows of the bordered image, each flattened to 4096 rows, are laid side
  by side as the columns of the patch matrix (`patches`); the result block is the generated payload of the final store —
  the weight block contracted with the patch matrix, plus the bias column — at those operands (`OUT`).
-/
import proofs.«171157_g2000105039750728_pallasbulk_413_14_alg».proof.Proof.Gen.KernelIdeal.Skeleton
import Idealize.ShloMosaic.Lib.ValueIdx

set_option maxRecDepth 16384

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The bordered image: entry `(r, s, ci)` is the image's entry `(r - 1, s - 1, ci)` when both `r` and `s` lie in
    `1 … 64`, and zero on the border (rows and columns 0 and 65). -/
def halo (p : FVec F S64x64x128 .bf16) : FVec F S66x66x128 .bf16 := fun y =>
  if h : 1 ≤ (y 0).val ∧ (y 0).val ≤ 64 ∧ 1 ≤ (y 1).val ∧ (y 1).val ≤ 64 then
    p (ix3 ⟨(y 0).val - 1, by omega⟩ ⟨(y 1).val - 1, by omega⟩ ⟨(y 2).val, (y 2).isLt⟩)
  else Scalar.ofBits .bf16 0x0000#16

/-- The patch matrix of a bordered image: row `m = 64 h + w`, column `k = 128 (3 ky + kx) + ci` holds the bordered image's
    entry `(ky + h, kx + w, ci)`. -/
def patches (xs : FVec F S66x66x128 .bf16) : FVec F S4096x1152 .bf16 := fun y =>
  have h0 : (y 0).val < 4096 := (y 0).isLt
  have h1 : (y 1).val < 1152 := (y 1).isLt
  xs (ix3 ⟨(y 1).val / 128 / 3 + (y 0).val / 64, by omega⟩ ⟨(y 1).val / 128 % 3 + (y 0).val % 64, by omega⟩
    ⟨(y 1).val % 128, Nat.mod_lt _ (by norm_num)⟩)

/-- The result block of one grid point from its image block `X0`, weight block `X1` and bias block `X2`. -/
def OUT (X0 : Vec F S1x128x4096 .f32) (X1 : Vec F S1152x128 .bf16) (X2 : Vec F S128x1 .f32) : FVec F S1x128x4096 .f32 :=
  k0_pay4 X1 (patches (halo (k0_pay9 X0))) X2

end Cert.Proof.KI

end
-- ==== Proof.KI.Run.lean ====
/-
  One grid point of the 3×3 convolution kernel, for every float instance, as pure data movement.

  The body first zeroes the border of a 66×66×128 scratch image: rows 0 and 65 by two whole-row stores, columns 0 and
  65 by two read-modify-write stores of a 66×2×128 rectangle.  It then writes the image block — cast and transposed to
  channel-last layout — into rows 1…64, by a read-modify-write of the rectangle of rows 1…64 and all 66 columns in
  which only columns 1…64 are replaced, so that columns 0 and 65 keep the zeros stored before.  Every entry of the
  scratch image is thus written before it is read, and afterwards it holds the bordered image whatever it held at entry.

  Nine times the body then loads the 64×64×128 window of the scratch image at offset (ky, kx, 0), flattens it to
  4096×128, and stores it into columns [128 t, 128 t + 128), t = 3 ky + kx, of a 4096×1152 scratch matrix.  The nine
  column blocks tile that matrix, which therefore holds the patch matrix of the bordered image whatever it held at entry.

  Finally the body loads the patch matrix, the weight block and the bias block, and stores the contraction plus bias
  into the result block.  The result block is the closed function `OUT` of the three input blocks.
-/
import proofs.«171157_g2000105039750728_pallasbulk_413_14_alg».proof.Proof.KI.Out
import proofs.«171157_g2000105039750728_pallasbulk_413_14_alg».proof.Proof.Gen.KernelIdeal.Frame
import proofs.«171157_g2000105039750728_pallasbulk_413_14_alg».proof.Proof.Gen.KernelIdeal.Skeleton
import Idealize.ShloMosaic.Lib.Pipeline.Value
import Idealize.ShloMosaic.Lib.WritesUnit

set_option maxRecDepth 16384

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

/-! ## An update of a slice, read at an index -/

section UpdateSlice
variable {α : Type} {s u : Shape}

/-- Off the updated rectangle on one axis, the old value. -/
theorem updateSlice_of_not_mem (x : s.Idx → α) (upd : u.Idx → α) (start : Fin s.rank → ℕ) (h : s.Slices start u) (i : s.Idx)
    (a : Fin s.rank) (ha : (i a).val < start a ∨ start a + u.size (a.cast h.1.symm) ≤ (i a).val) :
    updateSlice x upd start h i = x i := by
  unfold updateSlice
  rw [dif_neg]
  intro hin
  have := hin a
  omega

/-- Inside the updated rectangle, the update at the index minus the start (the caller names that index). -/
theorem updateSlice_of_mem (x : s.Idx → α) (upd : u.Idx → α) (start : Fin s.rank → ℕ) (h : s.Slices start u) (i : s.Idx)
    (k : u.Idx) (hk : ∀ a : Fin s.rank, (i a).val = start a + (k (a.cast h.1.symm)).val) :
    updateSlice x upd start h i = upd k := by
  unfold updateSlice
  have hin : ∀ a : Fin s.rank, start a ≤ (i a).val ∧ (i a).val < start a + u.size (a.cast h.1.symm) := fun a => by
    have := hk a
    have := (k (a.cast h.1.symm)).isLt
    omega
  rw [dif_pos hin]
  refine congrArg upd (funext fun b => Fin.ext ?_)
  have := hk (b.cast h.1)
  have e : (b.cast h.1).cast h.1.symm = b := rfl
  rw [e] at this
  show (i (b.cast h.1)).val - start (b.cast h.1) = (k b).val
  omega

end UpdateSlice

/-- A statement about every axis of a rank-three shape is the three statements. -/
theorem forall_fin3 {P : Fin 3 → Prop} : (∀ a, P a) ↔ P 0 ∧ P 1 ∧ P 2 :=
  ⟨fun h => ⟨h 0, h 1, h 2⟩, fun h a => match a with | ⟨0, _⟩ => h.1 | ⟨1, _⟩ => h.2.1 | ⟨2, _⟩ => h.2.2⟩

/-! ## The four zero payloads -/

/-- The bf16 zero the border is filled with. -/
abbrev zero16 : F .bf16 := Scalar.ofBits .bf16 0x0000#16

theorem pay5_apply (x : S1x66x128.Idx) : k0_pay5 (F := F) x = zero16 := by
  unfold k0_pay5; rw [shapeCast_self]; rfl
theorem pay6_apply (x : S1x66x128.Idx) : k0_pay6 (F := F) x = zero16 := by
  unfold k0_pay6; rw [shapeCast_self]; rfl
theorem pay7_apply (x : S66x1x128.Idx) : k0_pay7 (F := F) x = zero16 := by
  unfold k0_pay7; rw [shapeCast_self]; rfl
theorem pay8_apply (x : S66x1x128.Idx) : k0_pay8 (F := F) x = zero16 := by
  unfold k0_pay8; rw [shapeCast_self]; rfl

/-! ## The scratch image after the five border and interior stores -/

section Halo
variable {sig : RefSig} {κ : Kind} {sp : Space} (v : View sig κ sp S66x66x128 .bf16)

/-- Rows 0 and 65 zeroed (newest first). -/
def rowsL : List (View.Piece (Elt F) S66x66x128 .bf16) :=
  [⟨Rect.unit (s := S66x66x128) ![65, 0, 0] S1x66x128.size inb_S66x66x128_S1x66x128_65_0_0, k0_pay6⟩,
    ⟨Rect.unit (s := S66x66x128) ![0, 0, 0] S1x66x128.size inb_S66x66x128_S1x66x128_0_0_0, k0_pay5⟩]

/-- Then column 0 zeroed, by a read-modify-write of columns 0 and 1. -/
def col0L (g : v.ty.Contents (Elt F)) : List (View.Piece (Elt F) S66x66x128 .bf16) :=
  ⟨Rect.unit (s := S66x66x128) ![0, 0, 0] S66x2x128.size inb_S66x66x128_S66x2x128_0_0_0,
      updateSlice (View.readAt (Elt F) v (Rect.unit (s := S66x66x128) ![0, 0, 0] S66x2x128.size inb_S66x66x128_S66x2x128_0_0_0).toLoadRect
          (v.writes (Elt F) g rowsL)) k0_pay7 ![0, 0, 0] slices_S66x2x128_S66x1x128_0_0_0⟩ :: rowsL

/-- Then column 65 zeroed, by a read-modify-write of columns 64 and 65. -/
def col65L (g : v.ty.Contents (Elt F)) : List (View.Piece (Elt F) S66x66x128 .bf16) :=
  ⟨Rect.unit (s := S66x66x128) ![0, 64, 0] S66x2x128.size inb_S66x66x128_S66x2x128_0_64_0,
      updateSlice (View.readAt (Elt F) v (Rect.unit (s := S66x66x128) ![0, 64, 0] S66x2x128.size inb_S66x66x128_S66x2x128_0_64_0).toLoadRect
          (v.writes (Elt F) g (col0L v g))) k0_pay8 ![0, 1, 0] slices_S66x2x128_S66x1x128_0_1_0⟩ :: col0L v g

/-- Then the image `p` put at rows 1…64, columns 1…64, by a read-modify-write of rows 1…64 and all 66 columns. -/
def haloL (g : v.ty.Contents (Elt F)) (p : FVec F S64x64x128 .bf16) : List (View.Piece (Elt F) S66x66x128 .bf16) :=
  ⟨Rect.unit (s := S66x66x128) ![1, 0, 0] S64x66x128.size inb_S66x66x128_S64x66x128_1_0_0,
      updateSlice (View.readAt (Elt F) v (Rect.unit (s := S66x66x128) ![1, 0, 0] S64x66x128.size inb_S66x66x128_S64x66x128_1_0_0).toLoadRect
          (v.writes (Elt F) g (col65L v g))) p ![0, 1, 0] slices_S64x66x128_S64x64x128_0_1_0⟩ :: col65L v g

/-- After the two row stores, rows 0 and 65 are zero, whatever the buffer held. -/
theorem read_rowsL (g : v.ty.Contents (Elt F)) (y : S66x66x128.Idx) (hy : (y 0).val = 0 ∨ (y 0).val = 65) :
    v.read (Elt F) (v.writes (Elt F) g rowsL) y = zero16 := by
  have h1 : (y 1).val < 66 := (y 1).isLt
  have h2 : (y 2).val < 128 := (y 2).isLt
  unfold rowsL
  rcases hy with h | h
  · rw [View.read_writes_cons_unit_of_not_mem v g _ _ _ y rfl (0 : Fin 3) (Or.inl (by show (y 0).val < 65; omega))]
    rw [View.read_writes_cons_unit v g _ _ _ y rfl, dif_pos (forall_fin3.mpr ⟨by show 0 ≤ (y 0).val ∧ (y 0).val < 0 + 1; omega,
      by show 0 ≤ (y 1).val ∧ (y 1).val < 0 + 66; omega, by show 0 ≤ (y 2).val ∧ (y 2).val < 0 + 128; omega⟩)]
    exact pay5_apply _
  · rw [View.read_writes_cons_unit v g _ _ _ y rfl, dif_pos (forall_fin3.mpr ⟨by show 65 ≤ (y 0).val ∧ (y 0).val < 65 + 1; omega,
      by show 0 ≤ (y 1).val ∧ (y 1).val < 0 + 66; omega, by show 0 ≤ (y 2).val ∧ (y 2).val < 0 + 128; omega⟩)]
    exact pay6_apply _

/-- After column 0's store, rows 0 and 65 and column 0 are zero, whatever the buffer held. -/
theorem read_col0L (g g' : v.ty.Contents (Elt F)) (y : S66x66x128.Idx)
    (hy : (y 0).val = 0 ∨ (y 0).val = 65 ∨ (y 1).val = 0) :
    v.read (Elt F) (v.writes (Elt F) g' (col0L v g)) y = zero16 := by
  have h0 : (y 0).val < 66 := (y 0).isLt
  have h1 : (y 1).val < 66 := (y 1).isLt
  have h2 : (y 2).val < 128 := (y 2).isLt
  unfold col0L
  by_cases hc : (y 1).val < 2
  · rw [View.read_writes_cons_unit v g' _ _ _ y rfl, dif_pos (forall_fin3.mpr ⟨by show 0 ≤ (y 0).val ∧ (y 0).val < 0 + 66; omega,
      by show 0 ≤ (y 1).val ∧ (y 1).val < 0 + 2; omega, by show 0 ≤ (y 2).val ∧ (y 2).val < 0 + 128; omega⟩)]
    by_cases hc0 : (y 1).val = 0
    · rw [updateSlice_of_mem _ _ _ _ _ (ix3 ⟨(y 0).val, h0⟩ ⟨0, by omega⟩ ⟨(y 2).val, h2⟩) (forall_fin3.mpr ⟨by
        show (y 0).val - 0 = 0 + (y 0).val; omega, by show (y 1).val - 0 = 0 + 0; omega, by show (y 2).val - 0 = 0 + (y 2).val; omega⟩)]
      exact pay7_apply _
    · rw [updateSlice_of_not_mem _ _ _ _ _ (1 : Fin 3) (Or.inr (by show 0 + 1 ≤ (y 1).val - 0; omega)), View.readAt_apply]
      exact read_rowsL v g _ (by show 0 + 1 * ((y 0).val - 0) = 0 ∨ 0 + 1 * ((y 0).val - 0) = 65; omega)
  · rw [View.read_writes_cons_unit_of_not_mem v g' _ _ _ y rfl (1 : Fin 3) (Or.inr (by show 0 + 2 ≤ (y 1).val; omega))]
    exact read_rowsL v g' y (by omega)

/-- After column 65's store, the whole border — rows 0 and 65, columns 0 and 65 — is zero, whatever the buffer held. -/
theorem read_col65L (g g' : v.ty.Contents (Elt F)) (y : S66x66x128.Idx)
    (hy : (y 0).val = 0 ∨ (y 0).val = 65 ∨ (y 1).val = 0 ∨ (y 1).val = 65) :
    v.read (Elt F) (v.writes (Elt F) g' (col65L v g)) y = zero16 := by
  have h0 : (y 0).val < 66 := (y 0).isLt
  have h1 : (y 1).val < 66 := (y 1).isLt
  have h2 : (y 2).val < 128 := (y 2).isLt
  unfold col65L
  by_cases hc : 64 ≤ (y 1).val
  · rw [View.read_writes_cons_unit v g' _ _ _ y rfl, dif_pos (forall_fin3.mpr ⟨by show 0 ≤ (y 0).val ∧ (y 0).val < 0 + 66; omega,
      by show 64 ≤ (y 1).val ∧ (y 1).val < 64 + 2; omega, by show 0 ≤ (y 2).val ∧ (y 2).val < 0 + 128; omega⟩)]
    by_cases hc0 : (y 1).val = 65
    · rw [updateSlice_of_mem _ _ _ _ _ (ix3 ⟨(y 0).val, h0⟩ ⟨0, by omega⟩ ⟨(y 2).val, h2⟩) (forall_fin3.mpr ⟨by
        show (y 0).val - 0 = 0 + (y 0).val; omega, by show (y 1).val - 64 = 1 + 0; omega, by show (y 2).val - 0 = 0 + (y 2).val; omega⟩)]
      exact pay8_apply _
    · rw [updateSlice_of_not_mem _ _ _ _ _ (1 : Fin 3) (Or.inl (by show (y 1).val - 64 < 1; omega)), View.readAt_apply]
      exact read_col0L v g g _ (by
        show 0 + 1 * ((y 0).val - 0) = 0 ∨ 0 + 1 * ((y 0).val - 0) = 65 ∨ 64 + 1 * ((y 1).val - 64) = 0; omega)
  · rw [View.read_writes_cons_unit_of_not_mem v g' _ _ _ y rfl (1 : Fin 3) (Or.inl (by show (y 1).val < 64; omega))]
    exact read_col0L v g g' y (by omega)

/-- After the interior store the buffer holds the bordered image, whatever it held: every entry has been written. -/
theorem read_haloL (g g' : v.ty.Contents (Elt F)) (p : FVec F S64x64x128 .bf16) (y : S66x66x128.Idx) :
    v.read (Elt F) (v.writes (Elt F) g' (haloL v g p)) y = halo p y := by
  have h0 : (y 0).val < 66 := (y 0).isLt
  have h1 : (y 1).val < 66 := (y 1).isLt
  have h2 : (y 2).val < 128 := (y 2).isLt
  unfold haloL halo
  by_cases hr : 1 ≤ (y 0).val ∧ (y 0).val ≤ 64
  · rw [View.read_writes_cons_unit v g' _ _ _ y rfl, dif_pos (forall_fin3.mpr ⟨by show 1 ≤ (y 0).val ∧ (y 0).val < 1 + 64; omega,
      by show 0 ≤ (y 1).val ∧ (y 1).val < 0 + 66; omega, by show 0 ≤ (y 2).val ∧ (y 2).val < 0 + 128; omega⟩)]
    by_cases hs : 1 ≤ (y 1).val ∧ (y 1).val ≤ 64
    · rw [dif_pos ⟨hr.1, hr.2, hs.1, hs.2⟩]
      exact updateSlice_of_mem _ _ _ _ _ _ (forall_fin3.mpr ⟨by
        show (y 0).val - 1 = 0 + ((y 0).val - 1); omega, by show (y 1).val - 0 = 1 + ((y 1).val - 1); omega,
        by show (y 2).val - 0 = 0 + (y 2).val; omega⟩)
    · rw [dif_neg (by omega)]
      rw [updateSlice_of_not_mem _ _ _ _ _ (1 : Fin 3) (by
        show (y 1).val - 0 < 1 ∨ 1 + 64 ≤ (y 1).val - 0; omega), View.readAt_apply]
      exact read_col65L v g g _ (by
        show 1 + 1 * ((y 0).val - 1) = 0 ∨ 1 + 1 * ((y 0).val - 1) = 65 ∨ 0 + 1 * ((y 1).val - 0) = 0 ∨ 0 + 1 * ((y 1).val - 0) = 65
        omega)
  · rw [dif_neg (by omega)]
    rw [View.read_writes_cons_unit_of_not_mem v g' _ _ _ y rfl (0 : Fin 3) (by show (y 0).val < 1 ∨ 1 + 64 ≤ (y 0).val; omega)]
    exact read_col65L v g g' y (by omega)

/-- A load of window `(ky, kx)` after the five stores reads that window of the bordered image. -/
theorem readCov_haloL_window (g : v.ty.Contents (Elt F)) (p : FVec F S64x64x128 .bf16) (ky kx : ℕ) (hky : ky < 3) (hkx : kx < 3)
    (inb : ∀ a, (![ky, kx, 0] : Fin S66x66x128.rank → ℕ) a + S64x64x128.size a ≤ S66x66x128.size a) (j : S64x64x128.Idx) :
    v.readCov (haloL v g p) (Rect.unit (s := S66x66x128) ![ky, kx, 0] S64x64x128.size inb).toLoadRect j
      = halo p (ix3 ⟨ky + (j 0).val, by have : (j 0).val < 64 := (j 0).isLt; omega⟩
          ⟨kx + (j 1).val, by have : (j 1).val < 64 := (j 1).isLt; omega⟩ ⟨(j 2).val, (j 2).isLt⟩) := by
  show v.read (Elt F) (v.writes (Elt F) v.junk (haloL v g p)) _ = _
  rw [read_haloL]
  refine congrArg (halo p) (funext fun a => Fin.ext ?_)
  match a with
  | ⟨0, _⟩ => show ky + 1 * (j 0).val = ky + (j 0).val; omega
  | ⟨1, _⟩ => show kx + 1 * (j 1).val = kx + (j 1).val; omega
  | ⟨2, _⟩ => show 0 + 1 * (j 2).val = (j 2).val; omega

end Halo

/-! ## The patch matrix after the nine column stores -/

/-- Window `(ky, kx)` of a bordered image, flattened to 4096 rows: row `64 h + w`, channel `c` is entry
    `(ky + h, kx + w, c)`. -/
def winFlat (xs : FVec F S66x66x128 .bf16) (ky kx : ℕ) (hky : ky < 3) (hkx : kx < 3) : FVec F S4096x128 .bf16 := fun x =>
  have h0 : (x 0).val < 4096 := (x 0).isLt
  xs (ix3 ⟨ky + (x 0).val / 64, by omega⟩ ⟨kx + (x 0).val % 64, by omega⟩ ⟨(x 1).val, (x 1).isLt⟩)

/-- A loaded window, flattened by the two shape casts of the body, is `winFlat` of the image it was loaded from. -/
theorem flat_eq_winFlat (xs : FVec F S66x66x128 .bf16) (ky kx : ℕ) (hky : ky < 3) (hkx : kx < 3) (W : Vec F S64x64x128 .bf16)
    (hW : ∀ j : S64x64x128.Idx, W j = xs (ix3 ⟨ky + (j 0).val, by have : (j 0).val < 64 := (j 0).isLt; omega⟩
      ⟨kx + (j 1).val, by have : (j 1).val < 64 := (j 1).isLt; omega⟩ ⟨(j 2).val, (j 2).isLt⟩))
    (h1 : S64x64x128.ShapeCasts S4096x128) (h2 : S4096x128.ShapeCasts S4096x128) :
    shapeCast S4096x128 (shapeCast S4096x128 W h1) h2 = winFlat xs ky kx hky hkx := by
  rw [shapeCast_self]
  funext x
  have h0 : (x 0).val < 4096 := (x 0).isLt
  have hx1 : (x 1).val < 128 := (x 1).isLt
  rw [shapeCast_apply W h1 x (ix3 ⟨(x 0).val / 64, by omega⟩ ⟨(x 0).val % 64, by omega⟩ ⟨(x 1).val, hx1⟩) (by
    rw [Shape.rowMajor_val_three, Shape.rowMajor_val_two]
    show ((x 0).val / 64 * 64 + (x 0).val % 64) * 128 + (x 1).val = (x 0).val * 128 + (x 1).val
    omega)]
  exact hW _

/-- `winFlat` of window `(ky, kx)` is the block of columns `[128 t, 128 t + 128)`, `t = 3 ky + kx`, of the patch matrix. -/
theorem winFlat_eq_patches (xs : FVec F S66x66x128 .bf16) (ky kx : ℕ) (hky : ky < 3) (hkx : kx < 3) (x : S4096x128.Idx)
    (y : S4096x1152.Idx) (hy0 : (y 0).val = (x 0).val) (hy1 : (y 1).val = 128 * (3 * ky + kx) + (x 1).val) :
    winFlat xs ky kx hky hkx x = patches xs y := by
  have h0 : (x 0).val < 4096 := (x 0).isLt
  have hx1 : (x 1).val < 128 := (x 1).isLt
  unfold winFlat patches
  refine congrArg xs (funext fun a => Fin.ext ?_)
  match a with
  | ⟨0, _⟩ => show ky + (x 0).val / 64 = (y 1).val / 128 / 3 + (y 0).val / 64; omega
  | ⟨1, _⟩ => show kx + (x 0).val % 64 = (y 1).val / 128 % 3 + (y 0).val % 64; omega
  | ⟨2, _⟩ => show (x 1).val = (y 1).val % 128; omega

section Patches
variable {sig : RefSig} {κ : Kind} {sp : Space} (v : View sig κ sp S4096x1152 .bf16)

/-- The nine column stores (newest first), over arbitrary payloads. -/
def patchL (P0 P1 P2 P3 P4 P5 P6 P7 P8 : FVec F S4096x128 .bf16) : List (View.Piece (Elt F) S4096x1152 .bf16) :=
  [⟨Rect.unit (s := S4096x1152) ![0, 1024] S4096x128.size inb_S4096x1152_S4096x128_0_1024, P8⟩,
    ⟨Rect.unit (s := S4096x1152) ![0, 896] S4096x128.size inb_S4096x1152_S4096x128_0_896, P7⟩,
    ⟨Rect.unit (s := S4096x1152) ![0, 768] S4096x128.size inb_S4096x1152_S4096x128_0_768, P6⟩,
    ⟨Rect.unit (s := S4096x1152) ![0, 640] S4096x128.size inb_S4096x1152_S4096x128_0_640, P5⟩,
    ⟨Rect.unit (s := S4096x1152) ![0, 512] S4096x128.size inb_S4096x1152_S4096x128_0_512, P4⟩,
    ⟨Rect.unit (s := S4096x1152) ![0, 384] S4096x128.size inb_S4096x1152_S4096x128_0_384, P3⟩,
    ⟨Rect.unit (s := S4096x1152) ![0, 256] S4096x128.size inb_S4096x1152_S4096x128_0_256, P2⟩,
    ⟨Rect.unit (s := S4096x1152) ![0, 128] S4096x128.size inb_S4096x1152_S4096x128_0_128, P1⟩,
    ⟨Rect.unit (s := S4096x1152) ![0, 0] S4096x128.size inb_S4096x1152_S4096x128_0_0, P0⟩]

/-- The nine column blocks tile the matrix. -/
theorem cover_patchL (P0 P1 P2 P3 P4 P5 P6 P7 P8 : FVec F S4096x128 .bf16) :
    ∀ y : S4096x1152.Idx, ∃ p ∈ patchL P0 P1 P2 P3 P4 P5 P6 P7 P8, y ∈ p.1.set :=
  View.cover_of_tiled (s := S4096x1152) (patchL P0 P1 P2 P3 P4 P5 P6 P7 P8) S4096x128.size (by rfl)

/-- So a whole load after them reads the patch matrix, whatever the buffer held. -/
theorem readCov_patchL (xs : FVec F S66x66x128 .bf16) (P0 P1 P2 P3 P4 P5 P6 P7 P8 : FVec F S4096x128 .bf16)
    (e0 : P0 = winFlat xs 0 0 (by omega) (by omega)) (e1 : P1 = winFlat xs 0 1 (by omega) (by omega))
    (e2 : P2 = winFlat xs 0 2 (by omega) (by omega)) (e3 : P3 = winFlat xs 1 0 (by omega) (by omega))
    (e4 : P4 = winFlat xs 1 1 (by omega) (by omega)) (e5 : P5 = winFlat xs 1 2 (by omega) (by omega))
    (e6 : P6 = winFlat xs 2 0 (by omega) (by omega)) (e7 : P7 = winFlat xs 2 1 (by omega) (by omega))
    (e8 : P8 = winFlat xs 2 2 (by omega) (by omega)) :
    v.readCov (patchL P0 P1 P2 P3 P4 P5 P6 P7 P8)
        (Rect.unit (s := S4096x1152) ![0, 0] S4096x1152.size inb_S4096x1152_S4096x1152_0_0).toLoadRect = patches xs := by
  subst e0 e1 e2 e3 e4 e5 e6 e7 e8
  have hz : (![0, 0] : Fin S4096x1152.rank → ℕ) = fun _ => 0 := by
    funext a; match a with | ⟨0, _⟩ => rfl | ⟨1, _⟩ => rfl
  refine (View.readCov_eq_canon' v _ _).trans ((View.ld_unit_zero (S := S4096x1152) hz _ _).trans (funext fun y => ?_))
  refine View.canon_apply_of_pieces (patches xs) _ ?_ y (cover_patchL _ _ _ _ _ _ _ _ _ y)
  intro p hp
  unfold patchL at hp
  simp only [List.mem_cons, List.not_mem_nil, or_false] at hp
  rcases hp with rfl | rfl | rfl | rfl | rfl | rfl | rfl | rfl | rfl <;> intro x
  · exact winFlat_eq_patches xs 2 2 (by omega) (by omega) x _ (by show 0 + 1 * (x 0).val = (x 0).val; omega) (by show 1024 + 1 * (x 1).val = 128 * (3 * 2 + 2) + (x 1).val; omega)
  · exact winFlat_eq_patches xs 2 1 (by omega) (by omega) x _ (by show 0 + 1 * (x 0).val = (x 0).val; omega) (by show 896 + 1 * (x 1).val = 128 * (3 * 2 + 1) + (x 1).val; omega)
  · exact winFlat_eq_patches xs 2 0 (by omega) (by omega) x _ (by show 0 + 1 * (x 0).val = (x 0).val; omega) (by show 768 + 1 * (x 1).val = 128 * (3 * 2 + 0) + (x 1).val; omega)
  · exact winFlat_eq_patches xs 1 2 (by omega) (by omega) x _ (by show 0 + 1 * (x 0).val = (x 0).val; omega) (by show 640 + 1 * (x 1).val = 128 * (3 * 1 + 2) + (x 1).val; omega)
  · exact winFlat_eq_patches xs 1 1 (by omega) (by omega) x _ (by show 0 + 1 * (x 0).val = (x 0).val; omega) (by show 512 + 1 * (x 1).val = 128 * (3 * 1 + 1) + (x 1).val; omega)
  · exact winFlat_eq_patches xs 1 0 (by omega) (by omega) x _ (by show 0 + 1 * (x 0).val = (x 0).val; omega) (by show 384 + 1 * (x 1).val = 128 * (3 * 1 + 0) + (x 1).val; omega)
  · exact winFlat_eq_patches xs 0 2 (by omega) (by omega) x _ (by show 0 + 1 * (x 0).val = (x 0).val; omega) (by show 256 + 1 * (x 1).val = 128 * (3 * 0 + 2) + (x 1).val; omega)
  · exact winFlat_eq_patches xs 0 1 (by omega) (by omega) x _ (by show 0 + 1 * (x 0).val = (x 0).val; omega) (by show 128 + 1 * (x 1).val = 128 * (3 * 0 + 1) + (x 1).val; omega)
  · exact winFlat_eq_patches xs 0 0 (by omega) (by omega) x _ (by show 0 + 1 * (x 0).val = (x 0).val; omega) (by show 0 + 1 * (x 1).val = 128 * (3 * 0 + 0) + (x 1).val; omega)

end Patches

/-! ## The body's triple -/

local notation "𝕄" => MT nD τ sig Unit (Elt F) ℕ (UR sig nD τ) ℕ

abbrev 𝒱₀ : Variants := Variants.none

/-- One grid point of the kernel body: from the three input blocks, any result block and any contents of the two
    scratch buffers, it leaves the inputs unchanged, the result block at `OUT` of the inputs, and the scratch buffers
    at some contents. -/
theorem sound_kernel (c : Dev nD) (i : grid0.Coords)
    (arg1 : Memref sig .tc .vmem S1x128x4096 .f32) (harg1 : arg1.IsWhole) (arg2 : Memref sig .tc .vmem S1152x128 .bf16) (harg2 : arg2.IsWhole)
    (arg3 : Memref sig .tc .vmem S128x1 .f32) (harg3 : arg3.IsWhole) (arg4 : Memref sig .tc .vmem S1x128x4096 .f32) (harg4 : arg4.IsWhole)
    (arg5 : Memref sig .tc .vmem S66x66x128 .bf16) (harg5 : arg5.IsWhole) (arg6 : Memref sig .tc .vmem S4096x1152 .bf16) (harg6 : arg6.IsWhole)
    (x0 : Vec F S1x128x4096 .f32) (x1 : Vec F S1152x128 .bf16) (x2 : Vec F S128x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (∃ g, arg5.view.loc (c : Thread nD τ) ↦[arg5.view.set]{fullShare} g)
        ∗ (∃ g, arg6.view.loc (c : Thread nD τ) ↦[arg6.view.set]{fullShare} g)
        ∗ (iprop(owns (c : Thread nD τ) arg1 fullShare x0 ∗ owns (c : Thread nD τ) arg2 fullShare x1 ∗ owns (c : Thread nD τ) arg3 fullShare x2
            ∗ owns (c : Thread nD τ) arg4 fullShare (OUT x0 x1 x2)
            ∗ (∃ g, arg5.view.loc (c : Thread nD τ) ↦[arg5.view.set]{fullShare} g)
            ∗ (∃ g, arg6.view.loc (c : Thread nD τ) ↦[arg6.view.set]{fullShare} g)) -∗ K ⟨⟩))
      ⊢ wp frame (wpE (defs₀ (F := F)) 𝒱₀ c none) Set.univ (cc0__conv3x3_kernel i arg1 harg1 arg2 harg2 arg3 harg3 arg4 harg4 arg5 harg5 arg6 harg6) K := by
  simp only [cc0__conv3x3_kernel_eq_skeleton]; unfold cc0__conv3x3_kernel_skel
  unfold owns
  iintro ⟨⟨%f1, %hf1, H1⟩, ⟨%f2, %hf2, H2⟩, ⟨%f3, %hf3, H3⟩, ⟨%d4, %f4, -, H4⟩, ⟨%g5, H5⟩, ⟨%g6, H6⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    have hz3 : (![0, 0, 0] : Fin S1x128x4096.rank → ℕ) = fun _ => 0 := by
      funext a; match a with | ⟨0, _⟩ => rfl | ⟨1, _⟩ => rfl | ⟨2, _⟩ => rfl
    have hz2 : (![0, 0] : Fin S1152x128.rank → ℕ) = fun _ => 0 := by
      funext a; match a with | ⟨0, _⟩ => rfl | ⟨1, _⟩ => rfl
    have hz2' : (![0, 0] : Fin S128x1.rank → ℕ) = fun _ => 0 := by
      funext a; match a with | ⟨0, _⟩ => rfl | ⟨1, _⟩ => rfl
    refine (View.read_writes_eq_canon _ _ _ (fun y => ?_)).trans ((View.canon_unit_zero hz3 _ _).trans ?_)
    · refine ⟨_, List.mem_singleton_self _, ?_⟩
      exact View.mem_set_unit_zero hz3 inb_S1x128x4096_S1x128x4096_0_0_0 y
    unfold OUT
    sl_unfold_run_names
    refine congr (congr (congrArg k0_pay4 ?_) ?_) ?_
    · exact View.ld_unit_zero hz2 _ _
    · refine (readCov_patchL arg6.view (halo (k0_pay9 (View.readAt (Elt F) arg1.view
          (Rect.unit (s := S1x128x4096) ![0, 0, 0] S1x128x4096.size inb_S1x128x4096_S1x128x4096_0_0_0).toLoadRect f1)))
          _ _ _ _ _ _ _ _ _ ?_ ?_ ?_ ?_ ?_ ?_ ?_ ?_ ?_).trans
        (congrArg (fun X => patches (halo (k0_pay9 X))) (View.ld_unit_zero hz3 _ _))
      · exact flat_eq_winFlat _ 0 0 (by omega) (by omega) _ (fun j => readCov_haloL_window arg5.view g5 _ 0 0 (by omega) (by omega) _ j) _ _
      · exact flat_eq_winFlat _ 0 1 (by omega) (by omega) _ (fun j => readCov_haloL_window arg5.view g5 _ 0 1 (by omega) (by omega) _ j) _ _
      · exact flat_eq_winFlat _ 0 2 (by omega) (by omega) _ (fun j => readCov_haloL_window arg5.view g5 _ 0 2 (by omega) (by omega) _ j) _ _
      · exact flat_eq_winFlat _ 1 0 (by omega) (by omega) _ (fun j => readCov_haloL_window arg5.view g5 _ 1 0 (by omega) (by omega) _ j) _ _
      · exact flat_eq_winFlat _ 1 1 (by omega) (by omega) _ (fun j => readCov_haloL_window arg5.view g5 _ 1 1 (by omega) (by omega) _ j) _ _
      · exact flat_eq_winFlat _ 1 2 (by omega) (by omega) _ (fun j => readCov_haloL_window arg5.view g5 _ 1 2 (by omega) (by omega) _ j) _ _
      · exact flat_eq_winFlat _ 2 0 (by omega) (by omega) _ (fun j => readCov_haloL_window arg5.view g5 _ 2 0 (by omega) (by omega) _ j) _ _
      · exact flat_eq_winFlat _ 2 1 (by omega) (by omega) _ (fun j => readCov_haloL_window arg5.view g5 _ 2 1 (by omega) (by omega) _ j) _ _
      · exact flat_eq_winFlat _ 2 2 (by omega) (by omega) _ (fun j => readCov_haloL_window arg5.view g5 _ 2 2 (by omega) (by omega) _ j) _ _
    · exact View.ld_unit_zero hz2' _ _
  isplitl [H5]
  · iexists _; iexact H5
  iexists _; iexact H6

end Cert.Proof.KI

end
-- ==== Proof.KI.Data.lean ====
/-
  The pipeline's proof data for the convolution kernel, for every float instance: the arrays as the region finds them,
  each input window's staging buffer at its block at every point, the result window's at `OUT` of the point's three input
  blocks, the two scratch buffers at anything between points (each point rewrites them whole before it reads them).
-/
import proofs.«171157_g2000105039750728_pallasbulk_413_14_alg».proof.Proof.KI.Out
import proofs.«171157_g2000105039750728_pallasbulk_413_14_alg».proof.Proof.Gen.KernelIdeal.Frame
import Idealize.ShloMosaic.Lib.Pipeline.Value

set_option maxRecDepth 16384

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

variable (m : (ℓ : Loc nD τ sig) → Buf (Elt F) ℓ) (ρ : Dev nD → PrngReg)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => OUT (iblk m c 0 t) (iblk m c 1 t) (iblk m c 2 t)
  Φ _ := ΦA spec0 c
  q _ := fullShare
  owed _ := 0

theorem A_eq (c : Dev nD) (w : Fin cfg0.W) : (dats m 0 c).A w = V m c (Pipeline.arrRef spec0 w) := rfl

/-- What a point leaves in each window's staging buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = OUT (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.Proof.KI

end
-- ==== Proof.KI.Body.lean ====
/-
  The body obligation of the convolution kernel at every grid point, the frame run and the frame, for every float
  instance. The two scratch buffers are the region's scoped rest: the invariant holds them at some contents, the body's
  triple takes them so and gives them back so; the inputs' staging buffers hold their blocks and are given back
  unchanged; the result's staging buffer ends at `OUT` of the three input blocks.
-/
import proofs.«171157_g2000105039750728_pallasbulk_413_14_alg».proof.Proof.KI.Run
import proofs.«171157_g2000105039750728_pallasbulk_413_14_alg».proof.Proof.KI.Data

set_option maxRecDepth 16384

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A scratch buffer as the region's invariant holds it and as the body's triple names it: one points-to. -/
theorem scr0_eq (c : Dev nD) (f : Buf (Elt F) ((c : Thread nD τ).loc cc0_scratch0)) :
    ((Memref.whole cc0_scratch0 : Memref sig .tc .vmem S66x66x128 .bf16).view.loc (c : Thread nD τ)
        ↦[(Memref.whole cc0_scratch0 : Memref sig .tc .vmem S66x66x128 .bf16).view.set]{fullShare} f : sProp 𝕄)
      = ((c : Thread nD τ).loc cc0_scratch0) ↦{fullShare} f := by
  simp only [Memref.view_whole, View.set_whole]
theorem scr1_eq (c : Dev nD) (f : Buf (Elt F) ((c : Thread nD τ).loc cc0_scratch1)) :
    ((Memref.whole cc0_scratch1 : Memref sig .tc .vmem S4096x1152 .bf16).view.loc (c : Thread nD τ)
        ↦[(Memref.whole cc0_scratch1 : Memref sig .tc .vmem S4096x1152 .bf16).view.set]{fullShare} f : sProp 𝕄)
      = ((c : Thread nD τ).loc cc0_scratch1) ↦{fullShare} f := by
  simp only [Memref.view_whole, View.set_whole]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' staging buffers hold their blocks, the invariant yields the two scratch buffers and
    takes them back, the generator register and what the core owes pass through unread. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, show (dats m 0 c).Φ t.castSucc = ΦA spec0 c from rfl]
  unfold ΦA
  rw [scopedRest0_eq]
  iintro ⟨⟨⟨⟨%g5, HS5⟩, ⟨%g6, HS6⟩⟩, HR⟩, Ho, ⟨%d0, H0⟩, ⟨%d1, H1⟩, ⟨%d2, H2⟩, ⟨%d3, H3⟩⟩
  iapply (sound_kernel c (grid0.coords t) _ _ _ _ _ _ _ _ (Memref.whole cc0_scratch0) (Memref.isWhole_whole _)
    (Memref.whole cc0_scratch1) (Memref.isWhole_whole _) (iblk m c 0 t) (iblk m c 1 t) (iblk m c 2 t) _)
  isplitl [H0]; · iexact H0
  isplitl [H1]; · iexact H1
  isplitl [H2]; · iexact H2
  isplitl [H3]; · iexists _; iexact H3
  isplitl [HS5]; · iexists g5; rw [scr0_eq]; iexact HS5
  isplitl [HS6]; · iexists g6; rw [scr1_eq]; iexact HS6
  iintro ⟨H0, H1, H2, H3, ⟨%g5', HS5⟩, ⟨%g6', HS6⟩⟩
  isplitl [HS5 HS6 HR]
  · isplitl [HS5 HS6]
    · isplitl [HS5]
      · iexists g5'; rw [← scr0_eq]; iexact HS5
      · iexists g6'; rw [← scr1_eq]; iexact HS6
    iexact HR
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) 𝒱₀ () Set.univ := fun t => by
  rw [bigSep_W0, bigSep_W0]
  exact sound_body m c t

set_option backward.isDefEq.respectTransparency.types false in
/-- From any memory with zero counters every weakly fair execution of @main terminates, and every final state has every
    array of the pipeline at what the proof data give and every other unscoped buffer as the lines after the region leave
    it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

/-- The frame: the program runs to the end, faults nowhere and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Proof.KI

end
-- ==== Proof.Spec.lean ====
/-
  The specification both programs are proved against: a 3×3 convolution with a border of one zero, as one matrix
  product per image. For image `b`, output channel `co` and output position `(h, w)`,

      G x wm bias (b, co, h, w) = (∑ k < 1152, wm (k, co) · patch x b (64 h + w) k) + bias co,

  where column `k = 128 (3 ky + kx) + ci` of the patch matrix is channel `ci` of the bordered image at row `ky + h`,
  column `kx + w`, and `wm` is the weight matrix: the stored weight scaled, its axes moved to (ky, kx, ci, co) and the
  first three flattened. Extended reals throughout; a change of float format is the identity there.
-/
import Idealize.ShloMosaic.PureOps.Ideal
import Idealize.ShloMosaic.Lib.ValueIdx

noncomputable section

namespace Cert.Proof.Spec

open Idealize.ShloMosaic Idealize.ShloMosaic.ValueIdx

/-- The image batch and the result: batch, channel, row, column. -/
abbrev SX : Shape := ⟨4, ![16, 128, 64, 64]⟩
/-- The stored weight: output channel, input channel, ky, kx. -/
abbrev SWt : Shape := ⟨4, ![128, 128, 3, 3]⟩
/-- The weight matrix: flattened (ky, kx, ci) by output channel. -/
abbrev SWm : Shape := ⟨2, ![1152, 128]⟩
abbrev SBias : Shape := ⟨1, ![128]⟩
abbrev SSc : Shape := ⟨0, ![]⟩

/-- Image `b` with a border of one zero around its two spatial axes, read at row `r` and column `s` of the bordered
    image (rows and columns 0 and 65 are the border) and channel `ci`. -/
def tap (x : SX.Idx → EReal) (b : Fin 16) (r s : ℕ) (ci : Fin 128) : EReal :=
  if h : 1 ≤ r ∧ r ≤ 64 ∧ 1 ≤ s ∧ s ≤ 64 then x (ix4 b ci ⟨r - 1, by omega⟩ ⟨s - 1, by omega⟩) else 0

/-- Entry `(m, k)` of image `b`'s patch matrix: output position `m = 64 h + w`, column `k = 128 (3 ky + kx) + ci`. -/
def patch (x : SX.Idx → EReal) (b : Fin 16) (m : Fin 4096) (k : Fin 1152) : EReal :=
  tap x b (k.val / 128 / 3 + m.val / 64) (k.val / 128 % 3 + m.val % 64) ⟨k.val % 128, Nat.mod_lt _ (by norm_num)⟩

/-- The result at batch `b`, output channel `co`, row `h`, column `w`. -/
def Gc (x : SX.Idx → EReal) (wm : SWm.Idx → EReal) (bias : SBias.Idx → EReal) (b : Fin 16) (co : Fin 128) (h w : Fin 64) : EReal :=
  (∑ k : Fin 1152, wm (ix2 k co) * patch x b ⟨h.val * 64 + w.val, by omega⟩ k) + bias (ix1 co)

/-- The result array. -/
def G (x : SX.Idx → EReal) (wm : SWm.Idx → EReal) (bias : SBias.Idx → EReal) : SX.Idx → EReal :=
  fun i => Gc x wm bias (i 0) (i 1) (i 2) (i 3)

theorem G_ix4 (x : SX.Idx → EReal) (wm : SWm.Idx → EReal) (bias : SBias.Idx → EReal) (b : Fin 16) (co : Fin 128) (h w : Fin 64) :
    G x wm bias (ix4 b co h w) = Gc x wm bias b co h w := rfl

/-- The weight matrix from the stored weight `wt` and the scale `sc`: every entry scaled, the axes moved to
    (ky, kx, ci, co), the first three flattened; the change of format at the end is the identity on extended reals. -/
def wmat (wt : FVec Ideal SWt .f32) (sc : FVec Ideal SSc .f32) : FVec Ideal SWm .bf16 :=
  truncf .bf16 (shapeCast SWm (transpose (⟨4, ![3, 3, 128, 128]⟩ : Shape) [2, 3, 1, 0] (mulf wt (broadcastInDim SWt ![] (by decide) sc))
    (by decide)) (by decide)) (by decide)

end Cert.Proof.Spec

end
-- ==== Proof.KI.OutValue.lean ====
/-
  The convolution kernel's result block of one grid point, read at an entry, over the extended reals.

  With every float an extended real and every operation exact, a change of float format is the identity and a matrix
  product into a zero accumulator is a plain sum of products. Three readings are proved here.

  * The image block `X0`, of shape [1, 128, 4096] (channel by flattened position), is moved to channel-last layout
    [64, 64, 128]: dropping the unit axis, the format change, the transpose and the split of the 4096 positions into
    64 rows of 64 leave, at `(h, w, ci)`, the entry `X0 (0, ci, 64 h + w)` (`pay9_apply`).

  * The product contracts axis 0 of the weight block [1152, 128] with axis 1 of the patch matrix [4096, 1152]: entry
    `(co, mm)` is `∑ k < 1152, X1 (k, co) · P (mm, k)`. The contraction index has one axis of extent 1152, so the sum
    over it is re-indexed by that axis's coordinate; the weight's index at contraction position `k` is `(k, co)` and
    the patch matrix's is `(mm, k)`, one lemma per operand axis. The bias column [128, 1] spread along the positions
    adds `X2 (co, 0)`, and the leading unit axis of the result changes nothing (`pay4_apply`).

  * Entry `(mm, k)` of the patch matrix of the bordered image is the bordered image at row `r = k / 128 / 3 + mm / 64`,
    column `s = k / 128 % 3 + mm % 64` and channel `k % 128`: the image at `(r - 1, s - 1, k % 128)` when `r` and `s`
    lie in 1 … 64, zero on the border. When the image block is image `b` of the batch `x`, that is the specification's
    `patch x b mm k` (`patches_halo_apply`).

  Together (`OUT_apply`): `OUT X0 X1 X2 (0, co, mm) = (∑ k < 1152, X1 (k, co) · patch x b mm k) + X2 (co, 0)`.
-/
import proofs.«171157_g2000105039750728_pallasbulk_413_14_alg».proof.Proof.KI.Out
import proofs.«171157_g2000105039750728_pallasbulk_413_14_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

open scoped BigOperators

namespace Cert.Proof.KI

open Cert.KernelIdeal Cert.KernelIdeal.Gen Cert.Proof.Spec
open Idealize.ShloMosaic Idealize.ShloMosaic.ValueIdx

/-! ## The product's dimension numbers: weight axis 0 against patch-matrix axis 1 -/

/-- The weight's contracted axis is its first, the patch matrix's its second. -/
theorem cdot_lc : dot_S1152x128_S4096x1152_S128x4096_0_1_1_0_n_n.lhsContracting = [0] := rfl
theorem cdot_rc : dot_S1152x128_S4096x1152_S128x4096_0_1_1_0_n_n.rhsContracting = [1] := rfl
/-- The contraction index has one axis, of extent 1152. -/
theorem cdot_rank : dot_S1152x128_S4096x1152_S128x4096_0_1_1_0_n_n.contr.rank = 1 := rfl
theorem cdot_size : dot_S1152x128_S4096x1152_S128x4096_0_1_1_0_n_n.contr.size ⟨0, by rw [cdot_rank]; exact Nat.one_pos⟩ = 1152 := rfl

/-- The weight's row coordinate is the contraction position. -/
theorem cdot_lhs0 (j : S128x4096.Idx) (k : dot_S1152x128_S4096x1152_S128x4096_0_1_1_0_n_n.contr.Idx) :
    (dot_S1152x128_S4096x1152_S128x4096_0_1_1_0_n_n.lhsIdx j k 0).val = (k ⟨0, by rw [cdot_rank]; exact Nat.one_pos⟩).val :=
  dot_S1152x128_S4096x1152_S128x4096_0_1_1_0_n_n.lhsIdx_val_of_single cdot_lc j k
/-- The weight's column coordinate is the result's row (the output channel). -/
theorem cdot_lhs1 (j : S128x4096.Idx) (k : dot_S1152x128_S4096x1152_S128x4096_0_1_1_0_n_n.contr.Idx) :
    (dot_S1152x128_S4096x1152_S128x4096_0_1_1_0_n_n.lhsIdx j k 1).val = (j 0).val := rfl
/-- The patch matrix's row coordinate is the result's column (the output position). -/
theorem cdot_rhs0 (j : S128x4096.Idx) (k : dot_S1152x128_S4096x1152_S128x4096_0_1_1_0_n_n.contr.Idx) :
    (dot_S1152x128_S4096x1152_S128x4096_0_1_1_0_n_n.rhsIdx j k 0).val = (j 1).val := rfl
/-- The patch matrix's column coordinate is the contraction position. -/
theorem cdot_rhs1 (j : S128x4096.Idx) (k : dot_S1152x128_S4096x1152_S128x4096_0_1_1_0_n_n.contr.Idx) :
    (dot_S1152x128_S4096x1152_S128x4096_0_1_1_0_n_n.rhsIdx j k 1).val = (k ⟨0, by rw [cdot_rank]; exact Nat.one_pos⟩).val :=
  dot_S1152x128_S4096x1152_S128x4096_0_1_1_0_n_n.rhsIdx_val_of_single cdot_rc j k

/-- The sum over the contraction index, re-indexed by its one coordinate: at result entry `(co, mm)` the weight is read
    at `(i, co)` and the patch matrix at `(mm, i)`. -/
theorem cdot_sum (L : S1152x128.Idx → EReal) (R : S4096x1152.Idx → EReal) (co : Fin 128) (mm : Fin 4096) :
    ∑ k : dot_S1152x128_S4096x1152_S128x4096_0_1_1_0_n_n.contr.Idx,
        L (dot_S1152x128_S4096x1152_S128x4096_0_1_1_0_n_n.lhsIdx (ix2 co mm) k)
          * R (dot_S1152x128_S4096x1152_S128x4096_0_1_1_0_n_n.rhsIdx (ix2 co mm) k)
      = ∑ i : Fin 1152, L (ix2 i co) * R (ix2 mm i) := by
  rw [← Equiv.sum_comp (contrEquiv1 dot_S1152x128_S4096x1152_S128x4096_0_1_1_0_n_n 1152 cdot_rank cdot_size).symm]
  refine Finset.sum_congr rfl fun i _ => ?_
  have hk := contrEquiv1_symm_val dot_S1152x128_S4096x1152_S128x4096_0_1_1_0_n_n 1152 cdot_rank cdot_size i
  have el : dot_S1152x128_S4096x1152_S128x4096_0_1_1_0_n_n.lhsIdx (ix2 co mm)
      ((contrEquiv1 dot_S1152x128_S4096x1152_S128x4096_0_1_1_0_n_n 1152 cdot_rank cdot_size).symm i) = ix2 i co := by
    funext a; refine Fin.ext ?_
    match a with
    | ⟨0, _⟩ => exact (cdot_lhs0 _ _).trans hk
    | ⟨1, _⟩ => exact cdot_lhs1 _ _
  have er : dot_S1152x128_S4096x1152_S128x4096_0_1_1_0_n_n.rhsIdx (ix2 co mm)
      ((contrEquiv1 dot_S1152x128_S4096x1152_S128x4096_0_1_1_0_n_n 1152 cdot_rank cdot_size).symm i) = ix2 mm i := by
    funext a; refine Fin.ext ?_
    match a with
    | ⟨0, _⟩ => exact cdot_rhs0 _ _
    | ⟨1, _⟩ => exact (cdot_rhs1 _ _).trans hk
  rw [el, er]

/-! ## The image block in channel-last layout -/

/-- Entry `(h, w, ci)` of the channel-last image is the image block's channel `ci` at flattened position `64 h + w`:
    the unit axis is dropped, the format change is the identity, the transpose swaps channel and position, and the
    position splits row-major into `(h, w)`. -/
theorem pay9_apply (X0 : Vec Ideal S1x128x4096 .f32) (h w : Fin 64) (ci : Fin 128) :
    k0_pay9 (F := Ideal) X0 (ix3 h w ci) = X0 (ix3 (0 : Fin 1) ci ⟨h.val * 64 + w.val, by omega⟩) := by
  unfold k0_pay9
  refine (shapeCast_apply _ _ (ix3 h w ci) (ix3 h w ci) rfl).trans ?_
  refine (shapeCast_apply _ _ (ix3 h w ci) (ix2 (⟨h.val * 64 + w.val, by omega⟩ : Fin 4096) ci) ?_).trans ?_
  · rw [Shape.rowMajor_val_two, Shape.rowMajor_val_three]
    rfl
  refine (transpose_ix2_apply _ _ _ _).trans ?_
  refine (truncf_apply (ψ := .bf16) (shapeCast S128x4096 X0 shapeCasts_S1x128x4096_S128x4096) bitsLt_bf16_f32 _).trans ?_
  exact shapeCast_1ab_ab_apply X0 _ _ _

/-! ## The product plus the bias -/

/-- The bias column spread over the 4096 positions reads, at `(co, mm)`, the column's entry `(co, 0)`. -/
theorem bias_apply (v : S128x1.Idx → EReal) (co : Fin 128) (mm : Fin 4096) :
    broadcastTo S128x4096 v broadcasts_S128x1_S128x4096 (ix2 co mm) = v (ix2 co (0 : Fin 1)) := by
  refine broadcastTo_apply v _ (ix2 co mm) (ix2 co (0 : Fin 1)) fun ax => ?_
  match ax with
  | ⟨0, _⟩ => rfl
  | ⟨1, _⟩ => rfl

/-- The result block from a weight block `X1`, any patch matrix `P` and a bias block `X2`: entry `(0, co, mm)` is
    `∑ k, X1 (k, co) · P (mm, k)` plus `X2 (co, 0)`. -/
theorem pay4_apply (X1 : Vec Ideal S1152x128 .bf16) (P : Vec Ideal S4096x1152 .bf16) (X2 : Vec Ideal S128x1 .f32)
    (co : Fin 128) (mm : Fin 4096) :
    k0_pay4 (F := Ideal) X1 P X2 (ix3 (0 : Fin 1) co mm)
      = (∑ k : Fin 1152, X1 (ix2 k co) * P (ix2 mm k)) + X2 (ix2 co (0 : Fin 1)) := by
  unfold k0_pay4
  refine (shapeCast_ab_1ab_apply _ _ _ _ _).trans ?_
  refine (addf_apply (φ := .f32) _ _ _).trans ?_
  congr 1
  · refine (Ideal.matmul_constant_zero_apply (φ₁ := .bf16) (φ₂ := .bf16) dot_S1152x128_S4096x1152_S128x4096_0_1_1_0_n_n none
      (shapeCast S1152x128 X1 shapeCasts_S1152x128_S1152x128) P (ix2 co mm)).trans ?_
    refine (cdot_sum _ _ co mm).trans ?_
    refine Finset.sum_congr rfl fun k _ => ?_
    congr 1
    exact shapeCast_apply _ _ _ _ rfl
  · refine (bias_apply _ co mm).trans ?_
    exact shapeCast_apply _ _ _ _ rfl

/-! ## The patch matrix of the bordered image -/

/-- The bordered image read at `(r, s, c)`: the image at `(r - 1, s - 1, c)` inside, the real zero on the border. -/
theorem halo_apply (p : FVec Ideal S64x64x128 .bf16) (r s : Fin 66) (c : Fin 128) :
    halo (F := Ideal) p (ix3 r s c)
      = if h : 1 ≤ r.val ∧ r.val ≤ 64 ∧ 1 ≤ s.val ∧ s.val ≤ 64 then
          p (ix3 ⟨r.val - 1, by omega⟩ ⟨s.val - 1, by omega⟩ c)
        else 0 := by
  unfold halo
  by_cases hc : 1 ≤ r.val ∧ r.val ≤ 64 ∧ 1 ≤ s.val ∧ s.val ≤ 64
  · rw [dif_pos hc, dif_pos hc]
  · rw [dif_neg hc, dif_neg hc]
    exact Ideal.ofBits_zero_bf16

/-- The patch matrix read at `(mm, k)`: the bordered image at row `k / 128 / 3 + mm / 64`, column
    `k / 128 % 3 + mm % 64`, channel `k % 128`. -/
theorem patches_apply (xs : FVec Ideal S66x66x128 .bf16) (mm : Fin 4096) (k : Fin 1152) :
    patches (F := Ideal) xs (ix2 mm k)
      = xs (ix3 (⟨k.val / 128 / 3 + mm.val / 64, by omega⟩ : Fin 66) (⟨k.val / 128 % 3 + mm.val % 64, by omega⟩ : Fin 66)
          (⟨k.val % 128, Nat.mod_lt _ (by norm_num)⟩ : Fin 128)) := rfl

/-- The patch matrix of the bordered, channel-last image block is the specification's patch matrix of image `b`. -/
theorem patches_halo_apply (X0 : Vec Ideal S1x128x4096 .f32) (x : SX.Idx → EReal) (b : Fin 16)
    (hx : ∀ (ci : Fin 128) (h w : Fin 64), X0 (ix3 (0 : Fin 1) ci ⟨h.val * 64 + w.val, by omega⟩) = x (ix4 b ci h w))
    (mm : Fin 4096) (k : Fin 1152) :
    patches (halo (k0_pay9 (F := Ideal) X0)) (ix2 mm k) = patch x b mm k := by
  rw [patches_apply, halo_apply]
  unfold patch tap
  by_cases hc : 1 ≤ k.val / 128 / 3 + mm.val / 64 ∧ k.val / 128 / 3 + mm.val / 64 ≤ 64
      ∧ 1 ≤ k.val / 128 % 3 + mm.val % 64 ∧ k.val / 128 % 3 + mm.val % 64 ≤ 64
  · rw [dif_pos hc, dif_pos hc, pay9_apply]
    exact hx _ _ _
  · rw [dif_neg hc, dif_neg hc]

theorem OUT_apply (X0 : Vec Ideal S1x128x4096 .f32) (X1 : Vec Ideal S1152x128 .bf16) (X2 : Vec Ideal S128x1 .f32) (x : SX.Idx → EReal) (b : Fin 16)
    (hx : ∀ (ci : Fin 128) (h w : Fin 64), X0 (ix3 (0 : Fin 1) ci ⟨h.val * 64 + w.val, by omega⟩) = x (ix4 b ci h w)) (co : Fin 128) (mm : Fin 4096) :
    OUT (F := Ideal) X0 X1 X2 (ix3 (0 : Fin 1) co mm) = (∑ k : Fin 1152, X1 (ix2 k co) * patch x b mm k) + X2 (ix2 co (0 : Fin 1)) := by
  unfold OUT
  rw [pay4_apply]
  congr 1
  refine Finset.sum_congr rfl fun k _ => ?_
  rw [patches_halo_apply X0 x b hx mm k]

end Cert.Proof.KI

end
-- ==== Proof.KI.Value.lean ====
/-
  The result array of the idealized convolution kernel after its run, as the specification's function of the argument
  arrays (extended reals throughout).

  Before the region the host lines leave three arrays: the image batch with its two spatial axes flattened, so that
  entry (b, ci, p) is the image's entry (b, ci, p / 64, p % 64); the weight matrix `wmat` of the stored weight and the
  scale; the bias as a column. Grid point t reads image t's rows of the first and the whole of the other two, and
  writes back, at (0, co, p), the product of the weight matrix's column co with row p of image t's patch matrix, plus
  the bias of co: the specification's entry (t, co, p / 64, p % 64), since 64 (p / 64) + p % 64 = p. The sixteen
  blocks tile the region's result array, the block of point t covering exactly the indices whose first coordinate is
  t, so the array ends as `G7`: the specification's array with its two spatial axes flattened. The one host line after
  the region splits that axis again, entry (b, co, h, w) reading position 64 h + w, which gives the specification's `G`.
-/
import proofs.«171157_g2000105039750728_pallasbulk_413_14_alg».proof.Proof.KI.Data
import proofs.«171157_g2000105039750728_pallasbulk_413_14_alg».proof.Proof.KI.OutValue
import proofs.«171157_g2000105039750728_pallasbulk_413_14_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.Proof.KI

open Cert.KernelIdeal Cert.KernelIdeal.Gen Cert.Proof.Spec
open Idealize.ShloMosaic Idealize.ShloMosaic.TcCoe Idealize.ShloMosaic.ValueIdx
open Idealize.ShloMosaic.Pipeline (Dat)

variable (m : (ℓ : Loc nD τ sig) → Buf (Elt Ideal) ℓ)

/-! ## The three input arrays as the host lines before the region leave them -/

/-- The image window's array: the image batch cast to [16, 128, 4096]. -/
theorem V_v5_eq (c : Dev nD) : (V m c main_v5 : S16x128x4096.Idx → EReal)
    = shapeCast S16x128x4096 (m ((c : Thread nD τ).loc main_arg0)) shapeCasts_S16x128x64x64_S16x128x4096 := by
  dsimp only [V, V0]
  simp only [hostOps0, List.flatten_cons, List.flatten_nil, List.append_nil]
  after_results
  rfl

/-- The bias window's array: the bias cast to a column. -/
theorem V_v6_eq (c : Dev nD) : (V m c main_v6 : S128x1.Idx → EReal)
    = shapeCast S128x1 (m ((c : Thread nD τ).loc main_arg2)) shapeCasts_S128_S128x1 := by
  dsimp only [V, V0]
  simp only [hostOps0, List.flatten_cons, List.flatten_nil, List.append_nil]
  after_results
  rfl

/-- The weight window's array: the weight matrix of the stored weight and the scale. -/
theorem V_v4_eq (c : Dev nD) : (V m c main_v4 : S1152x128.Idx → EReal)
    = wmat (m ((c : Thread nD τ).loc main_arg1)) (m ((c : Thread nD τ).loc main_arg3)) := by
  dsimp only [V, V0]
  simp only [hostOps0, List.flatten_cons, List.flatten_nil, List.append_nil]
  after_results
  rfl

/-- Flat position `p` of image `b`, channel `ci` is row `p / 64`, column `p % 64`. -/
theorem V_v5_apply (c : Dev nD) (b : Fin 16) (ci : Fin 128) (p : Fin 4096) :
    (V m c main_v5 : S16x128x4096.Idx → EReal) (ix3 b ci p)
      = (m ((c : Thread nD τ).loc main_arg0) : SX.Idx → EReal)
          (ix4 b ci ⟨p.val / 64, by have := p.isLt; omega⟩ ⟨p.val % 64, Nat.mod_lt _ (by norm_num)⟩) := by
  rw [V_v5_eq]
  refine shapeCast_apply (s := S16x128x64x64) (t := S16x128x4096) _ _ _ _ ?_
  rw [Shape.rowMajor_val_four, Shape.rowMajor_val_three]
  show ((b.val * 128 + ci.val) * 64 + p.val / 64) * 64 + p.val % 64 = (b.val * 128 + ci.val) * 4096 + p.val
  omega

/-- Row `co` of the bias column is the bias of `co`. -/
theorem V_v6_apply (c : Dev nD) (co : Fin 128) :
    (V m c main_v6 : S128x1.Idx → EReal) (ix2 co (0 : Fin 1))
      = (m ((c : Thread nD τ).loc main_arg2) : SBias.Idx → EReal) (ix1 co) := by
  rw [V_v6_eq]
  refine shapeCast_apply (s := S128) (t := S128x1) _ _ _ _ ?_
  rw [Shape.rowMajor_val_one, Shape.rowMajor_val_two]
  show co.val = co.val * 1 + 0
  omega

/-! ## Each grid point's three input blocks -/

/-- The grid point as an image number. -/
def img (t : Fin cfg0.N) : Fin 16 := ⟨t.val, t.isLt.trans_eq N_0⟩

/-- The printed index maps over the grid: the image window and the result window sit at block `(t, 0, 0)`. -/
theorem idx_facts : ∀ t : Fin cfg0.N, win0_0.index t (0 : Fin 3) = t.val ∧ win0_0.index t (1 : Fin 3) = 0
    ∧ win0_0.index t (2 : Fin 3) = 0 ∧ win0_3.index t (0 : Fin 3) = t.val ∧ win0_3.index t (1 : Fin 3) = 0
    ∧ win0_3.index t (2 : Fin 3) = 0 :=
  (by decide +kernel : ∀ t : Fin grid0.N, _)

/-- Point `t`'s image block is image `t`'s rows of the image window's array. -/
theorem iblk0_apply (c : Dev nD) (t : Fin cfg0.N) (ci : Fin 128) (p : Fin 4096) :
    (iblk m c 0 t : Vec Ideal S1x128x4096 .f32) (ix3 (0 : Fin 1) ci p)
      = (V m c main_v5 : S16x128x4096.Idx → EReal) (ix3 (img t) ci p) := by
  obtain ⟨e0, e1, e2, -, -, -⟩ := idx_facts t
  unfold iblk
  rw [View.read_apply]
  show V m c main_v5 _ = V m c main_v5 _
  congr 1
  funext a
  apply Fin.ext
  match a with
  | ⟨0, _⟩ => show win0_0.index t (0 : Fin 3) * 1 + 1 * 0 = t.val; omega
  | ⟨1, _⟩ => show win0_0.index t (1 : Fin 3) * 128 + 1 * ci.val = ci.val; omega
  | ⟨2, _⟩ => show win0_0.index t (2 : Fin 3) * 4096 + 1 * p.val = p.val; omega

/-- Every point's weight block is the whole weight matrix. -/
theorem iblk1_eq (c : Dev nD) (t : Fin cfg0.N) : iblk m c 1 t = V m c main_v4 := by
  have hz : (fun a => (win0_1.index t) a * main_v4.ty.shape.size a) = fun _ => 0 :=
    funext ((by decide +kernel : ∀ (t : Fin grid0.N) (a : Fin 2), win0_1.index t a * S1152x128.size a = 0) t)
  exact Memref.read_access_unit_zero (Elt Ideal) main_v4 hz _ _

/-- Every point's bias block is the whole bias column. -/
theorem iblk2_eq (c : Dev nD) (t : Fin cfg0.N) : iblk m c 2 t = V m c main_v6 := by
  have hz : (fun a => (win0_2.index t) a * main_v6.ty.shape.size a) = fun _ => 0 :=
    funext ((by decide +kernel : ∀ (t : Fin grid0.N) (a : Fin 2), win0_2.index t a * S128x1.size a = 0) t)
  exact Memref.read_access_unit_zero (Elt Ideal) main_v6 hz _ _

/-! ## What each grid point writes back -/

/-- The region's result array: image `b`, output channel `co`, flat position `p = 64 h + w` holds the specification's
    entry `(b, co, h, w)`. -/
def G7 (x : SX.Idx → EReal) (wm : SWm.Idx → EReal) (bias : SBias.Idx → EReal) : S16x128x4096.Idx → EReal :=
  fun i => Gc x wm bias (i 0) (i 1) ⟨(i 2).val / 64, by have h : (i 2).val < 4096 := (i 2).isLt; omega⟩
    ⟨(i 2).val % 64, Nat.mod_lt _ (by norm_num)⟩

/-- `G7` at explicit coordinates. -/
theorem G7_ix3 (x : SX.Idx → EReal) (wm : SWm.Idx → EReal) (bias : SBias.Idx → EReal) (b : Fin 16) (co : Fin 128) (p : Fin 4096) :
    G7 x wm bias (ix3 b co p)
      = Gc x wm bias b co ⟨p.val / 64, by have := p.isLt; omega⟩ ⟨p.val % 64, Nat.mod_lt _ (by norm_num)⟩ := rfl

/-- The specification's entry at the row and column of a flat position is the matrix product's row at that position. -/
theorem Gc_flat (x : SX.Idx → EReal) (wm : SWm.Idx → EReal) (bias : SBias.Idx → EReal) (b : Fin 16) (co : Fin 128) (p : Fin 4096) :
    Gc x wm bias b co ⟨p.val / 64, by have := p.isLt; omega⟩ ⟨p.val % 64, Nat.mod_lt _ (by norm_num)⟩
      = (∑ k : Fin 1152, wm (ix2 k co) * patch x b p k) + bias (ix1 co) := by
  have h : ∀ q : Fin 4096, q = p →
      (∑ k : Fin 1152, wm (ix2 k co) * patch x b q k) + bias (ix1 co) = (∑ k : Fin 1152, wm (ix2 k co) * patch x b p k) + bias (ix1 co) := by
    rintro q rfl; rfl
  unfold Gc
  exact h _ (Fin.ext (by show p.val / 64 * 64 + p.val % 64 = p.val; omega))

/-- Two arrays with a leading unit axis that agree at every `(0, i, j)` are equal. -/
theorem ext_1ab {α : Type} {a b : ℕ} (X Y : (⟨3, ![1, a, b]⟩ : Shape).Idx → α)
    (h : ∀ (i : Fin a) (j : Fin b), X (ix3 (0 : Fin 1) i j) = Y (ix3 (0 : Fin 1) i j)) : X = Y := by
  funext y
  have h0 : @Eq (Fin 1) (y 0) 0 := Subsingleton.elim _ _
  have e : y = ix3 (0 : Fin 1) (y 1 : Fin a) (y 2 : Fin b) :=
    (eq_ix3 y).trans (congrArg (fun z : Fin 1 => ix3 z (y 1 : Fin a) (y 2 : Fin b)) h0)
  rw [e]
  exact h _ _

/-- Point `t`'s result block is image `t`'s rows of the result array. -/
theorem OUT_blk (c : Dev nD) (t : Fin cfg0.N) (co : Fin 128) (mm : Fin 4096) :
    OUT (F := Ideal) (iblk m c 0 t) (iblk m c 1 t) (iblk m c 2 t) (ix3 (0 : Fin 1) co mm)
      = G7 (m ((c : Thread nD τ).loc main_arg0)) (wmat (m ((c : Thread nD τ).loc main_arg1)) (m ((c : Thread nD τ).loc main_arg3)))
          (m ((c : Thread nD τ).loc main_arg2)) (ix3 (img t) co mm) := by
  rw [G7_ix3, Gc_flat]
  refine (OUT_apply (iblk m c 0 t) (iblk m c 1 t) (iblk m c 2 t) (m ((c : Thread nD τ).loc main_arg0)) (img t) ?_ co mm).trans ?_
  · intro ci h w
    rw [iblk0_apply, V_v5_apply]
    congr 1
    have hh := h.isLt
    have hw := w.isLt
    congr 1 <;> apply Fin.ext
    · show (h.val * 64 + w.val) / 64 = h.val; omega
    · show (h.val * 64 + w.val) % 64 = w.val; omega
  · rw [iblk1_eq, iblk2_eq, V_v4_eq, V_v6_apply]

/-- What point `t` writes back is block `t` of `G7`. -/
theorem flushed_eq (c : Dev nD) (t : Fin cfg0.N) :
    (dats m 0 c).flushed 3 t = ((cfg0.win 3).blk t).view.read (Elt Ideal)
      (G7 (m ((c : Thread nD τ).loc main_arg0)) (wmat (m ((c : Thread nD τ).loc main_arg1)) (m ((c : Thread nD τ).loc main_arg3)))
        (m ((c : Thread nD τ).loc main_arg2))) := by
  show (cfg0.win 3).cut (grid0.coords t) ((dats m 0 c).after 3 t) = _
  rw [after0_3]
  obtain ⟨-, -, -, e0, e1, e2⟩ := idx_facts t
  refine ext_1ab (α := EReal) (a := 128) (b := 4096) _ _ fun co mm => ?_
  refine (OUT_blk m c t co mm).trans ?_
  rw [View.read_apply]
  show G7 _ _ _ _ = G7 _ _ _ _
  congr 1
  funext a
  apply Fin.ext
  match a with
  | ⟨0, _⟩ => show t.val = win0_3.index t (0 : Fin 3) * 1 + 1 * 0; omega
  | ⟨1, _⟩ => show co.val = win0_3.index t (1 : Fin 3) * 128 + 1 * co.val; omega
  | ⟨2, _⟩ => show mm.val = win0_3.index t (2 : Fin 3) * 4096 + 1 * mm.val; omega

/-! ## From the blocks to the array -/

/-- An index of the result array is in point `t`'s block iff each coordinate is in the block's range on its axis. -/
theorem mem_blk (t : Fin cfg0.N) (i : S16x128x4096.Idx) :
    i ∈ ((cfg0.win 3).blk t).view.set ↔ ∀ a : Fin 3, win0_3.index t a * S1x128x4096.size a ≤ (i a).val
      ∧ (i a).val < win0_3.index t a * S1x128x4096.size a + S1x128x4096.size a := by
  show i ∈ ((View.whole main_v7).slice (win0_3.rect t)).set ↔ _
  rw [View.set_slice_whole, Rect.mem_set_unit]
  exact Iff.rfl

/-- Every index of the result array is in the block of the point numbered by its image coordinate. -/
theorem cover (i : S16x128x4096.Idx) :
    ∃ t : Fin cfg0.N, (cfg0.win 3).flush t = true ∧ i ∈ ((cfg0.win 3).blk t).view.set := by
  have h0 : (i 0).val < 16 := (i 0).isLt
  have h1 : (i 1).val < 128 := (i 1).isLt
  have h2 : (i 2).val < 4096 := (i 2).isLt
  obtain ⟨t, ht⟩ : ∃ t : Fin cfg0.N, t.val = (i 0).val := ⟨⟨(i 0).val, h0.trans_eq N_0.symm⟩, rfl⟩
  obtain ⟨-, -, -, e0, e1, e2⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 4096 ≤ (i 2).val ∧ (i 2).val < win0_3.index t (2 : Fin 3) * 4096 + 4096; omega

/-- The region's result array after the run. -/
theorem final7 (c : Dev nD) : (dats m 0 c).arrAt 3 cfg0.N
    = G7 (m ((c : Thread nD τ).loc main_arg0)) (wmat (m ((c : Thread nD τ).loc main_arg1)) (m ((c : Thread nD τ).loc main_arg3)))
        (m ((c : Thread nD τ).loc main_arg2)) :=
  (dats m 0 c).arrAt_eq_of_cover 3 _ (fun t _ => flushed_eq m c t) cover

/-! ## The host line after the region -/

/-- The flat position axis split into rows and columns of 64: entry `(b, co, h, w)` of the cast array is entry
    `(b, co, 64 h + w)` of the array. -/
theorem unflatten_apply (A : S16x128x4096.Idx → EReal) (b : Fin 16) (co : Fin 128) (h w : Fin 64) :
    shapeCast S16x128x64x64 A shapeCasts_S16x128x4096_S16x128x64x64 (ix4 b co h w)
      = A (ix3 b co ⟨h.val * 64 + w.val, by omega⟩) := by
  refine shapeCast_apply (s := S16x128x4096) (t := S16x128x64x64) _ _ _ _ ?_
  rw [Shape.rowMajor_val_four, Shape.rowMajor_val_three]
  show (b.val * 128 + co.val) * 4096 + (h.val * 64 + w.val) = ((b.val * 128 + co.val) * 64 + h.val) * 64 + w.val
  omega

/-- `G7` with its flat axis split is the specification's array, entry by entry: `(64 h + w) / 64 = h` and
    `(64 h + w) % 64 = w`. -/
theorem G7_unflatten_apply (x : SX.Idx → EReal) (wm : SWm.Idx → EReal) (bias : SBias.Idx → EReal)
    (b : Fin 16) (co : Fin 128) (h w : Fin 64) :
    shapeCast S16x128x64x64 (G7 x wm bias) shapeCasts_S16x128x4096_S16x128x64x64 (ix4 b co h w) = G x wm bias (ix4 b co h w) := by
  rw [unflatten_apply, G7_ix3, G_ix4]
  have hh := h.isLt
  have hw := w.isLt
  congr 1 <;> apply Fin.ext
  · show (h.val * 64 + w.val) / 64 = h.val; omega
  · show (h.val * 64 + w.val) % 64 = w.val; omega

/-- The result array of the region, its flat position axis split, is the specification's array. -/
theorem G7_unflatten (x : SX.Idx → EReal) (wm : SWm.Idx → EReal) (bias : SBias.Idx → EReal) :
    shapeCast S16x128x64x64 (G7 x wm bias) shapeCasts_S16x128x4096_S16x128x64x64 = G x wm bias := by
  funext i
  rw [eq_ix4 i]
  exact G7_unflatten_apply x wm bias _ _ _ _

/-- THE RESULT ARRAY after the run is the specification's `G` of the image batch, the weight matrix and the bias. -/
theorem result_eq (c : Dev nD) : (Pipeline.afterTail₀ cfgs (dats m) 0 (V0 m) [hostOps1] c main_v8 : S16x128x64x64.Idx → EReal)
    = G (m ((c : Thread nD τ).loc main_arg0)) (wmat (m ((c : Thread nD τ).loc main_arg1)) (m ((c : Thread nD τ).loc main_arg3)))
        (m ((c : Thread nD τ).loc main_arg2)) := by
  have hw : Pipeline.withArrays (cfgs 0).spec c (V0 m c) (fun w => (dats m 0 c).arrAt w (cfgs 0).N) (Proc.devRef .tc main_v7)
      = G7 (m ((c : Thread nD τ).loc main_arg0)) (wmat (m ((c : Thread nD τ).loc main_arg1)) (m ((c : Thread nD τ).loc main_arg3)))
          (m ((c : Thread nD τ).loc main_arg2)) :=
    (Pipeline.withArrays_arr spec0 launch0.win.arr_inj c _ _ 3).trans (final7 m c)
  refine Eq.trans ?_ (G7_unflatten _ _ _)
  unfold Pipeline.afterTail₀
  show StableHlo.after hostOps1 _ (Proc.devRef .tc main_v8) = _
  after_results
  exact congrArg (fun A : S16x128x4096.Idx → EReal => shapeCast S16x128x64x64 A shapeCasts_S16x128x4096_S16x128x64x64) hw

end Cert.Proof.KI

end
-- ==== Proof.R.Kit.lean ====
/-
  The frame kit of the reference program `Cert.ReferenceIdeal`, for every float model `F`.

  The reference's @main is eight straight stretches of host operations (its own lines, and the lines of the
  module-local padding functions it calls, among them a nine-operand concatenate), then ONE pipelined region
  (custom_call 0: the arrays `main_v19`, `main_v20`, `main_v22` fetched block by block, `main_v23` written back),
  then one more stretch of two host operations.  This module states, for that program:

  * the contents the region finds on entry (`V0`, `V`): the launch contents `m` folded through the thirty-one
    host operations before the region, in order (`StableHlo.after` of the eight stretches concatenated);
  * @main reduced to the region continued by the later lines (`hmain`): holding the unscoped buffers at `m`,
    @main is the region entered at `V` and continued by the chain of the last stretch;
  * that the later lines stay within the pipeline's arrays and the bypassing buffers, allocate nothing and write
    no array of the pipeline (`sfx_sub`, `sfx_fresh`, `sfx_keeps`);
  * that no host operation, before or after the region, writes one of the four argument arrays
    (`V_main_arg*`, `W_main_arg*`): each operation writes only its own result buffer, and every result buffer is
    a reference different from the arguments';
  * each window's block at a grid point read off its array at entry (`iblk`), and that an input window's
    current staging buffer holds that block at every point whenever the body leaves it in place
    (`before0_0_of`, `before0_1_of`, `before0_2_of`);
  * the frame claim's post — the four argument arrays end as launched — from any run to the pipeline's frame
    post whose proof data have the region-entry contents as their arrays (`frame_of`).
-/
import proofs.«171157_g2000105039750728_pallasbulk_413_14_alg».proof.Proof.Gen.ReferenceIdeal.Launch
import proofs.«171157_g2000105039750728_pallasbulk_413_14_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents: the elaborator's structural look recurses once per coordinate
set_option maxRecDepth 16384

noncomputable section

namespace Cert.Proof.R

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: the launch contents folded
    through the eight stretches of host operations before the region, in program order. -/
abbrev V0 (c : Dev nD) : Valuation τ sig (Elt F) :=
  StableHlo.after (List.flatten [hostOps0, hostOps0_1, hostOps0_2, hostOps0_3, hostOps0_4, hostOps0_5, hostOps0_6, hostOps0_7]) (fun b => m (c, b))
/-- The same read at a TensorCore reference. -/
abbrev V (c : Dev nD) (b : Ref sig .tc) : Buf (Elt F) ((c : Thread nD τ).loc b) := V0 m c (Proc.devRef .tc b)

/-! No host operation allocates: each writes a buffer the program already holds. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region, at any variants `𝒱₀`: the eight stretches before it, the region, the stretch after it
    (the program is the chain of these ten items): it reduces to the region CONTINUED BY the later lines, entered at
    the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7] [hostOps1]
    (by simp only [List.Forall]
        exact ⟨hostOps0_sub, hostOps0_1_sub, hostOps0_2_sub, hostOps0_3_sub, hostOps0_4_sub, hostOps0_5_sub, hostOps0_6_sub, hostOps0_7_sub⟩)
    (by simp only [List.Forall]
        exact ⟨hostOps0_fresh, hostOps0_1_fresh, hostOps0_2_fresh, hostOps0_3_fresh, hostOps0_4_fresh, hostOps0_5_fresh, hostOps0_6_fresh, hostOps0_7_fresh⟩)
    main_chain

/-- The lines after the region touch the pipeline's arrays and the bypassing buffers only (each operation's buffers are
    unscoped TensorCore references, and with nothing prefetched every such reference is one or the other). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: the reshape writes `main_v24` and the transpose `main_v25`, neither of which
    is one of the four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, List.flatten_cons, List.flatten_nil, List.append_nil, List.cons_append,
      List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): where the window is not
    fetched its block index has not moved, so the previous point's block is this point's; the window is uncut and
    never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): where the window is not
    fetched its block index has not moved, so the previous point's block is this point's; the window is uncut and
    never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): where the window is not
    fetched its block index has not moved, so the previous point's block is this point's; the window is uncut and
    never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to the
    pipeline's frame post, read at the four argument arrays — none is staged by a window, so each is given by the
    post's clause for the bypassing buffers, at the contents after the later lines, which are the launch contents by
    `W_main_arg*` — is the frame claim's post (`Cert.frame_ReferenceIdeal`, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c))⟩) h

end Cert.Proof.R

end
-- ==== Proof.R.Body.lean ====
/-
  The body of the reference program's one pipelined kernel, the pipeline's proof data and the frame run, for every
  float model `F`.

  The kernel body reads its three input blocks whole (the patch block `x0`, the weight block `x1`, the bias row `x2`),
  reads its output block (a value it never uses), and writes ONE value whole over the output block: the matrix
  product of the patch block and the weight block, accumulated from zero, plus the bias row broadcast over the rows
  (`k0_pay1 x0 x1 x2`).  This module states:

  * `OUT x0 x1 x2`: what the body leaves in the output's staging buffer, as a function of what the inputs' hold;
  * `sound_kernel`: the body's triple over its own four memref parameters — the inputs' buffers come back as they
    were, the output's buffer, whatever it held, reads `OUT` of the inputs' contents: a single unmasked store through
    the whole-buffer rectangle covers every index, so the buffer reads as the stored value, and a load through the
    whole-buffer rectangle of an input reads that input's contents;
  * `dats`: the pipeline's proof data on a core — the arrays as the region finds them, after the body at a point each
    input's buffer still at its block and the output's at `OUT` of the three input blocks, the region's invariant the
    scoped rest and the generator register untouched, full shares, nothing owed;
  * `sound_body`, `body_obligation`: the body as the pipeline calls it at any grid point meets the obligation of
    those proof data;
  * `run_main`: every weakly fair execution of @main terminates with the pipeline's arrays at what the proof data
    compute and every bypassing buffer at what the later host lines leave;
  * `frame`: the four argument arrays end as launched.
-/
import proofs.«171157_g2000105039750728_pallasbulk_413_14_alg».proof.Proof.R.Kit
import proofs.«171157_g2000105039750728_pallasbulk_413_14_alg».proof.Proof.Gen.ReferenceIdeal.Skeleton
import Idealize.ShloMosaic.Lib.Pipeline.Value

set_option maxRecDepth 16384

noncomputable section

namespace Cert.Proof.R

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

/-- The certificate's variants: none. -/
abbrev 𝒱₀ : Variants := Variants.none

/-! ## What the body leaves in the output's buffer -/

/-- The output block after the body, from what the three input buffers read as: the product of the patch block and
    the weight block accumulated from zero, plus the bias row broadcast over the rows. -/
def OUT (X0 : Vec F S1x512x1152 .bf16) (X1 : Vec F S1152x128 .bf16) (X2 : Vec F S1x128 .f32) : FVec F S1x512x128 .f32 :=
  k0_pay1 X0 X1 X2

/-- The whole-buffer rectangles' offsets are zero, at rank three and at rank two. -/
theorem off0_3 : (![0, 0, 0] : Fin 3 → ℕ) = fun _ => 0 := funext fun a => by fin_cases a <;> rfl
theorem off0_2 : (![0, 0] : Fin 2 → ℕ) = fun _ => 0 := funext fun a => by fin_cases a <;> rfl

/-- The rectangle the body stores through: the whole output block. -/
abbrev rO : Rect S1x512x128 := Rect.unit (s := S1x512x128) ![0, 0, 0] S1x512x128.size inb_S1x512x128_S1x512x128_0_0_0

/-- One store through it covers every index of the block. -/
theorem cover_rO (w : Vec F S1x512x128 .f32) (y : S1x512x128.Idx) :
    ∃ pc ∈ ([⟨rO, w⟩] : List (View.Piece (Elt F) S1x512x128 .f32)), y ∈ pc.1.set :=
  View.cover_of_tiled [⟨rO, w⟩] S1x512x128.size (by rfl) y

/-! ## The body's triple -/

set_option maxHeartbeats 1000000 in
/-- The kernel body on whole staging memrefs, the inputs' at read contents `x0`, `x1`, `x2` and the output's at
    anything, runs to the continuation holding the inputs' as they were and the output's at `OUT x0 x1 x2`: the one
    store covers the output block, so the block reads as the stored value, and each whole-rectangle load of an input
    reads that input's contents. -/
theorem sound_kernel (c : Dev nD) (i : grid0.Coords) (arg3 : Memref sig .tc .vmem S1x512x1152 .bf16) (harg3 : arg3.IsWhole) (arg4 : Memref sig .tc .vmem S1152x128 .bf16) (harg4 : arg4.IsWhole) (arg5 : Memref sig .tc .vmem S1x128 .f32) (harg5 : arg5.IsWhole) (arg6 : Memref sig .tc .vmem S1x512x128 .f32) (harg6 : arg6.IsWhole)
    (x0 : Vec F S1x512x1152 .bf16) (x1 : Vec F S1152x128 .bf16) (x2 : Vec F S1x128 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (OUT x0 x1 x2)) -∗ K ⟨⟩))
      ⊢ wp frame (wpE (defs₀ (F := F)) 𝒱₀ c none) Set.univ (cc0__eq_conv2d_kernel i arg3 harg3 arg4 harg4 arg5 harg5 arg6 harg6) K := by
  simp only [cc0__eq_conv2d_kernel_eq_skeleton]; unfold cc0__eq_conv2d_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_rO _), View.canon_unit_zero off0_3]
  unfold OUT
  rw [View.readAt_eq_ld, View.readAt_eq_ld, View.readAt_eq_ld, View.ld_unit_zero off0_3, View.ld_unit_zero off0_2,
    View.ld_unit_zero off0_2]

/-! ## The pipeline's proof data -/

variable (m : (ℓ : Loc nD τ sig) → Buf (Elt F) ℓ) (ρ : Dev nD → PrngReg)

/-- The proof data of the one pipeline on core `c`: the arrays as the region finds them (`V`); after the body at
    point `t` each input's buffer at its block and the output's at `OUT` of the three input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => OUT (iblk m c 0 t) (iblk m c 1 t) (iblk m c 2 t)
  Φ _ := ΦA spec0 c
  q _ := fullShare
  owed _ := 0

/-- The proof data's arrays are the region-entry contents. -/
theorem A_eq (c : Dev nD) (w : Fin cfg0.W) : (dats m 0 c).A w = V m c (Pipeline.arrRef spec0 w) := rfl

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = OUT (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (the obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks (`before0_W`), so `sound_kernel` applies; the
    invariant and the core's owed amounts pass through unread. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dats (F := F) m 0 c) (defs₀ (F := F)) 𝒱₀ () Set.univ := fun t => by
  rw [bigSep_W0, bigSep_W0]
  exact sound_body m c t

/-! ## The run and the frame -/

-- the frame run's implicit arguments are found by unifying its conclusion with this one, which takes unfolding plain
-- definitions in a metavariable's type
set_option backward.isDefEq.respectTransparency.types false in
/-- For any values, from any memory with zero counters: every weakly fair execution of @main on the TensorCores
    terminates, and every final state has every array of the pipeline at what the proof data compute and every other
    unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

/-- THE FRAME: the reference program's frame claim at any `F` — the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Proof.R

end
-- ==== Proof.R.Host.lean ====
/-
  What the reference program's host lines compute before its one pipelined region, at the ideal instance: a float is
  an extended real, a change of float format is the identity, and the integer 0 converted to a float is 0.

  The region reads three arrays.

  * The patch tensor `main_v19` [16, 4096, 1152]. The image batch `x` [16, 128, 64, 64] has its channel axis moved
    last, gets a border of one zero around its two spatial axes ([16, 66, 66, 128]) and is cut into the nine windows
    [16, 64, 64, 128] at the offsets (ky, kx) ∈ {0, 1, 2}², in the order (0,0), (0,1), (0,2), (1,0), …; the windows are
    laid side by side along the channel axis ([16, 64, 64, 1152]) and the two spatial axes are flattened. Read at image
    `b`, position `m = 64 h + w` and column `k = 128 (3 ky + kx) + ci`, that is channel `ci` of the bordered image at
    row `ky + h`, column `kx + w`: `Spec.patch x b m k` (`V_v19_apply`).
  * The weight matrix `main_v20` [1152, 128]: `Spec.wmat` of the stored weight and the scale, as a term (`V_v20_eq`).
  * The bias row `main_v22` [1, 128]: the bias with a unit axis in front (`V_v22_apply`).

  Each of the three passes last through a pad with no low, high or interior padding, which is the identity
  (`pad_none_eq`).

  The contents at region entry are the launch contents folded through thirty-one operations, each of which writes its
  own result buffer only. For the weight matrix and the bias row the fold is read at their buffers operation by
  operation. For the patch tensor the fold is cut in three runs — up to the border, the nine slices, the rest — and
  the second and third are read from any contents that hold what the run before leaves (`slices_result`,
  `patches_result`): the nine windows then enter the last run as nine named arrays, not as nine copies of the
  bordered batch's term.
-/
import proofs.«171157_g2000105039750728_pallasbulk_413_14_alg».proof.Proof.R.Kit
import proofs.«171157_g2000105039750728_pallasbulk_413_14_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

set_option maxRecDepth 16384

noncomputable section

namespace Cert.Proof.R

open Cert.ReferenceIdeal Cert.ReferenceIdeal.Gen Cert.Proof.Spec
open Idealize.ShloMosaic Idealize.ShloMosaic.TcCoe Idealize.ShloMosaic.ValueIdx

variable (m : (ℓ : Loc nD τ sig) → Buf (Elt Ideal) ℓ)

/-- A pad that adds nothing — no low, no high, no interior padding, so operand and result have one shape — is the
    identity: every index lies inside the operand, at itself. -/
theorem pad_none_eq {s : Shape} {α : Type} (lo hi interior : Fin s.rank → Nat) (x : s.Idx → α) {u : Shape} (v : u.Idx → α)
    (h : s.Pads lo hi interior s) (hu : 0 < u.numel) (hlo : ∀ a, lo a = 0) (hint : ∀ a, interior a = 0) :
    pad s lo hi interior x v h hu = x := by
  funext j
  refine pad_apply_of_inside lo hi interior x v h hu j j fun a => ?_
  rw [hlo a, hint a, Nat.zero_add, Nat.mul_one]
  rfl

/-! ## The bias row and the weight matrix -/

theorem V_v22_eq (c : Dev nD) : (V m c main_v22 : S1x128.Idx → EReal)
    = shapeCast S1x128 (m ((c : Thread nD τ).loc main_arg2)) shapeCasts_S128_S1x128 := by
  have e : (V m c main_v22 : S1x128.Idx → EReal)
      = pad S1x128 ![0, 0] ![0, 0] ![0, 0] (shapeCast S1x128 (m ((c : Thread nD τ).loc main_arg2)) shapeCasts_S128_S1x128)
          (sitofp (F := Ideal) .f32 (constantI S_ 32 0#32)) pads_S1x128_S1x128_000_000 h_S_ := by
    dsimp only [V, V0]
    simp only [hostOps0, hostOps0_1, hostOps0_2, hostOps0_3, hostOps0_4, hostOps0_5, hostOps0_6, hostOps0_7, List.flatten_cons, List.flatten_nil, List.append_nil, List.cons_append, List.nil_append]
    after_results
    rfl
  rw [e]
  exact pad_none_eq _ _ _ _ _ _ _ (by decide) (by decide)

theorem V_v22_apply (c : Dev nD) (co : Fin 128) :
    (V m c main_v22 : S1x128.Idx → EReal) (ix2 (0 : Fin 1) co) = m ((c : Thread nD τ).loc main_arg2) (ix1 co) := by
  rw [V_v22_eq]
  exact shapeCast_a_1a_apply _ _ _ _

theorem V_v20_eq (c : Dev nD) : (V m c main_v20 : S1152x128.Idx → EReal)
    = wmat (m ((c : Thread nD τ).loc main_arg1)) (m ((c : Thread nD τ).loc main_arg3)) := by
  have e : (V m c main_v20 : S1152x128.Idx → EReal)
      = pad S1152x128 ![0, 0] ![0, 0] ![0, 0] (wmat (m ((c : Thread nD τ).loc main_arg1)) (m ((c : Thread nD τ).loc main_arg3)))
          (sitofp (F := Ideal) .bf16 (constantI S_ 32 0#32)) pads_S1152x128_S1152x128_000_000 h_S_ := by
    dsimp only [V, V0]
    simp only [hostOps0, hostOps0_1, hostOps0_2, hostOps0_3, hostOps0_4, hostOps0_5, hostOps0_6, hostOps0_7, List.flatten_cons, List.flatten_nil, List.append_nil, List.cons_append, List.nil_append]
    after_results
    rfl
  rw [e]
  exact pad_none_eq _ _ _ _ _ _ _ (by decide) (by decide)

/-! ## The patch tensor's operations, each read at an index -/

/-- The image batch with its channel axis moved last, (batch, row, column, channel), and a border of one zero put
    around the two spatial axes. -/
def bordered (x : SX.Idx → EReal) : S16x66x66x128.Idx → EReal :=
  pad S16x66x66x128 ![0, 1, 1, 0] ![0, 1, 1, 0] ![0, 0, 0, 0]
    (transpose S16x64x64x128 [0, 2, 3, 1] x transposes_S16x128x64x64_S16x64x64x128_0_2_3_1)
    (sitofp (F := Ideal) .f32 (constantI S_ 32 0#32)) pads_S16x64x64x128_S16x66x66x128_000_110_110_000 h_S_

/-- Moving the channel axis last: entry (b, h, w, ci) of the result is entry (b, ci, h, w) of the batch. -/
theorem channelsLast_apply (x : SX.Idx → EReal) (b : Fin 16) (h w : Fin 64) (ci : Fin 128) :
    transpose S16x64x64x128 [0, 2, 3, 1] x transposes_S16x128x64x64_S16x64x64x128_0_2_3_1 (ix4 b h w ci) = x (ix4 b ci h w) :=
  transpose_apply _ _ _ _ _ fun a => match a with
    | ⟨0, _⟩ => rfl | ⟨1, _⟩ => rfl | ⟨2, _⟩ => rfl | ⟨3, _⟩ => rfl

/-- The bordered batch at row `r`, column `s` (both counted from the border's first line): the image one up and one
    left when (r, s) is off the border, the border's zero on it. -/
theorem bordered_apply (x : SX.Idx → EReal) (b : Fin 16) (r s : Fin 66) (ci : Fin 128) :
    bordered x (ix4 b r s ci) = tap x b r.val s.val ci := by
  unfold bordered tap
  by_cases h : 1 ≤ r.val ∧ r.val ≤ 64 ∧ 1 ≤ s.val ∧ s.val ≤ 64
  · rw [dif_pos h]
    refine (pad_apply_of_inside _ _ _ _ _ _ _ (ix4 b r s ci)
      (ix4 b (⟨r.val - 1, by omega⟩ : Fin 64) (⟨s.val - 1, by omega⟩ : Fin 64) ci) fun a => ?_).trans
      (channelsLast_apply x _ _ _ _)
    match a with
    | ⟨0, _⟩ => show b.val = 0 + b.val * (0 + 1); omega
    | ⟨1, _⟩ => show r.val = 1 + (r.val - 1) * (0 + 1); omega
    | ⟨2, _⟩ => show s.val = 1 + (s.val - 1) * (0 + 1); omega
    | ⟨3, _⟩ => show ci.val = 0 + ci.val * (0 + 1); omega
  · rw [dif_neg h]
    have hz : ∀ i, (sitofp (F := Ideal) .f32 (constantI S_ 32 0#32) : S_.Idx → EReal) i = 0 := fun _ => sitofp_zero
    by_cases hr : 1 ≤ r.val ∧ r.val ≤ 64
    · refine (pad_apply_of_not_inside _ _ _ _ _ _ _ (ix4 b r s ci) (2 : Fin 4) ?_).trans (hz _)
      show ¬(1 ≤ s.val ∧ (s.val - 1) % (0 + 1) = 0 ∧ (s.val - 1) / (0 + 1) < 64)
      omega
    · refine (pad_apply_of_not_inside _ _ _ _ _ _ _ (ix4 b r s ci) (1 : Fin 4) ?_).trans (hz _)
      show ¬(1 ≤ r.val ∧ (r.val - 1) % (0 + 1) = 0 ∧ (r.val - 1) / (0 + 1) < 64)
      omega

/-- The nine windows fit: offset (ky, kx) = (n / 3, n % 3) with 64 rows and columns stays inside 66. -/
theorem window_fits (n : Fin 9) : S16x66x66x128.Slices ![0, n.val / 3, n.val % 3, 0] S16x64x64x128 := by
  revert n; decide

/-- Window `n` of a bordered batch `P`: its 64 × 64 positions starting at row `n / 3`, column `n % 3`. -/
def window (P : S16x66x66x128.Idx → EReal) (n : Fin 9) : S16x64x64x128.Idx → EReal :=
  extractStridedSlice S16x64x64x128 ![0, n.val / 3, n.val % 3, 0] P (window_fits n)

theorem window_apply (P : S16x66x66x128.Idx → EReal) (n : Fin 9) (b : Fin 16) (h w : Fin 64) (ci : Fin 128) :
    window P n (ix4 b h w ci)
      = P (ix4 b (⟨n.val / 3 + h.val, by omega⟩ : Fin 66) (⟨n.val % 3 + w.val, by omega⟩ : Fin 66) ci) :=
  extractStridedSlice_apply _ _ _ _ _ fun a => match a with
    | ⟨0, _⟩ => by show b.val = 0 + b.val; omega
    | ⟨1, _⟩ => rfl
    | ⟨2, _⟩ => rfl
    | ⟨3, _⟩ => by show ci.val = 0 + ci.val; omega

/-- The nine windows, each with its shape, in the order (0,0), (0,1), (0,2), (1,0), … -/
abbrev windows (P : S16x66x66x128.Idx → EReal) : List ((s : Shape) × (s.Idx → EReal)) :=
  List.ofFn fun n : Fin 9 => ⟨S16x64x64x128, window P n⟩

/-- The nine windows laid side by side along the channel axis: channel `k` of the result is channel `k % 128` of
    window `k / 128`. -/
theorem windows_apply (P : S16x66x66x128.Idx → EReal)
    (hc : Shape.Concatenates ((windows P).map (·.1)) S16x64x64x1152 3) (b : Fin 16) (h w : Fin 64) (k : Fin 1152) :
    concatenate S16x64x64x1152 3 (windows P) hc (ix4 b h w k)
      = window P ⟨k.val / 128, by omega⟩ (ix4 b h w (⟨k.val % 128, by omega⟩ : Fin 128)) :=
  concatenate_ofFn_apply (t := S16x64x64x1152) (s₁ := S16x64x64x128) (3 : Fin 4) (fun n : Fin 9 => window P n) hc rfl 128 rfl (ix4 b h w k) ⟨k.val / 128, by omega⟩ rfl
    (ix4 b h w (⟨k.val % 128, by omega⟩ : Fin 128)) rfl fun a ha => match a with
      | ⟨0, _⟩ => rfl | ⟨1, _⟩ => rfl | ⟨2, _⟩ => rfl | ⟨3, _⟩ => absurd rfl ha

/-- The two spatial axes flattened: position `mm` of the result is row `mm / 64`, column `mm % 64`. -/
theorem flattened_apply (C : S16x64x64x1152.Idx → EReal) (b : Fin 16) (mm : Fin 4096) (k : Fin 1152) :
    shapeCast S16x4096x1152 C shapeCasts_S16x64x64x1152_S16x4096x1152 (ix3 b mm k)
      = C (ix4 b (⟨mm.val / 64, by omega⟩ : Fin 64) (⟨mm.val % 64, by omega⟩ : Fin 64) k) :=
  shapeCast_apply _ _ _ _ (by
    rw [Shape.rowMajor_val_four, Shape.rowMajor_val_three]
    show ((b.val * 64 + mm.val / 64) * 64 + mm.val % 64) * 1152 + k.val = (b.val * 4096 + mm.val) * 1152 + k.val
    omega)

/-- The nine windows of the bordered batch of `x` laid side by side along the channel axis. -/
def taps (x : SX.Idx → EReal) : S16x64x64x1152.Idx → EReal :=
  concatenate S16x64x64x1152 3 (windows (bordered x))
    concatenates_S16x64x64x128_S16x64x64x128_S16x64x64x128_S16x64x64x128_S16x64x64x128_S16x64x64x128_S16x64x64x128_S16x64x64x128_S16x64x64x128_S16x64x64x1152_d3

theorem taps_apply (x : SX.Idx → EReal) (b : Fin 16) (h w : Fin 64) (k : Fin 1152) :
    taps x (ix4 b h w k) = window (bordered x) ⟨k.val / 128, by omega⟩ (ix4 b h w (⟨k.val % 128, by omega⟩ : Fin 128)) :=
  windows_apply _ _ b h w k

/-! ## The patch tensor -/

/-- What the nine slicing lines leave: whatever the contents `W` before them, window `n` of what `W` holds at the
    bordered batch's buffer sits at the `n`-th slice's result buffer (each line writes its own buffer only). -/
theorem slices_result (W : Valuation τ sig (Elt Ideal)) :
    (StableHlo.after (hostOps0_2.take 9) W (Proc.devRef .tc main_v7) : S16x64x64x128.Idx → EReal) = window (W (Proc.devRef .tc main_v6)) 0
    ∧ (StableHlo.after (hostOps0_2.take 9) W (Proc.devRef .tc main_v8) : S16x64x64x128.Idx → EReal) = window (W (Proc.devRef .tc main_v6)) 1
    ∧ (StableHlo.after (hostOps0_2.take 9) W (Proc.devRef .tc main_v9) : S16x64x64x128.Idx → EReal) = window (W (Proc.devRef .tc main_v6)) 2
    ∧ (StableHlo.after (hostOps0_2.take 9) W (Proc.devRef .tc main_v10) : S16x64x64x128.Idx → EReal) = window (W (Proc.devRef .tc main_v6)) 3
    ∧ (StableHlo.after (hostOps0_2.take 9) W (Proc.devRef .tc main_v11) : S16x64x64x128.Idx → EReal) = window (W (Proc.devRef .tc main_v6)) 4
    ∧ (StableHlo.after (hostOps0_2.take 9) W (Proc.devRef .tc main_v12) : S16x64x64x128.Idx → EReal) = window (W (Proc.devRef .tc main_v6)) 5
    ∧ (StableHlo.after (hostOps0_2.take 9) W (Proc.devRef .tc main_v13) : S16x64x64x128.Idx → EReal) = window (W (Proc.devRef .tc main_v6)) 6
    ∧ (StableHlo.after (hostOps0_2.take 9) W (Proc.devRef .tc main_v14) : S16x64x64x128.Idx → EReal) = window (W (Proc.devRef .tc main_v6)) 7
    ∧ (StableHlo.after (hostOps0_2.take 9) W (Proc.devRef .tc main_v15) : S16x64x64x128.Idx → EReal) = window (W (Proc.devRef .tc main_v6)) 8 := by
  simp only [hostOps0_2, List.take_succ_cons, List.take_zero]
  refine ⟨?_, ?_, ?_, ?_, ?_, ?_, ?_, ?_, ?_⟩ <;> (after_results_simp; rfl)

/-- From contents `X` that hold the nine windows of the bordered batch of `x` at the slices' result buffers, the lines
    after the slices leave the windows laid side by side along the channel axis with the two spatial axes flattened:
    the change of float format is the identity on extended reals, and the pad adds nothing. -/
theorem patches_result (x : SX.Idx → EReal) (X : Valuation τ sig (Elt Ideal))
    (hX : (X (Proc.devRef .tc main_v7) : S16x64x64x128.Idx → EReal) = window (bordered x) 0
        ∧ (X (Proc.devRef .tc main_v8) : S16x64x64x128.Idx → EReal) = window (bordered x) 1
        ∧ (X (Proc.devRef .tc main_v9) : S16x64x64x128.Idx → EReal) = window (bordered x) 2
        ∧ (X (Proc.devRef .tc main_v10) : S16x64x64x128.Idx → EReal) = window (bordered x) 3
        ∧ (X (Proc.devRef .tc main_v11) : S16x64x64x128.Idx → EReal) = window (bordered x) 4
        ∧ (X (Proc.devRef .tc main_v12) : S16x64x64x128.Idx → EReal) = window (bordered x) 5
        ∧ (X (Proc.devRef .tc main_v13) : S16x64x64x128.Idx → EReal) = window (bordered x) 6
        ∧ (X (Proc.devRef .tc main_v14) : S16x64x64x128.Idx → EReal) = window (bordered x) 7
        ∧ (X (Proc.devRef .tc main_v15) : S16x64x64x128.Idx → EReal) = window (bordered x) 8) :
    (StableHlo.after (hostOps0_2.drop 9 ++ List.flatten [hostOps0_3, hostOps0_4, hostOps0_5, hostOps0_6, hostOps0_7]) X
        (Proc.devRef .tc main_v19) : S16x4096x1152.Idx → EReal)
      = shapeCast S16x4096x1152 (taps x) shapeCasts_S16x64x64x1152_S16x4096x1152 := by
  simp only [hostOps0_2, List.drop_succ_cons, List.drop_zero, hostOps0_3, hostOps0_4, hostOps0_5, hostOps0_6, hostOps0_7,
    List.flatten_cons, List.flatten_nil, List.append_nil, List.cons_append, List.nil_append]
  after_results
  -- the concatenate's nine operands, each at its own literal reference
  dsimp only [Matrix.cons_val]
  rw [hX.1, hX.2.1, hX.2.2.1, hX.2.2.2.1, hX.2.2.2.2.1, hX.2.2.2.2.2.1, hX.2.2.2.2.2.2.1, hX.2.2.2.2.2.2.2.1, hX.2.2.2.2.2.2.2.2]
  rw [pad_none_eq]
  · rfl
  · decide
  · decide

/-- The patch tensor as the host lines build it from the image batch: border, nine windows side by side along the
    channel axis, the two spatial axes flattened. -/
theorem V_v19_eq (c : Dev nD) : (V m c main_v19 : S16x4096x1152.Idx → EReal)
    = shapeCast S16x4096x1152 (taps (m ((c : Thread nD τ).loc main_arg0))) shapeCasts_S16x64x64x1152_S16x4096x1152 := by
  -- the contents once the border has been put on hold the bordered batch
  have h6 : (StableHlo.after hostOps0_1 (StableHlo.after hostOps0 fun b => m (c, b)) (Proc.devRef .tc main_v6) : S16x66x66x128.Idx → EReal)
      = bordered (m ((c : Thread nD τ).loc main_arg0)) := by
    simp only [hostOps0, hostOps0_1]
    after_results
    rfl
  -- the thirty-one lines in three runs: up to the border, the nine slices, the rest
  have hV : V0 m c = StableHlo.after (hostOps0_2.drop 9 ++ List.flatten [hostOps0_3, hostOps0_4, hostOps0_5, hostOps0_6, hostOps0_7])
      (StableHlo.after (hostOps0_2.take 9) (StableHlo.after hostOps0_1 (StableHlo.after hostOps0 fun b => m (c, b)))) := rfl
  show V0 m c (Proc.devRef .tc main_v19) = _
  rw [hV]
  exact patches_result _ _ (h6 ▸ slices_result _)

theorem V_v19_apply (c : Dev nD) (b : Fin 16) (mm : Fin 4096) (k : Fin 1152) :
    (V m c main_v19 : S16x4096x1152.Idx → EReal) (ix3 b mm k) = patch (m ((c : Thread nD τ).loc main_arg0)) b mm k := by
  rw [V_v19_eq, flattened_apply, taps_apply, window_apply, bordered_apply]
  rfl

end Cert.Proof.R

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.R.OutValue.lean ====
/-
  The reference program's block product with its bias row, read at an entry.

  At the exact instance a float is an extended real and every operation is exact.  The reference's kernel holds a
  block of 512 rows of 1152 entries under a leading unit axis; a 1152 × 128 matrix; and one row of 128 biases.  It
  drops the unit axis, multiplies the 512 × 1152 block by the matrix into a zero accumulator, adds the bias row to
  every one of the 512 rows, and puts the unit axis back.  Read at the entry (0, r, co) the result is therefore

      (∑ k : Fin 1152, X0 (0, r, k) · X1 (k, co)) + X2 (0, co):

  * adding or dropping a leading unit axis does not move an entry: (0, r, c) and (r, c) are the same row-major place;
  * a cast between equal shapes is the identity;
  * the product's dimension numbers contract the left operand's axis 1 with the right operand's axis 0 and batch
    nothing, so its entry (r, co) into a zero accumulator is the textbook sum over the one contracted axis;
  * a [1, 128] row broadcast to [512, 128] reads its one row at every row;
  * the sum of two arrays reads entrywise.
-/
import proofs.«171157_g2000105039750728_pallasbulk_413_14_alg».proof.Proof.Gen.ReferenceIdeal.Skeleton
import proofs.«171157_g2000105039750728_pallasbulk_413_14_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Proof.R

open Cert.ReferenceIdeal Cert.ReferenceIdeal.Gen
open Idealize.ShloMosaic Idealize.ShloMosaic.ValueIdx

/-- The reference's product contracts the left operand's axis 1 with the right operand's axis 0, keeps the left
    operand's axis 0 and the right operand's axis 1 as the result's axes, and batches nothing. -/
theorem dot_isPlain : PlainDot.IsPlain dot_S512x1152_S1152x128_S512x128_1_0_0_1_n_n :=
  ⟨rfl, rfl, rfl, rfl, rfl, rfl⟩

/-- The block's product into a zero accumulator at the entry (r, co): the sum over the 1152 contracted places, the left operand
    read through the dropped unit axis and the right operand through its identity cast. -/
theorem prod_apply (X0 : Vec Ideal S1x512x1152 .bf16) (X1 : Vec Ideal S1152x128 .bf16) (r : Fin 512) (co : Fin 128) :
    matmul (F := Ideal) dot_S512x1152_S1152x128_S512x128_1_0_0_1_n_n none
        (shapeCast S512x1152 X0 shapeCasts_S1x512x1152_S512x1152 : FVec Ideal S512x1152 .bf16)
        (shapeCast S1152x128 X1 shapeCasts_S1152x128_S1152x128 : FVec Ideal S1152x128 .bf16)
        (constant (F := Ideal) S512x128 .f32 0x00000000#32) (ix2 r co)
      = ∑ k : Fin 1152, X0 (ix3 (0 : Fin 1) r k) * X1 (ix2 k co) := by
  refine (PlainDot.matmul_zero_apply dot_isPlain none _ _ r co).trans ?_
  refine Finset.sum_congr rfl fun k _ => ?_
  rw [shapeCast_1ab_ab_apply, shapeCast_self]

/-- The bias row, broadcast over the 512 rows, at the entry (r, co): the one row's entry at co. -/
theorem bias_apply (X2 : Vec Ideal S1x128 .f32) (r : Fin 512) (co : Fin 128) :
    broadcastTo S512x128 (shapeCast S1x128 X2 shapeCasts_S1x128_S1x128 : FVec Ideal S1x128 .f32) broadcasts_S1x128_S512x128 (ix2 r co)
      = X2 (ix2 (0 : Fin 1) co) := by
  refine (broadcastTo_1b_ab_apply _ _ r co).trans ?_
  rw [shapeCast_self]

/-- THE PAYLOAD AT AN ENTRY: the product's sum over the contracted axis plus the bias of the column. -/
theorem pay1_apply (X0 : Vec Ideal S1x512x1152 .bf16) (X1 : Vec Ideal S1152x128 .bf16) (X2 : Vec Ideal S1x128 .f32)
    (r : Fin 512) (co : Fin 128) :
    k0_pay1 (F := Ideal) X0 X1 X2 (ix3 (0 : Fin 1) r co)
      = (∑ k : Fin 1152, X0 (ix3 (0 : Fin 1) r k) * X1 (ix2 k co)) + X2 (ix2 (0 : Fin 1) co) := by
  unfold k0_pay1
  refine (shapeCast_ab_1ab_apply _ _ (0 : Fin 1) r co).trans ?_
  refine (addf_apply _ _ _).trans ?_
  exact congrArg₂ (· + ·) (prod_apply X0 X1 r co) (bias_apply X2 r co)

end Cert.Proof.R

end
-- ==== Proof.R.Value.lean ====
/-
  The result array of the reference program after its run, as the specification's function `G` of the argument
  arrays, at the exact instance (a float is an extended real).

  The region runs over a grid of 1 × 16 × 8 = 128 points.  At the point with batch index `bi` and row block `mi` the
  body is handed rows `512 mi … 512 mi + 511` of image `bi`'s patch matrix (all 1152 columns), the whole 1152 × 128
  weight matrix and the whole bias row, and writes back rows `512 mi … 512 mi + 511` of image `bi` of the result array
  `main_v23` (all 128 channels).  What it writes at row `r` and channel `co` of the block is

      (∑ k < 1152, patch (bi, 512 mi + r, k) · weight (k, co)) + bias co,

  which is the specification's sum at image `bi`, position `512 mi + r`, channel `co` with each product the other
  way round.  The 128 blocks tile the [16, 4096, 128] array — index (b, mm, co) lies in the block of the point with
  `bi = b` and `mi = mm / 512` — so after the run the array is

      G23 (b, mm, co) = Gc x wm bias b co (mm / 64) (mm % 64),

  a position `mm` being row `mm / 64`, column `mm % 64` of the 64 × 64 output image.

  Two host lines follow the region.  The first reads the array with its 4096 positions split into 64 rows of 64:
  entry (b, h, w, co) of `main_v24` is entry (b, 64 h + w, co) of `main_v23`, the same row-major place.  The second
  moves the channel axis from last to second: entry (b, co, h, w) of `main_v25` is entry (b, h, w, co) of `main_v24`.
  Hence `main_v25 (b, co, h, w) = G23 (b, 64 h + w, co) = Gc x wm bias b co h w = G x wm bias (b, co, h, w)`, since
  `(64 h + w) / 64 = h` and `(64 h + w) % 64 = w` for `w < 64`.
-/
import proofs.«171157_g2000105039750728_pallasbulk_413_14_alg».proof.Proof.R.Body
import proofs.«171157_g2000105039750728_pallasbulk_413_14_alg».proof.Proof.R.Host
import proofs.«171157_g2000105039750728_pallasbulk_413_14_alg».proof.Proof.R.OutValue
import proofs.«171157_g2000105039750728_pallasbulk_413_14_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open scoped BigOperators

namespace Cert.Proof.R

open Cert.ReferenceIdeal Cert.ReferenceIdeal.Gen Cert.Proof.Spec
open Idealize.ShloMosaic Idealize.ShloMosaic.TcCoe Idealize.ShloMosaic.Tactic Idealize.ShloMosaic.ValueIdx
open Idealize.SL.Sem
open Idealize.ShloMosaic.Pipeline (Dat)

variable (m : (ℓ : Loc nD τ sig) → Buf (Elt Ideal) ℓ)

/-! ## The arguments and the blocks, at their literal types -/

/-- The image batch, the weight matrix and the bias row the specification is read at, on core `c`. -/
abbrev xA (c : Dev nD) : SX.Idx → EReal := m ((c : Thread nD τ).loc main_arg0)
abbrev wmA (c : Dev nD) : SWm.Idx → EReal := wmat (m ((c : Thread nD τ).loc main_arg1)) (m ((c : Thread nD τ).loc main_arg3))
abbrev bA (c : Dev nD) : SBias.Idx → EReal := m ((c : Thread nD τ).loc main_arg2)

/-- The three input blocks at grid point `t`. -/
abbrev blk0 (c : Dev nD) (t : Fin cfg0.N) : Vec Ideal S1x512x1152 .bf16 := iblk m c 0 t
abbrev blk1 (c : Dev nD) (t : Fin cfg0.N) : Vec Ideal S1152x128 .bf16 := iblk m c 1 t
abbrev blk2 (c : Dev nD) (t : Fin cfg0.N) : Vec Ideal S1x128 .f32 := iblk m c 2 t

/-! ## The index maps over the grid -/

/-- The printed index maps, decided over the 128 grid points: the patch window moves with the result window on the
    batch axis and the row-block axis and stays at column block 0; the weight and the bias windows stay at block
    (0, 0); the result window's channel block is 0, its batch index is below 16 and its row block below 8. -/
theorem idx_facts : ∀ t : Fin cfg0.N, win0_0.index t (0 : Fin 3) = win0_3.index t (0 : Fin 3)
    ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 15 ∧ win0_3.index t (1 : Fin 3) ≤ 7 ∧ win0_3.index t (2 : Fin 3) = 0 :=
  (by decide +kernel : ∀ t : Fin grid0.N, _)

/-- Every (batch, row block) is some grid point's. -/
theorem idx_onto : ∀ (q0 : Fin 16) (q1 : Fin 8), ∃ t : Fin cfg0.N, win0_3.index t = ![q0.val, q1.val, 0] :=
  (by decide +kernel : ∀ (q0 : Fin 16) (q1 : Fin 8), ∃ t : Fin grid0.N, win0_3.index t = ![q0.val, q1.val, 0])

/-! ## The result array of the region, as one function of the arguments -/

/-- The region's result at image `b`, flattened position `mm = 64 h + w` and output channel `co`: the
    specification's value at row `mm / 64` and column `mm % 64`. -/
def g23 (x : SX.Idx → EReal) (wm : SWm.Idx → EReal) (bias : SBias.Idx → EReal) (b : Fin 16) (mm : Fin 4096) (co : Fin 128) : EReal :=
  Gc x wm bias b co ⟨mm.val / 64, by have := mm.isLt; omega⟩ ⟨mm.val % 64, Nat.mod_lt _ (by norm_num)⟩

/-- The region's result array `main_v23`, of shape [16, 4096, 128]. -/
def G23 (x : SX.Idx → EReal) (wm : SWm.Idx → EReal) (bias : SBias.Idx → EReal) : S16x4096x128.Idx → EReal :=
  fun i => g23 x wm bias (i 0) (i 1) (i 2)

theorem G23_ix3 (x : SX.Idx → EReal) (wm : SWm.Idx → EReal) (bias : SBias.Idx → EReal) (b : Fin 16) (mm : Fin 4096) (co : Fin 128) :
    G23 x wm bias (ix3 b mm co) = g23 x wm bias b mm co := rfl

/-- Splitting a flattened position into row and column and putting it back gives the position: the value is the
    sum over the 1152 patch columns at the position itself. -/
theorem g23_eq (x : SX.Idx → EReal) (wm : SWm.Idx → EReal) (bias : SBias.Idx → EReal) (b : Fin 16) (mm : Fin 4096) (co : Fin 128) :
    g23 x wm bias b mm co = (∑ k : Fin 1152, wm (ix2 k co) * patch x b mm k) + bias (ix1 co) := by
  unfold g23 Gc
  have e : (⟨mm.val / 64 * 64 + mm.val % 64, by have := mm.isLt; omega⟩ : Fin 4096) = mm := Fin.ext (Nat.div_add_mod' mm.val 64)
  rw [e]

/-- The array at an index given by its coordinates. -/
theorem G23_apply (x : SX.Idx → EReal) (wm : SWm.Idx → EReal) (bias : SBias.Idx → EReal) (i : S16x4096x128.Idx)
    (b : Fin 16) (mm : Fin 4096) (co : Fin 128) (h0 : (i 0).val = b.val) (h1 : (i 1).val = mm.val) (h2 : (i 2).val = co.val) :
    G23 x wm bias i = (∑ k : Fin 1152, wm (ix2 k co) * patch x b mm k) + bias (ix1 co) := by
  have e : i = ix3 b mm co := funext fun a => Fin.ext (by
    match a with
    | ⟨0, _⟩ => exact h0
    | ⟨1, _⟩ => exact h1
    | ⟨2, _⟩ => exact h2)
  rw [e, G23_ix3, g23_eq]

/-! ## The input blocks, read where the result block's rectangle says -/

/-- The patch block at point `t`, row `r`, column `k`: the patch array at the result block's image and at row
    `512 ·(row block) + r`. -/
theorem blk0_apply (c : Dev nD) (t : Fin cfg0.N) (r : Fin 512) (k : Fin 1152) (i : S16x4096x1152.Idx)
    (h0 : (i 0).val = win0_3.index t (0 : Fin 3)) (h1 : (i 1).val = win0_3.index t (1 : Fin 3) * 512 + r.val) (h2 : (i 2).val = k.val) :
    blk0 m c t (ix3 (0 : Fin 1) r k) = (V m c main_v19 : S16x4096x1152.Idx → EReal) i := by
  obtain ⟨e0, e1, e2, -⟩ := idx_facts t
  unfold blk0 iblk
  rw [View.read_apply]
  show V m c main_v19 _ = V m c main_v19 _
  congr 1
  funext a
  apply Fin.ext
  match a with
  | ⟨0, _⟩ => show win0_0.index t (0 : Fin 3) * 1 + 1 * 0 = (i 0).val; rw [e0, h0]; omega
  | ⟨1, _⟩ => show win0_0.index t (1 : Fin 3) * 512 + 1 * r.val = (i 1).val; rw [e1, h1]; omega
  | ⟨2, _⟩ => show win0_0.index t (2 : Fin 3) * 1152 + 1 * k.val = (i 2).val; rw [e2, h2]; omega

/-- The weight block at any point is the whole weight matrix. -/
theorem blk1_apply (c : Dev nD) (t : Fin cfg0.N) (k : Fin 1152) (co : Fin 128) :
    blk1 m c t (ix2 k co) = (V m c main_v20 : S1152x128.Idx → EReal) (ix2 k co) := by
  obtain ⟨-, -, -, e3, e4, -⟩ := idx_facts t
  unfold blk1 iblk
  rw [View.read_apply]
  show V m c main_v20 _ = V m c main_v20 _
  congr 1
  funext a
  apply Fin.ext
  match a with
  | ⟨0, _⟩ => show win0_1.index t (0 : Fin 2) * 1152 + 1 * k.val = k.val; rw [e3]; omega
  | ⟨1, _⟩ => show win0_1.index t (1 : Fin 2) * 128 + 1 * co.val = co.val; rw [e4]; omega

/-- The bias block at any point is the whole bias row. -/
theorem blk2_apply (c : Dev nD) (t : Fin cfg0.N) (co : Fin 128) :
    blk2 m c t (ix2 (0 : Fin 1) co) = (V m c main_v22 : S1x128.Idx → EReal) (ix2 (0 : Fin 1) co) := by
  obtain ⟨-, -, -, -, -, e5, e6, -⟩ := idx_facts t
  unfold blk2 iblk
  rw [View.read_apply]
  show V m c main_v22 _ = V m c main_v22 _
  congr 1
  funext a
  apply Fin.ext
  match a with
  | ⟨0, _⟩ => show win0_2.index t (0 : Fin 2) * 1 + 1 * 0 = 0; rw [e5]
  | ⟨1, _⟩ => show win0_2.index t (1 : Fin 2) * 128 + 1 * co.val = co.val; rw [e6]; omega

/-! ## What each grid point writes back -/

/-- Two arrays of the block's shape agree when they agree at every (0, r, co). -/
theorem blk3_ext (A B : S1x512x128.Idx → EReal) (h : ∀ (r : Fin 512) (co : Fin 128), A (ix3 (0 : Fin 1) r co) = B (ix3 (0 : Fin 1) r co)) :
    A = B := funext fun j => by
  have e : j = ix3 (0 : Fin 1) (j 1) (j 2) := funext fun a => Fin.ext (by
    match a with
    | ⟨0, _⟩ => show (j 0).val = 0; have hj : (j 0).val < 1 := (j 0).isLt; omega
    | ⟨1, _⟩ => rfl
    | ⟨2, _⟩ => rfl)
  rw [e]; exact h _ _

/-- WHAT POINT `t` WRITES BACK is block `t` of `G23` of the argument arrays: at row `r` and channel `co` of the
    block, the body's sum of patch entry times weight entry over the 1152 columns plus the bias, with the patch read
    at the block's image and at row `512 · (row block) + r` — which is `G23` there, each product the other way round. -/
theorem flushed_eq (c : Dev nD) (t : Fin cfg0.N) :
    (dats m 0 c).flushed 3 t = ((cfg0.win 3).blk t).view.read (Elt Ideal) (G23 (xA m c) (wmA m c) (bA m c)) := by
  show (cfg0.win 3).cut (grid0.coords t) ((dats m 0 c).after 3 t) = _
  rw [after0_3]
  unfold OUT
  refine blk3_ext _ _ fun r co => ?_
  obtain ⟨-, -, -, -, -, -, -, l0, l1, e9⟩ := idx_facts t
  have hr : r.val < 512 := r.isLt
  show k0_pay1 (F := Ideal) (blk0 m c t) (blk1 m c t) (blk2 m c t) (ix3 (0 : Fin 1) r co) = _
  refine (pay1_apply (blk0 m c t) (blk1 m c t) (blk2 m c t) r co).trans ?_
  rw [View.read_apply]
  show _ = G23 (xA m c) (wmA m c) (bA m c) (((cfg0.win 3).blk t).view.emb (ix3 (0 : Fin 1) r co))
  refine Eq.trans ?_ (G23_apply (xA m c) (wmA m c) (bA m c) (((cfg0.win 3).blk t).view.emb (ix3 (0 : Fin 1) r co))
    ⟨win0_3.index t (0 : Fin 3), by omega⟩ ⟨win0_3.index t (1 : Fin 3) * 512 + r.val, by omega⟩ co ?_ ?_ ?_).symm
  · rw [blk2_apply m c t co, V_v22_apply m c co]
    refine congrArg (· + bA m c (ix1 co)) (Finset.sum_congr rfl fun k _ => ?_)
    rw [blk0_apply m c t r k (ix3 (⟨win0_3.index t (0 : Fin 3), by omega⟩ : Fin 16) (⟨win0_3.index t (1 : Fin 3) * 512 + r.val, by omega⟩ : Fin 4096) k) rfl rfl rfl,
      V_v19_apply m c _ _ k, blk1_apply m c t k co, V_v20_eq m c]
    exact mul_comm _ _
  · show win0_3.index t (0 : Fin 3) * 1 + 1 * 0 = win0_3.index t (0 : Fin 3); omega
  · show win0_3.index t (1 : Fin 3) * 512 + 1 * r.val = win0_3.index t (1 : Fin 3) * 512 + r.val; omega
  · show win0_3.index t (2 : Fin 3) * 128 + 1 * co.val = co.val; omega

/-! ## From the blocks to the array -/

/-- An index of the result array is in point `t`'s block iff each coordinate is in the block's range on its axis. -/
theorem mem_blk (t : Fin cfg0.N) (i : S16x4096x128.Idx) :
    i ∈ ((cfg0.win 3).blk t).view.set ↔ ∀ a : Fin 3, win0_3.index t a * S1x512x128.size a ≤ (i a).val ∧ (i a).val < win0_3.index t a * S1x512x128.size a + S1x512x128.size a := by
  show i ∈ ((View.whole main_v23).slice (win0_3.rect t)).set ↔ _
  rw [View.set_slice_whole, Rect.mem_set_unit]
  exact Iff.rfl

/-- The 128 blocks tile the result array: index (b, mm, co) is in the block of the point whose batch index is `b` and
    whose row block is `mm / 512`. -/
theorem cover (i : S16x4096x128.Idx) : ∃ t : Fin cfg0.N, (cfg0.win 3).flush t = true ∧ i ∈ ((cfg0.win 3).blk t).view.set := by
  have hi0 : (i 0).val < 16 := (i 0).isLt
  have hi1 : (i 1).val < 4096 := (i 1).isLt
  have hi2 : (i 2).val < 128 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 128 ≤ (i 2).val ∧ (i 2).val < win0_3.index t (2 : Fin 3) * 128 + 128; omega

/-- THE REGION'S RESULT ARRAY after the run: `G23` of the argument arrays. -/
theorem final23 (c : Dev nD) : (dats m 0 c).arrAt 3 cfg0.N = G23 (xA m c) (wmA m c) (bA m c) :=
  (dats m 0 c).arrAt_eq_of_cover 3 (G23 (xA m c) (wmA m c) (bA m c)) (fun t _ => flushed_eq m c t) cover

/-! ## Through the two host lines after the region -/

/-- Two arrays of the result's shape agree when they agree at every (b, co, h, w). -/
theorem sx_ext (A B : SX.Idx → EReal)
    (h : ∀ (b : Fin 16) (co : Fin 128) (hh w : Fin 64), A (ix4 b co hh w) = B (ix4 b co hh w)) : A = B :=
  funext fun j => by rw [eq_ix4 j]; exact h _ _ _ _

/-- At the flattened position `64 h + w` the region's result is the specification's value at row `h`, column `w`. -/
theorem g23_pos (x : SX.Idx → EReal) (wm : SWm.Idx → EReal) (bias : SBias.Idx → EReal) (b : Fin 16) (co : Fin 128) (hh w : Fin 64)
    (mm : Fin 4096) (hmm : mm.val = hh.val * 64 + w.val) : g23 x wm bias b mm co = Gc x wm bias b co hh w := by
  have hw : w.val < 64 := w.isLt
  have e1 : (⟨mm.val / 64, by have := mm.isLt; omega⟩ : Fin 64) = hh := Fin.ext (by show mm.val / 64 = hh.val; omega)
  have e2 : (⟨mm.val % 64, Nat.mod_lt _ (by norm_num)⟩ : Fin 64) = w := Fin.ext (by show mm.val % 64 = w.val; omega)
  unfold g23
  rw [e1, e2]

/-- THE RESULT ARRAY of the reference program after its run is the specification's `G` of the argument arrays: the
    last line moves the channel axis of `main_v24` from last to second, `main_v24` is the region's result with its
    4096 positions split into 64 rows of 64, and the region's result is `G23`; entry (b, co, h, w) is therefore `G23`
    at (b, 64 h + w, co), the specification's value at (b, co, h, w). -/
theorem result_eq (c : Dev nD) : (Pipeline.afterTail₀ cfgs (dats m) 0 (V0 m) [hostOps1] c main_v25 : S16x128x64x64.Idx → EReal)
      = G (m ((c : Thread nD τ).loc main_arg0)) (wmat (m ((c : Thread nD τ).loc main_arg1)) (m ((c : Thread nD τ).loc main_arg3))) (m ((c : Thread nD τ).loc main_arg2)) := by
  unfold Pipeline.afterTail₀
  show StableHlo.after hostOps1 _ (Proc.devRef .tc main_v25) = _
  after_results
  have e23 : Pipeline.withArrays (cfgs 0).spec c (V0 m c) (fun w => (dats m 0 c).arrAt w (cfgs 0).N) (Proc.devRef .tc main_v23)
      = G23 (xA m c) (wmA m c) (bA m c) :=
    (Pipeline.withArrays_arr spec0 launch0.win.arr_inj c _ _ 3).trans (final23 m c)
  rw [e23]
  refine sx_ext _ _ fun b co hh w => ?_
  have hw : w.val < 64 := w.isLt
  have hh' : hh.val < 64 := hh.isLt
  rw [G_ix4]
  refine (transpose_apply [0, 3, 1, 2] _ transposes_S16x64x64x128_S16x128x64x64_0_3_1_2 (ix4 b co hh w) (ix4 b hh w co) (fun a => by
    match a with
    | ⟨0, _⟩ => rfl
    | ⟨1, _⟩ => rfl
    | ⟨2, _⟩ => rfl
    | ⟨3, _⟩ => rfl)).trans ?_
  show shapeCast S16x64x64x128 (G23 (xA m c) (wmA m c) (bA m c)) shapeCasts_S16x4096x128_S16x64x64x128 (ix4 b hh w co) = _
  refine (shapeCast_apply (G23 (xA m c) (wmA m c) (bA m c)) shapeCasts_S16x4096x128_S16x64x64x128 (ix4 b hh w co)
    (ix3 b (⟨hh.val * 64 + w.val, by omega⟩ : Fin 4096) co) ?_).trans ?_
  · rw [Shape.rowMajor_val_three, Shape.rowMajor_val_four]
    show (b.val * 4096 + (hh.val * 64 + w.val)) * 128 + co.val = ((b.val * 64 + hh.val) * 64 + w.val) * 128 + co.val
    omega
  · rw [G23_ix3]
    exact g23_pos (xA m c) (wmA m c) (bA m c) b co hh w _ rfl

end Cert.Proof.R

end
-- ==== Proof.lean ====
/-
  A 3×3 convolution with a border of one zero, scaled weights and a bias, computed two ways, proved equal over the
  extended reals.

  The kernel program does everything for one image inside one grid point: it casts the image block and moves it to
  channel-last layout, surrounds it with a border of one zero in a scratch buffer, lays the nine shifted 64×64 windows of
  the bordered image side by side as the 1152 columns of a 4096-row patch matrix in a second scratch buffer, contracts the
  [1152, 128] weight matrix with it into a [128, 4096] block (output channel by position) and adds the bias column. The
  reference program builds the same patch matrix with host operations (transpose to channel-last, pad, nine slices,
  concatenate, reshape) and multiplies 512-row tiles of it by the weight matrix, adding the bias row, then moves the result
  back to channel-first layout. Both weight matrices are one host chain of the stored weight and the scale.

  At the ideal instance both results are, at batch b, output channel co and position (h, w),
      (∑ k < 1152, wm (k, co) · patch (64 h + w, k)) + bias co        (Proof/Spec.lean, `G`),
  the kernel with the weight as the left factor of each product, the reference with the patch entry as the left factor:
  the two agree by commutativity of the product, term by term, so no finiteness of the inputs is used.

  The three frames: each program's region is run through the pipeline's frame theorem from a triple of its kernel body
  (Proof/K/Run.lean for the convolution kernel, read at both instances; Proof/R/Body.lean for the reference's product
  kernel), the host lines around the region by the region-entry valuation and the lines after it. The idealization
  rewrote nothing, so `preserves` is trivial.
-/
import proofs.«171157_g2000105039750728_pallasbulk_413_14_alg».proof.Defs
import proofs.«171157_g2000105039750728_pallasbulk_413_14_alg».proof.Proof.Gen.Kernel
import proofs.«171157_g2000105039750728_pallasbulk_413_14_alg».proof.Proof.Gen.KernelIdeal
import proofs.«171157_g2000105039750728_pallasbulk_413_14_alg».proof.Proof.Gen.ReferenceIdeal
import proofs.«171157_g2000105039750728_pallasbulk_413_14_alg».proof.Proof.Gen.Pre_finite_inputs
import proofs.«171157_g2000105039750728_pallasbulk_413_14_alg».proof.Proof.K.Body
import proofs.«171157_g2000105039750728_pallasbulk_413_14_alg».proof.Proof.KI.Body
import proofs.«171157_g2000105039750728_pallasbulk_413_14_alg».proof.Proof.KI.Value
import proofs.«171157_g2000105039750728_pallasbulk_413_14_alg».proof.Proof.R.Body
import proofs.«171157_g2000105039750728_pallasbulk_413_14_alg».proof.Proof.R.Value

noncomputable section

namespace Cert.Proof

open Idealize.ShloMosaic Idealize.ShloMosaic.TcCoe Idealize.SL.Sem Cert.Proof.Spec

/-! ## The three frames -/

theorem frame_k : Cert.frame_Kernel := fun m ρ _ => Cert.Proof.K.frame m ρ
theorem frame_ki : Cert.frame_KernelIdeal := fun m ρ _ => Cert.Proof.KI.frame m ρ
theorem frame_r : Cert.frame_ReferenceIdeal := fun m ρ _ => Cert.Proof.R.frame m ρ

/-! ## The two runs with their results named -/

section KernelRun
open Cert.KernelIdeal Cert.KernelIdeal.Gen

/-- The idealized kernel program ends with its result array at `G` of its argument arrays, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8)
          = G (m ((c.tc : Thread nD τ).loc main_arg0)) (wmat (m ((c.tc : Thread nD τ).loc main_arg1)) (m ((c.tc : Thread nD τ).loc main_arg3)))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v8 (Pipeline.mem_restRefs_of main_v8 (by decide) (by decide))).trans (Cert.Proof.KI.result_eq m c),
      ((h c).2 main_arg0 (Pipeline.mem_restRefs_of main_arg0 (by decide) (by decide))).trans (W_main_arg0 m (Cert.Proof.KI.dats m) c),
      ((h c).2 main_arg1 (Pipeline.mem_restRefs_of main_arg1 (by decide) (by decide))).trans (W_main_arg1 m (Cert.Proof.KI.dats m) c),
      ((h c).2 main_arg2 (Pipeline.mem_restRefs_of main_arg2 (by decide) (by decide))).trans (W_main_arg2 m (Cert.Proof.KI.dats m) c),
      ((h c).2 main_arg3 (Pipeline.mem_restRefs_of main_arg3 (by decide) (by decide))).trans (W_main_arg3 m (Cert.Proof.KI.dats m) c)⟩)
    (Cert.Proof.KI.run_main m ρ)

end KernelRun

section ReferenceRun
open Cert.ReferenceIdeal Cert.ReferenceIdeal.Gen Cert.Proof.R

/-- The idealized reference program ends with its result array at `G` of its argument arrays, the arguments unchanged. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v25)
          = G (m ((c.tc : Thread nD τ).loc main_arg0)) (wmat (m ((c.tc : Thread nD τ).loc main_arg1)) (m ((c.tc : Thread nD τ).loc main_arg3)))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v25 (Pipeline.mem_restRefs_of main_v25 (by decide) (by decide))).trans (Cert.Proof.R.result_eq m c),
      ((h c).2 main_arg0 (Pipeline.mem_restRefs_of main_arg0 (by decide) (by decide))).trans (W_main_arg0 m (Cert.Proof.R.dats m) c),
      ((h c).2 main_arg1 (Pipeline.mem_restRefs_of main_arg1 (by decide) (by decide))).trans (W_main_arg1 m (Cert.Proof.R.dats m) c),
      ((h c).2 main_arg2 (Pipeline.mem_restRefs_of main_arg2 (by decide) (by decide))).trans (W_main_arg2 m (Cert.Proof.R.dats m) c),
      ((h c).2 main_arg3 (Pipeline.mem_restRefs_of main_arg3 (by decide) (by decide))).trans (W_main_arg3 m (Cert.Proof.R.dats m) c)⟩)
    (Cert.Proof.R.run_main m ρ)

end ReferenceRun

/-! ## The claims -/

/-- From memories agreeing on the arguments both idealized programs end at the same function `G` of them. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩) (reference_run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_r, trivial, algebraic⟩

end Cert.Proof

end
